-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S32x4096 : Shape := ⟨2, ![32, 4096]⟩
abbrev S4096x128 : Shape := ⟨2, ![4096, 128]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : IVec S4096x4096 32) (main_arg2 : FVec F S32x4096 .f32) (main_arg3 : FVec F S32x4096 .f32) (main_arg4 : FVec F S4096x128 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x4096 .f32 := Host.absf main_arg2
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S32x4096 .f32 := Host.absf main_arg3
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096x128 .f32 := Host.absf main_arg4
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg5 main_v13 main_v16
-- ==== Kernel.lean ====
abbrev S4x2048x4096 : Shape := ⟨3, ![4, 2048, 4096]⟩
abbrev S4096x4096 : Shape := ⟨2, ![4096, 4096]⟩
abbrev S32x4096 : Shape := ⟨2, ![32, 4096]⟩
abbrev S4096x128 : Shape := ⟨2, ![4096, 128]⟩
abbrev S4096 : Shape := ⟨1, ![4096]⟩
abbrev S8192x4096 : Shape := ⟨2, ![8192, 4096]⟩
abbrev S128x4096 : Shape := ⟨2, ![128, 4096]⟩
abbrev S1024x1024 : Shape := ⟨2, ![1024, 1024]⟩
abbrev S1024x128 : Shape := ⟨2, ![1024, 128]⟩
abbrev S1024x512 : Shape := ⟨2, ![1024, 512]⟩
abbrev S8x512 : Shape := ⟨2, ![8, 512]⟩
abbrev S128x512 : Shape := ⟨2, ![128, 512]⟩
abbrev S512 : Shape := ⟨1, ![512]⟩
abbrev S8x1x512 : Shape := ⟨3, ![8, 1, 512]⟩
abbrev S8x128x512 : Shape := ⟨3, ![8, 128, 512]⟩
abbrev S1x512 : Shape := ⟨2, ![1, 512]⟩

abbrev nBuf : Space → Nat
  | .hbm => 11
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S32x4096, .f32⟩
  | .hbm, ⟨3, _⟩ => ⟨S32x4096, .f32⟩
  | .hbm, ⟨4, _⟩ => ⟨S4096x128, .f32⟩
  | .hbm, ⟨5, _⟩ => ⟨S4096, .f32⟩
  | .hbm, ⟨6, _⟩ => ⟨S8192x4096, .f32⟩
  | .hbm, ⟨7, _⟩ => ⟨S4096x4096, .i32⟩
  | .hbm, ⟨8, _⟩ => ⟨S128x4096, .f32⟩
  | .hbm, ⟨9, _⟩ => ⟨S8192x4096, .f32⟩
  | .hbm, ⟨10, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x512, .i32⟩
  | .local _ .vmem, ⟨5, _⟩ => ⟨S1024x512, .i32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S128x512, .f32⟩
  | .local _ .vmem, ⟨11, _⟩ => ⟨S128x512, .f32⟩
  | .local _ .vmem, ⟨12, _⟩ => ⟨S512, .f32⟩
  | .local _ .vmem, ⟨13, _⟩ => ⟨S512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v28 : BitVec 1 := Scalar.cmpi .eq arg2 c3_i32
  let v29 : BitVec 32 := Scalar.extui v28
  let c0_i32_12 : BitVec 32 := 0#32
  let v30 : BitVec 1 := Scalar.cmpi .ne v29 c0_i32_12
  v30

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let c0_i32 : BitVec 32 := 0#32
  ![arg0.toNat, c31_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S4x2048x4096_S8192x4096 : S4x2048x4096.ShapeCasts S8192x4096
  transposes_S4096x4096_S4096x4096_1_0 : S4096x4096.Transposes [1, 0] S4096x4096
  transposes_S4096x128_S128x4096_1_0 : S4096x128.Transposes [1, 0] S128x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S8x512_S8x512_0_0 : ∀ a, (![0, 0] : Fin 2 → Nat) a + S8x512.size a ≤ S8x512.size a
  h_S8x512 : 0 < S8x512.numel
  shapeCasts_S8x512_S8x1x512 : S8x512.ShapeCasts S8x1x512
  shapeCasts_S8x1x512_S8x1x512 : S8x1x512.ShapeCasts S8x1x512
  broadcasts_S8x1x512_S8x128x512 : S8x1x512.Broadcasts S8x128x512
  shapeCasts_S8x128x512_S1024x512 : S8x128x512.ShapeCasts S1024x512
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  shapeCasts_S8192x4096_S4x2048x4096 : S8192x4096.ShapeCasts S4x2048x4096
  dot_S1024x1024_S1024x512_S1024x512_1_0_0_1_n_n_wf : DotDims.WF S1024x1024 S1024x512 S1024x512 [1] [0] [0] [1] [] []
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x4096.size a
  hwx0_1 : ∀ i : grid0.Coords, EltTy.bits .f32 = 32 ∨ (Rect.block (s := S8192x4096) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .i32 = 32 ∨ (Rect.block (s := S4096x4096) S1024x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S32x4096.size a
  hwx0_3 : ∀ i : grid0.Coords, EltTy.bits .f32 = 32 ∨ (Rect.block (s := S32x4096) S8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S32x4096.size a
  hwx0_4 : ∀ i : grid0.Coords, EltTy.bits .f32 = 32 ∨ (Rect.block (s := S32x4096) S8x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x4096.size a
  hwx0_5 : ∀ i : grid0.Coords, EltTy.bits .f32 = 32 ∨ (Rect.block (s := S128x4096) S128x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S4096.size a
  hwx0_6 : ∀ i : grid0.Coords, EltTy.bits .f32 = 32 ∨ (Rect.block (s := S4096) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S8192x4096.size a
  hwx0_7 : ∀ i : grid0.Coords, EltTy.bits .f32 = 32 ∨ (Rect.block (s := S8192x4096) S1024x512.size (cc0_transform_7 i) (hinb0_7 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S8x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S8x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S32x4096 : Shape := ⟨2, ![32, 4096]⟩
abbrev S4096x128 : Shape := ⟨2, ![4096, 128]⟩
abbrev S4096 : Shape := ⟨1, ![4096]⟩
abbrev S32x128x4096 : Shape := ⟨3, ![32, 128, 4096]⟩
abbrev S4x2048x128 : Shape := ⟨3, ![4, 2048, 128]⟩
abbrev S1x1x4096 : Shape := ⟨3, ![1, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S32x4096, .f32⟩
  | .hbm, ⟨3, _⟩ => ⟨S32x4096, .f32⟩
  | .hbm, ⟨4, _⟩ => ⟨S4096x128, .f32⟩
  | .hbm, ⟨5, _⟩ => ⟨S4096, .f32⟩
  | .hbm, ⟨6, _⟩ => ⟨S32x128x4096, .f32⟩
  | .hbm, ⟨7, _⟩ => ⟨S4096x4096, .f32⟩
  | .hbm, ⟨8, _⟩ => ⟨S4096x4096, .f32⟩
  | .hbm, ⟨9, _⟩ => ⟨S32x128x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4x2048x4096, .f32⟩
  | .hbm, ⟨16, _⟩ => ⟨S4x2048x128, .f32⟩
  | .hbm, ⟨17, _⟩ => ⟨S4x2048x4096, .f32⟩
  | .hbm, ⟨18, _⟩ => ⟨S4x2048x4096, .f32⟩
  | .hbm, ⟨19, _⟩ => ⟨S1x1x4096, .f32⟩
  | .hbm, ⟨20, _⟩ => ⟨S4x2048x4096, .f32⟩
  | .hbm, ⟨21, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S32x4096_S32x128x4096_0_2 : S32x4096.BroadcastsInDim S32x128x4096 (![0, 2] : Fin 2 → Fin S32x128x4096.rank)
  shapeCasts_S32x128x4096_S4096x4096 : S32x128x4096.ShapeCasts S4096x4096
  transposes_S4096x4096_S4096x4096_1_0 : S4096x4096.Transposes [1, 0] S4096x4096
  slices_S4x2048x4096_S4x2048x128_0_0_3968 : S4x2048x4096.Slices ![0, 0, 3968] S4x2048x128
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []
  dot_S4x2048x128_S4096x128_S4x2048x4096_2_1_01_0_n_n_wf : DotDims.WF S4x2048x128 S4096x128 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x128_S4096x128_S4x2048x4096_2_1_01_0_n_n : DotDims S4x2048x128 S4096x128 S4x2048x4096 where
  lhsContracting := [2]
  rhsContracting := [1]
  lhsNonContracting := [0, 1]
  rhsNonContracting := [0]
  lhsBatch := []
  rhsBatch := []
  wf := dot_S4x2048x128_S4096x128_S4x2048x4096_2_1_01_0_n_n_wf

class Facts : Prop extends Facts₀ where

variable [Facts]
-- ==== Proof.Cases.lean ====
/-
  The kernel body branches twice on the grid's third coordinate k (the K-tile index, 0 ≤ k < 4): at k = 0 it
  resets the accumulator to the outlier product plus the bias, and at k = 3 it copies the accumulator into the
  output block. With the grid walked in order, point t has k = t mod 4; so the reset happens at the points
  ≡ 0 (mod 4) and the copy at the points ≡ 3 (mod 4), which are also exactly the points where the output
  window is written back and the only points where it is not idle.
-/
import proofs.«153761_j15461882266230_1_alg».proof.Proof.Gen.KernelIdeal.Launch
import proofs.«153761_j15461882266230_1_alg».proof.Proof.Gen.KernelIdeal.Skeleton
import proofs.«153761_j15461882266230_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.QuantLinear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset's guard (k = 0), as the body computes it from the grid coordinates. -/
abbrev isFirst (i : grid0.Coords) : Prop :=
  (Scalar.cmpi .ne (Scalar.extui (Scalar.cmpi .eq (BitVec.ofNat 32 (i 2).val) 0#32)) 0#32) = 1#1
/-- The copy-out's guard (k = 3). -/
abbrev isLast (i : grid0.Coords) : Prop := k0_cond2 i = 1#1

/-- The reset happens at the points ≡ 0 (mod 4). -/
theorem isFirst_iff : ∀ t : Fin cfg0.N, isFirst (grid0.coords t) ↔ t.val % 4 = 0 :=
  (by decide +kernel : ∀ t : Fin grid0.N, isFirst (grid0.coords t) ↔ t.val % 4 = 0)
/-- The copy-out happens at the points ≡ 3 (mod 4). -/
theorem isLast_iff : ∀ t : Fin cfg0.N, isLast (grid0.coords t) ↔ t.val % 4 = 3 :=
  (by decide +kernel : ∀ t : Fin grid0.N, isLast (grid0.coords t) ↔ t.val % 4 = 3)

/-- The output window is idle, and not written back, away from the copy-out points, -/
theorem out_idle : ∀ t : Fin cfg0.N, ¬isLast (grid0.coords t) → cfg0.idle 7 (grid0.coords t) = true := by decide +kernel
theorem out_noFlush : ∀ t : Fin cfg0.N, ¬isLast (grid0.coords t) → (cfg0.win 7).flush t = false := by decide +kernel
/-- and live at them. -/
theorem out_live : ∀ t : Fin cfg0.N, isLast (grid0.coords t) → cfg0.idle 7 (grid0.coords t) = false := by decide +kernel

end Cert.KernelIdeal.QuantLinear

end
-- ==== Proof.RunFirst.lean ====
/-
  The kernel body at a tile's first K-step: besides the weight, scale, zero and activation blocks it loads the
  outlier activations, the outlier weight and the bias, stores outlier product + bias into the accumulator,
  reads it back, and stores accumulator + activation · dequantised weight.
-/
import proofs.«153761_j15461882266230_1_alg».proof.Proof.Cases
import Idealize.ShloMosaic.Lib.Pipeline.Value

set_option maxRecDepth 16384

noncomputable section

namespace Cert.KernelIdeal.QuantLinear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

set_option maxHeartbeats 1000000 in
/-- The pieces the body's two stores leave in the accumulator at a tile's first step (last first), with the
    body's triple: from the seven input blocks and the accumulator at anything, it runs to the same blocks and
    the accumulator with those pieces written. -/
noncomputable def runFirst (i : grid0.Coords) (arg3 : Memref sig .tc .vmem S1024x1024 .f32) (harg3 : arg3.IsWhole) (arg4 : Memref sig .tc .vmem S1024x128 .f32) (harg4 : arg4.IsWhole) (arg5 : Memref sig .tc .vmem S1024x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole)
    (hc1 : isFirst i) (hc2 : ¬isLast i)
    (x3 : Vec F S1024x1024 .f32) (x4 : Vec F S1024x128 .f32) (x5 : Vec F S1024x512 .i32) (x6 x7 : Vec F S8x512 .f32)
    (x8 : Vec F S128x512 .f32) (x9 : Vec F S512 .f32) :
    { LS : List (View.Piece (Elt F) S1024x512 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8 ∗ owns (c : Thread nD τ) arg9 fullShare x9
            ∗ (∃ d, owns (c : Thread nD τ) arg11 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare x7 ∗ owns (c : Thread nD τ) arg8 fullShare x8 ∗ owns (c : Thread nD τ) arg9 fullShare x9
                ∗ (∃ f, arg11.view.loc (c : Thread nD τ) ↦[arg11.view.set]{fullShare} arg11.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, fun E K => ?run⟩
  case run =>
    simp only [cc0__kernel_eq_skeleton]; unfold cc0__kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
    obtain rfl := harg3.eq_unread hf3; obtain rfl := harg4.eq_unread hf4; obtain rfl := harg5.eq_unread hf5
    obtain rfl := harg6.eq_unread hf6; obtain rfl := harg7.eq_unread hf7; obtain rfl := harg8.eq_unread hf8
    obtain rfl := harg9.eq_unread hf9
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

/-- The first step's two stores read back: the reset value plus this step's product. -/
theorem runFirst_acc (i : grid0.Coords) (arg3 : Memref sig .tc .vmem S1024x1024 .f32) (harg3 : arg3.IsWhole) (arg4 : Memref sig .tc .vmem S1024x128 .f32) (harg4 : arg4.IsWhole) (arg5 : Memref sig .tc .vmem S1024x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole)
    (hc1 : isFirst i) (hc2 : ¬isLast i)
    (x3 : Vec F S1024x1024 .f32) (x4 : Vec F S1024x128 .f32) (x5 : Vec F S1024x512 .i32) (x6 x7 : Vec F S8x512 .f32)
    (x8 : Vec F S128x512 .f32) (x9 : Vec F S512 .f32) (f : arg11.view.ty.Contents (Elt F)) :
    arg11.view.read (Elt F) (arg11.view.writes (Elt F) f (runFirst c i arg3 harg3 arg4 harg4 arg5 harg5 arg6 harg6 arg7 harg7 arg8 harg8 arg9 harg9 arg10 harg10 arg11 harg11 hc1 hc2 x3 x4 x5 x6 x7 x8 x9).1)
      = k0_pay2 x5 x6 x7 x3 (k0_pay1 x4 x8 x9) := by
  have hz : (![0, 0] : Fin 2 → Nat) = fun _ => 0 := by funext a; fin_cases a <;> rfl
  have hz1 : (![0] : Fin 1 → Nat) = fun _ => 0 := by funext a; fin_cases a; rfl
  rw [View.read_writes_eq_canon _ _ _ (View.cover_of_tiledL _ S1024x512.size (by sl_kernel_rfl))]
  unfold runFirst; dsimp only; sl_unfold_words
  rw [View.canon_cons_unit_zero (S := S1024x512) hz]
  simp only [View.readAt_eq_ld, harg3.read_unread, harg4.read_unread, harg5.read_unread, harg6.read_unread, harg7.read_unread, harg8.read_unread, harg9.read_unread,
    View.ld_unit_zero (S := S1024x512) hz, View.ld_unit_zero (S := S8x512) hz, View.ld_unit_zero (S := S1024x1024) hz,
    View.ld_unit_zero (S := S1024x128) hz, View.ld_unit_zero (S := S128x512) hz, View.ld_unit_zero (S := S512) hz1,
    View.readCov_unit_zero (S := S1024x512) _ hz]

/-- The body's triple at a tile's first step, the accumulator's contents named. -/
theorem tripleFirst (i : grid0.Coords) (arg3 : Memref sig .tc .vmem S1024x1024 .f32) (harg3 : arg3.IsWhole) (arg4 : Memref sig .tc .vmem S1024x128 .f32) (harg4 : arg4.IsWhole) (arg5 : Memref sig .tc .vmem S1024x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole)
    (hc1 : isFirst i) (hc2 : ¬isLast i)
    (x3 : Vec F S1024x1024 .f32) (x4 : Vec F S1024x128 .f32) (x5 : Vec F S1024x512 .i32) (x6 x7 : Vec F S8x512 .f32)
    (x8 : Vec F S128x512 .f32) (x9 : Vec F S512 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ (∃ d, owns (c : Thread nD τ) arg11 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare x8 ∗ owns (c : Thread nD τ) arg9 fullShare x9
            ∗ owns (c : Thread nD τ) arg11 fullShare (k0_pay2 x5 x6 x7 x3 (k0_pay1 x4 x8 x9))) -∗ K ⟨⟩))
      ⊢ wp frame (wpE (defs₀ (F := F)) Variants.none c none) E (cc0__kernel i arg3 harg3 arg4 harg4 arg5 harg5 arg6 harg6 arg7 harg7 arg8 harg8 arg9 harg9 arg10 harg10 arg11 harg11) K := by
  iintro ⟨H3, H4, H5, H6, H7, H8, H9, HS, Hk⟩
  iapply ((runFirst c i arg3 harg3 arg4 harg4 arg5 harg5 arg6 harg6 arg7 harg7 arg8 harg8 arg9 harg9 arg10 harg10 arg11 harg11 hc1 hc2 x3 x4 x5 x6 x7 x8 x9).2 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  iintro ⟨H3, H4, H5, H6, H7, H8, H9, ⟨%f, HS⟩⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact HS
  ipureintro; exact runFirst_acc c i arg3 harg3 arg4 harg4 arg5 harg5 arg6 harg6 arg7 harg7 arg8 harg8 arg9 harg9 arg10 harg10 arg11 harg11 hc1 hc2 x3 x4 x5 x6 x7 x8 x9 f

end Cert.KernelIdeal.QuantLinear

end
-- ==== Proof.RunMid.lean ====
/-
  The kernel body at a middle K-tile (neither reset nor copy-out): it loads the weight, scale, zero and
  activation blocks and the accumulator, and stores accumulator + activation · dequantised weight back.
-/
import proofs.«153761_j15461882266230_1_alg».proof.Proof.Cases
import Idealize.ShloMosaic.Lib.Pipeline.Value

set_option maxRecDepth 16384

noncomputable section

namespace Cert.KernelIdeal.QuantLinear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

set_option maxHeartbeats 1000000 in
/-- The pieces the body's one store leaves in the accumulator at a middle tile, with the body's triple:
    from the four blocks it reads and the accumulator at `xs`, it runs to the same blocks and the
    accumulator with those pieces written. -/
noncomputable def runMid (i : grid0.Coords) (arg3 : Memref sig .tc .vmem S1024x1024 .f32) (harg3 : arg3.IsWhole) (arg4 : Memref sig .tc .vmem S1024x128 .f32) (harg4 : arg4.IsWhole) (arg5 : Memref sig .tc .vmem S1024x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole)
    (hc1 : ¬isFirst i) (hc2 : ¬isLast i)
    (x3 : Vec F S1024x1024 .f32) (x5 : Vec F S1024x512 .i32) (x6 x7 : Vec F S8x512 .f32) (xs : Vec F S1024x512 .f32) :
    { LS : List (View.Piece (Elt F) S1024x512 .f32) //
      ∀ (E : Set ℕ) (K : PUnit → sProp 𝕄),
        iprop(owns (c : Thread nD τ) arg3 fullShare x3 ∗ owns (c : Thread nD τ) arg5 fullShare x5 ∗ owns (c : Thread nD τ) arg6 fullShare x6
            ∗ owns (c : Thread nD τ) arg7 fullShare x7 ∗ owns (c : Thread nD τ) arg11 fullShare xs
            ∗ (iprop(owns (c : Thread nD τ) arg3 fullShare x3 ∗ owns (c : Thread nD τ) arg5 fullShare x5 ∗ owns (c : Thread nD τ) arg6 fullShare x6
                ∗ owns (c : Thread nD τ) arg7 fullShare x7
                ∗ (∃ f, arg11.view.loc (c : Thread nD τ) ↦[arg11.view.set]{fullShare} arg11.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, fun E K => ?run⟩
  case run =>
    simp only [cc0__kernel_eq_skeleton]; unfold cc0__kernel_skel
    unfold owns
    iintro ⟨⟨%f3, %hf3, H3⟩, ⟨%f5, %hf5, H5⟩, ⟨%f6, %hf6, H6⟩, ⟨%f7, %hf7, H7⟩, ⟨%fs, %hfs, HS⟩, Hk⟩
    obtain rfl := harg3.eq_unread hf3; obtain rfl := harg5.eq_unread hf5; obtain rfl := harg6.eq_unread hf6
    obtain rfl := harg7.eq_unread hf7; obtain rfl := harg11.eq_unread hfs
    sl_exec (disch := first | exact hc1 | exact hc2)
    sl_step
    iapply Hk
    isplitl [H3]
    · iexists _; isplitr; · ipureintro; exact harg3.read_unread _
      iexact H3
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact HS

/-- The middle step's one store read back: the accumulator plus this step's product. -/
theorem runMid_acc (i : grid0.Coords) (arg3 : Memref sig .tc .vmem S1024x1024 .f32) (harg3 : arg3.IsWhole) (arg4 : Memref sig .tc .vmem S1024x128 .f32) (harg4 : arg4.IsWhole) (arg5 : Memref sig .tc .vmem S1024x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole)
    (hc1 : ¬isFirst i) (hc2 : ¬isLast i)
    (x3 : Vec F S1024x1024 .f32) (x5 : Vec F S1024x512 .i32) (x6 x7 : Vec F S8x512 .f32) (xs : Vec F S1024x512 .f32)
    (f : arg11.view.ty.Contents (Elt F)) :
    arg11.view.read (Elt F) (arg11.view.writes (Elt F) f (runMid c i arg3 harg3 arg4 harg4 arg5 harg5 arg6 harg6 arg7 harg7 arg8 harg8 arg9 harg9 arg10 harg10 arg11 harg11 hc1 hc2 x3 x5 x6 x7 xs).1)
      = k0_pay2 x5 x6 x7 x3 xs := by
  have hz : (![0, 0] : Fin 2 → Nat) = fun _ => 0 := by funext a; fin_cases a <;> rfl
  have hz1 : (![0] : Fin 1 → Nat) = fun _ => 0 := by funext a; fin_cases a; rfl
  rw [View.read_writes_eq_canon _ _ _ (View.cover_of_tiledL _ S1024x512.size (by sl_kernel_rfl))]
  unfold runMid; dsimp only; sl_unfold_words
  rw [View.canon_unit_zero hz]
  simp only [View.readAt_eq_ld, harg3.read_unread, harg5.read_unread, harg6.read_unread, harg7.read_unread, harg11.read_unread,
    View.ld_unit_zero (S := S1024x512) hz, View.ld_unit_zero (S := S8x512) hz, View.ld_unit_zero (S := S1024x1024) hz,
    View.ld_unit_zero (S := S1024x128) hz, View.ld_unit_zero (S := S128x512) hz, View.ld_unit_zero (S := S512) hz1,
    View.readCov_unit_zero (S := S1024x512) _ hz]

/-- The body's triple at a middle step, the accumulator's contents named. -/
theorem tripleMid (i : grid0.Coords) (arg3 : Memref sig .tc .vmem S1024x1024 .f32) (harg3 : arg3.IsWhole) (arg4 : Memref sig .tc .vmem S1024x128 .f32) (harg4 : arg4.IsWhole) (arg5 : Memref sig .tc .vmem S1024x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole)
    (hc1 : ¬isFirst i) (hc2 : ¬isLast i)
    (x3 : Vec F S1024x1024 .f32) (x5 : Vec F S1024x512 .i32) (x6 x7 : Vec F S8x512 .f32) (xs : Vec F S1024x512 .f32)
    (E : Set ℕ) (K : PUnit → sProp 𝕄) :
    iprop(owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg11 fullShare xs
        ∗ (iprop(owns (c : Thread nD τ) arg3 fullShare x3 ∗ owns (c : Thread nD τ) arg5 fullShare x5 ∗ owns (c : Thread nD τ) arg6 fullShare x6 ∗ owns (c : Thread nD τ) arg7 fullShare x7
            ∗ owns (c : Thread nD τ) arg11 fullShare (k0_pay2 x5 x6 x7 x3 xs)) -∗ K ⟨⟩))
      ⊢ wp frame (wpE (defs₀ (F := F)) Variants.none c none) E (cc0__kernel i arg3 harg3 arg4 harg4 arg5 harg5 arg6 harg6 arg7 harg7 arg8 harg8 arg9 harg9 arg10 harg10 arg11 harg11) K := by
  iintro ⟨H3, H5, H6, H7, HS, Hk⟩
  iapply ((runMid c i arg3 harg3 arg4 harg4 arg5 harg5 arg6 harg6 arg7 harg7 arg8 harg8 arg9 harg9 arg10 harg10 arg11 harg11 hc1 hc2 x3 x5 x6 x7 xs).2 E K)
  isplitl [H3]; · iexact H3
  isplitl [H5]; · iexact H5
  isplitl [H6]; · iexact H6
  isplitl [H7]; · iexact H7
  isplitl [HS]; · iexact HS
  iintro ⟨H3, H5, H6, H7, ⟨%f, HS⟩⟩
  iapply Hk
  isplitl [H3]; · iexact H3
  isplitl [H5]; · iexact H5
  isplitl [H6]; · iexact H6
  isplitl [H7]; · iexact H7
  unfold owns; iexists _; isplitr
  swap; · iexact HS
  ipureintro; exact runMid_acc c i arg3 harg3 arg4 harg4 arg5 harg5 arg6 harg6 arg7 harg7 arg8 harg8 arg9 harg9 arg10 harg10 arg11 harg11 hc1 hc2 x3 x5 x6 x7 xs f

end Cert.KernelIdeal.QuantLinear

end
-- ==== Proof.RunLast.lean ====
/-
  The kernel body at a tile's last K-step: it adds the last partial product into the accumulator, reads the
  accumulator back and stores it, whole, into the output block.
-/
import proofs.«153761_j15461882266230_1_alg».proof.Proof.Cases
import Idealize.ShloMosaic.Lib.Pipeline.Value

set_option maxRecDepth 16384

noncomputable section

namespace Cert.KernelIdeal.QuantLinear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

set_option maxHeartbeats 1000000 in
/-- The pieces the body leaves in the output block and in the accumulator at a tile's last step, with the
    body's triple: from the four blocks it reads, the accumulator at `xs` and the output block at anything, it
    runs to the same blocks and both buffers with their pieces written. -/
noncomputable def runLast (i : grid0.Coords) (arg3 : Memref sig .tc .vmem S1024x1024 .f32) (harg3 : arg3.IsWhole) (arg4 : Memref sig .tc .vmem S1024x128 .f32) (harg4 : arg4.IsWhole) (arg5 : Memref sig .tc .vmem S1024x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole)
    (hc1 : ¬isFirst i) (hc2 : isLast i)
    (x3 : Vec F S1024x1024 .f32) (x5 : Vec F S1024x512 .i32) (x6 x7 : Vec F S8x512 .f32) (xs : Vec F S1024x512 .f32) :
    Σ' (LO : List (View.Piece (Elt F) S1024x512 .f32)), { LS : List (View.Piece (Elt F) S1024x512 .f32) //
      ∀ (E : Set ℕ) (K : PUnit → sProp 𝕄),
        iprop(owns (c : Thread nD τ) arg3 fullShare x3 ∗ owns (c : Thread nD τ) arg5 fullShare x5 ∗ owns (c : Thread nD τ) arg6 fullShare x6
            ∗ owns (c : Thread nD τ) arg7 fullShare x7 ∗ (∃ d, owns (c : Thread nD τ) arg10 fullShare d) ∗ owns (c : Thread nD τ) arg11 fullShare xs
            ∗ (iprop(owns (c : Thread nD τ) arg3 fullShare x3 ∗ owns (c : Thread nD τ) arg5 fullShare x5 ∗ owns (c : Thread nD τ) arg6 fullShare x6
                ∗ owns (c : Thread nD τ) arg7 fullShare x7
                ∗ (∃ f, arg10.view.loc (c : Thread nD τ) ↦[arg10.view.set]{fullShare} arg10.view.writes (Elt F) f LO)
                ∗ (∃ f, arg11.view.loc (c : Thread nD τ) ↦[arg11.view.set]{fullShare} arg11.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, ?_, fun E K => ?run⟩
  case run =>
    simp only [cc0__kernel_eq_skeleton]; unfold cc0__kernel_skel
    unfold owns
    iintro ⟨⟨%f3, %hf3, H3⟩, ⟨%f5, %hf5, H5⟩, ⟨%f6, %hf6, H6⟩, ⟨%f7, %hf7, H7⟩, ⟨%dout, %fo, -, HO⟩, ⟨%fs, %hfs, HS⟩, Hk⟩
    obtain rfl := harg3.eq_unread hf3; obtain rfl := harg5.eq_unread hf5; obtain rfl := harg6.eq_unread hf6
    obtain rfl := harg7.eq_unread hf7; obtain rfl := harg11.eq_unread hfs
    sl_exec (disch := first | exact hc1 | exact hc2)
    sl_step
    iapply Hk
    isplitl [H3]
    · iexists _; isplitr; · ipureintro; exact harg3.read_unread _
      iexact H3
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]
    · iexists _; iexact HO
    iexists _; iexact HS

/-- The last step's accumulator store read back: the accumulator plus this step's product; -/
theorem runLast_acc (i : grid0.Coords) (arg3 : Memref sig .tc .vmem S1024x1024 .f32) (harg3 : arg3.IsWhole) (arg4 : Memref sig .tc .vmem S1024x128 .f32) (harg4 : arg4.IsWhole) (arg5 : Memref sig .tc .vmem S1024x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole)
    (hc1 : ¬isFirst i) (hc2 : isLast i)
    (x3 : Vec F S1024x1024 .f32) (x5 : Vec F S1024x512 .i32) (x6 x7 : Vec F S8x512 .f32) (xs : Vec F S1024x512 .f32)
    (f : arg11.view.ty.Contents (Elt F)) :
    arg11.view.read (Elt F) (arg11.view.writes (Elt F) f (runLast c i arg3 harg3 arg4 harg4 arg5 harg5 arg6 harg6 arg7 harg7 arg8 harg8 arg9 harg9 arg10 harg10 arg11 harg11 hc1 hc2 x3 x5 x6 x7 xs).2.1)
      = k0_pay2 x5 x6 x7 x3 xs := by
  have hz : (![0, 0] : Fin 2 → Nat) = fun _ => 0 := by funext a; fin_cases a <;> rfl
  have hz1 : (![0] : Fin 1 → Nat) = fun _ => 0 := by funext a; fin_cases a; rfl
  rw [View.read_writes_eq_canon _ _ _ (View.cover_of_tiledL _ S1024x512.size (by sl_kernel_rfl))]
  unfold runLast; dsimp only; sl_unfold_words
  rw [View.canon_unit_zero hz]
  simp only [View.readAt_eq_ld, harg3.read_unread, harg5.read_unread, harg6.read_unread, harg7.read_unread, harg11.read_unread,
    View.ld_unit_zero (S := S1024x512) hz, View.ld_unit_zero (S := S8x512) hz, View.ld_unit_zero (S := S1024x1024) hz,
    View.ld_unit_zero (S := S1024x128) hz, View.ld_unit_zero (S := S128x512) hz, View.ld_unit_zero (S := S512) hz1,
    View.readCov_unit_zero (S := S1024x512) _ hz]

/-- and the output block's store read back: that same value. -/
theorem runLast_out (i : grid0.Coords) (arg3 : Memref sig .tc .vmem S1024x1024 .f32) (harg3 : arg3.IsWhole) (arg4 : Memref sig .tc .vmem S1024x128 .f32) (harg4 : arg4.IsWhole) (arg5 : Memref sig .tc .vmem S1024x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole)
    (hc1 : ¬isFirst i) (hc2 : isLast i)
    (x3 : Vec F S1024x1024 .f32) (x5 : Vec F S1024x512 .i32) (x6 x7 : Vec F S8x512 .f32) (xs : Vec F S1024x512 .f32)
    (f : arg10.view.ty.Contents (Elt F)) :
    arg10.view.read (Elt F) (arg10.view.writes (Elt F) f (runLast c i arg3 harg3 arg4 harg4 arg5 harg5 arg6 harg6 arg7 harg7 arg8 harg8 arg9 harg9 arg10 harg10 arg11 harg11 hc1 hc2 x3 x5 x6 x7 xs).1)
      = k0_pay2 x5 x6 x7 x3 xs := by
  have hz : (![0, 0] : Fin 2 → Nat) = fun _ => 0 := by funext a; fin_cases a <;> rfl
  have hz1 : (![0] : Fin 1 → Nat) = fun _ => 0 := by funext a; fin_cases a; rfl
  rw [View.read_writes_eq_canon _ _ _ (View.cover_of_tiledL _ S1024x512.size (by sl_kernel_rfl))]
  unfold runLast; dsimp only; sl_unfold_words
  rw [View.canon_unit_zero hz]
  simp only [View.readAt_eq_ld, harg3.read_unread, harg5.read_unread, harg6.read_unread, harg7.read_unread, harg11.read_unread,
    View.ld_unit_zero (S := S1024x512) hz, View.ld_unit_zero (S := S8x512) hz, View.ld_unit_zero (S := S1024x1024) hz,
    View.ld_unit_zero (S := S1024x128) hz, View.ld_unit_zero (S := S128x512) hz, View.ld_unit_zero (S := S512) hz1,
    View.readCov_unit_zero (S := S1024x512) _ hz]

/-- The body's triple at a tile's last step, both buffers' contents named. -/
theorem tripleLast (i : grid0.Coords) (arg3 : Memref sig .tc .vmem S1024x1024 .f32) (harg3 : arg3.IsWhole) (arg4 : Memref sig .tc .vmem S1024x128 .f32) (harg4 : arg4.IsWhole) (arg5 : Memref sig .tc .vmem S1024x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole)
    (hc1 : ¬isFirst i) (hc2 : isLast i)
    (x3 : Vec F S1024x1024 .f32) (x5 : Vec F S1024x512 .i32) (x6 x7 : Vec F S8x512 .f32) (xs : Vec F S1024x512 .f32)
    (E : Set ℕ) (K : PUnit → sProp 𝕄) :
    iprop(owns (c : Thread nD τ) arg3 fullShare x3 ∗ owns (c : Thread nD τ) arg5 fullShare x5 ∗ owns (c : Thread nD τ) arg6 fullShare x6 ∗ owns (c : Thread nD τ) arg7 fullShare x7
        ∗ (∃ d, owns (c : Thread nD τ) arg10 fullShare d) ∗ owns (c : Thread nD τ) arg11 fullShare xs
        ∗ (iprop(owns (c : Thread nD τ) arg3 fullShare x3 ∗ owns (c : Thread nD τ) arg5 fullShare x5 ∗ owns (c : Thread nD τ) arg6 fullShare x6 ∗ owns (c : Thread nD τ) arg7 fullShare x7
            ∗ owns (c : Thread nD τ) arg10 fullShare (k0_pay2 x5 x6 x7 x3 xs) ∗ owns (c : Thread nD τ) arg11 fullShare (k0_pay2 x5 x6 x7 x3 xs)) -∗ K ⟨⟩))
      ⊢ wp frame (wpE (defs₀ (F := F)) Variants.none c none) E (cc0__kernel i arg3 harg3 arg4 harg4 arg5 harg5 arg6 harg6 arg7 harg7 arg8 harg8 arg9 harg9 arg10 harg10 arg11 harg11) K := by
  iintro ⟨H3, H5, H6, H7, HO, HS, Hk⟩
  iapply ((runLast c i arg3 harg3 arg4 harg4 arg5 harg5 arg6 harg6 arg7 harg7 arg8 harg8 arg9 harg9 arg10 harg10 arg11 harg11 hc1 hc2 x3 x5 x6 x7 xs).2.2 E K)
  isplitl [H3]; · iexact H3
  isplitl [H5]; · iexact H5
  isplitl [H6]; · iexact H6
  isplitl [H7]; · iexact H7
  isplitl [HO]; · iexact HO
  isplitl [HS]; · iexact HS
  iintro ⟨H3, H5, H6, H7, ⟨%fo, HO⟩, ⟨%f, HS⟩⟩
  iapply Hk
  isplitl [H3]; · iexact H3
  isplitl [H5]; · iexact H5
  isplitl [H6]; · iexact H6
  isplitl [H7]; · iexact H7
  isplitl [HO]
  · unfold owns; iexists _; isplitr
    swap; · iexact HO
    ipureintro; exact runLast_out c i arg3 harg3 arg4 harg4 arg5 harg5 arg6 harg6 arg7 harg7 arg8 harg8 arg9 harg9 arg10 harg10 arg11 harg11 hc1 hc2 x3 x5 x6 x7 xs fo
  unfold owns; iexists _; isplitr
  swap; · iexact HS
  ipureintro; exact runLast_acc c i arg3 harg3 arg4 harg4 arg5 harg5 arg6 harg6 arg7 harg7 arg8 harg8 arg9 harg9 arg10 harg10 arg11 harg11 hc1 hc2 x3 x5 x6 x7 xs f

end Cert.KernelIdeal.QuantLinear

end
-- ==== Proof.Data.lean ====
/-
  The proof data of the one pipeline. The accumulator (the kernel's scratch block) is followed through the grid:
  after point t it holds  acc(t) = pay2(blocks at t, prev)  where prev is the reset value pay1(blocks at t) when t is
  a tile's first K-step (t ≡ 0 mod 4) and acc(t-1) otherwise; the output block is stored, equal to acc(t), at the
  tile's last K-step (t ≡ 3 mod 4) and left alone elsewhere. Every input window's buffer holds its array's block at
  every point. The activation array is handed to two windows (the main K-tile and the outlier columns), so each
  holds half of it.
-/
import proofs.«153761_j15461882266230_1_alg».proof.Proof.RunFirst
import proofs.«153761_j15461882266230_1_alg».proof.Proof.RunMid
import proofs.«153761_j15461882266230_1_alg».proof.Proof.RunLast
import Idealize.ShloMosaic.Lib.Pipeline.Frame
import Idealize.ShloMosaic.Lib.Pipeline.Regions

set_option maxRecDepth 16384

noncomputable section

namespace Cert.KernelIdeal.QuantLinear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them, and their blocks -/

/-- Core `c`'s buffer contents when the region is entered: after the three host operations before it
    (the activations flattened to rows, the quantised weight and the outlier weight transposed). -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The seven input blocks at a point, at their literal types. -/
abbrev actBlk (c : Dev nD) (t : Fin cfg0.N) : Vec F S1024x1024 .f32 := iblk m c 0 t
abbrev actOutBlk (c : Dev nD) (t : Fin cfg0.N) : Vec F S1024x128 .f32 := iblk m c 1 t
abbrev qwBlk (c : Dev nD) (t : Fin cfg0.N) : Vec F S1024x512 .i32 := iblk m c 2 t
abbrev scBlk (c : Dev nD) (t : Fin cfg0.N) : Vec F S8x512 .f32 := iblk m c 3 t
abbrev zrBlk (c : Dev nD) (t : Fin cfg0.N) : Vec F S8x512 .f32 := iblk m c 4 t
abbrev owBlk (c : Dev nD) (t : Fin cfg0.N) : Vec F S128x512 .f32 := iblk m c 5 t
abbrev bsBlk (c : Dev nD) (t : Fin cfg0.N) : Vec F S512 .f32 := iblk m c 6 t

/-- Each window's current staging memref at point `t`, as the pipeline passes it to the body, and its wholeness. -/
abbrev sm0 (t : Fin cfg0.N) : Memref sig .tc .vmem S1024x1024 .f32 := win0_0.stage (cfg0.slots t 0)
abbrev hs0 (t : Fin cfg0.N) : (sm0 t).IsWhole := hstage0_0 ((cfg0.slots t 0).cast nbuf0_0)
abbrev sm1 (t : Fin cfg0.N) : Memref sig .tc .vmem S1024x128 .f32 := win0_1.stage (cfg0.slots t 1)
abbrev hs1 (t : Fin cfg0.N) : (sm1 t).IsWhole := hstage0_1 ((cfg0.slots t 1).cast nbuf0_1)
abbrev sm2 (t : Fin cfg0.N) : Memref sig .tc .vmem S1024x512 .i32 := win0_2.stage (cfg0.slots t 2)
abbrev hs2 (t : Fin cfg0.N) : (sm2 t).IsWhole := hstage0_2 ((cfg0.slots t 2).cast nbuf0_2)
abbrev sm3 (t : Fin cfg0.N) : Memref sig .tc .vmem S8x512 .f32 := win0_3.stage (cfg0.slots t 3)
abbrev hs3 (t : Fin cfg0.N) : (sm3 t).IsWhole := hstage0_3 ((cfg0.slots t 3).cast nbuf0_3)
abbrev sm4 (t : Fin cfg0.N) : Memref sig .tc .vmem S8x512 .f32 := win0_4.stage (cfg0.slots t 4)
abbrev hs4 (t : Fin cfg0.N) : (sm4 t).IsWhole := hstage0_4 ((cfg0.slots t 4).cast nbuf0_4)
abbrev sm5 (t : Fin cfg0.N) : Memref sig .tc .vmem S128x512 .f32 := win0_5.stage (cfg0.slots t 5)
abbrev hs5 (t : Fin cfg0.N) : (sm5 t).IsWhole := hstage0_5 ((cfg0.slots t 5).cast nbuf0_5)
abbrev sm6 (t : Fin cfg0.N) : Memref sig .tc .vmem S512 .f32 := win0_6.stage (cfg0.slots t 6)
abbrev hs6 (t : Fin cfg0.N) : (sm6 t).IsWhole := hstage0_6 ((cfg0.slots t 6).cast nbuf0_6)
abbrev sm7 (t : Fin cfg0.N) : Memref sig .tc .vmem S1024x512 .f32 := win0_7.stage (cfg0.slots t 7)
abbrev hs7 (t : Fin cfg0.N) : (sm7 t).IsWhole := hstage0_7 ((cfg0.slots t 7).cast nbuf0_7)
/-- The accumulator: the kernel's scratch block. -/
abbrev scr : Memref sig .tc .vmem S1024x512 .f32 := Memref.whole cc0_scratch0

/-! ## The accumulator through the grid -/

/-- What the accumulator is reset to at a tile's first K-step: the outlier product plus the bias. -/
def accInit (c : Dev nD) (t : Fin cfg0.N) : Vec F S1024x512 .f32 := k0_pay1 (actOutBlk m c t) (owBlk m c t) (bsBlk m c t)

/-- The accumulator after the point at position `n`. -/
def accAt (c : Dev nD) : (n : ℕ) → n < cfg0.N → Vec F S1024x512 .f32
  | 0, hn => k0_pay2 (qwBlk m c ⟨0, hn⟩) (scBlk m c ⟨0, hn⟩) (zrBlk m c ⟨0, hn⟩) (actBlk m c ⟨0, hn⟩) (accInit m c ⟨0, hn⟩)
  | n + 1, hn => k0_pay2 (qwBlk m c ⟨n + 1, hn⟩) (scBlk m c ⟨n + 1, hn⟩) (zrBlk m c ⟨n + 1, hn⟩) (actBlk m c ⟨n + 1, hn⟩)
      (if (n + 1) % 4 = 0 then accInit m c ⟨n + 1, hn⟩ else accAt c n (Nat.lt_of_succ_lt hn))

/-- At a tile's first K-step the accumulator restarts from the reset value. -/
theorem accAt_first (c : Dev nD) (t : Fin cfg0.N) (h : t.val % 4 = 0) :
    accAt m c t.val t.isLt = k0_pay2 (qwBlk m c t) (scBlk m c t) (zrBlk m c t) (actBlk m c t) (accInit m c t) := by
  obtain ⟨n, hn⟩ := t
  cases n with
  | zero => rfl
  | succ n => exact (congrArg (k0_pay2 _ _ _ _) (if_pos h))

/-- At any other K-step it adds this step's product to what the point before left. -/
theorem accAt_next (c : Dev nD) (t : Fin cfg0.N) (h : ¬t.val % 4 = 0) :
    accAt m c t.val t.isLt = k0_pay2 (qwBlk m c t) (scBlk m c t) (zrBlk m c t) (actBlk m c t)
      (accAt m c (t.val - 1) (Nat.lt_of_le_of_lt (Nat.sub_le _ _) t.isLt)) := by
  obtain ⟨n, hn⟩ := t
  cases n with
  | zero => exact absurd (Nat.zero_mod _) h
  | succ n => exact (congrArg (k0_pay2 _ _ _ _) (if_neg h))

/-! ## The region invariant: the accumulator at what the point before left -/

/-- Before position `n`: at the first point the scratch block at anything; afterwards at the accumulator's value. -/
def PhiS (c : Dev nD) : (n : ℕ) → n ≤ cfg0.N → sProp 𝕄
  | 0, _ => iprop(∃ d, owns (c : Thread nD τ) scr fullShare d)
  | n + 1, hn => owns (c : Thread nD τ) scr fullShare (accAt m c n hn)

theorem PhiS_zero (c : Dev nD) (n : ℕ) (h : n ≤ cfg0.N) (hz : n = 0) :
    PhiS m c n h = iprop(∃ d, owns (c : Thread nD τ) scr fullShare d) := by
  subst hz; rfl

theorem PhiS_succ (c : Dev nD) (n : ℕ) (hn : n < cfg0.N) :
    PhiS m c (n + 1) hn = owns (c : Thread nD τ) scr fullShare (accAt m c n hn) := rfl

theorem PhiS_pos (c : Dev nD) (n : ℕ) (h : n ≤ cfg0.N) (hz : n ≠ 0) :
    PhiS m c n h = owns (c : Thread nD τ) scr fullShare (accAt m c (n - 1) (by omega)) := by
  cases n with
  | zero => exact absurd rfl hz
  | succ n => rfl

/-- The scoped buffers no window stages are the scratch block alone: held at anything, they are the invariant
    before the first point, and the invariant after any point gives them back. -/
theorem scopedRest_eq_scr (c : Dev nD) :
    (Pipeline.scopedRest (Ix := Unit) (Name := ℕ) (U := UR sig nD τ) (Lvl := ℕ) (Val := Elt F) spec0 c : sProp 𝕄)
      = iprop(∃ d, owns (c : Thread nD τ) scr fullShare d) := by
  rw [scopedRest0_eq]; simp only [scr, owns_whole]; try rfl

/-! ## The proof data -/

/-- The arrays as the region finds them; after the body each input's buffer at its block and the output's at the
    accumulator; the invariant `PhiS`; nothing owed; the activation array's two windows at half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

/-- Before the first point the invariant is the scoped rest; -/
theorem Phi_zero (c : Dev nD) :
    (dats m 0 c).Φ 0 = (Pipeline.scopedRest (Ix := Unit) (Name := ℕ) (U := UR sig nD τ) (Lvl := ℕ) (Val := Elt F) spec0 c : sProp 𝕄) := by
  rw [scopedRest_eq_scr]; rfl

/-- after the last it gives the scoped rest back (the accumulator's value forgotten). -/
theorem Phi_last (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [scopedRest_eq_scr, show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega)]
  iintro H; iexists _; iexact H

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = accAt m c t.val t.isLt := by dsimp only [dats]

/-- Each input's current staging buffer holds its array's block at every point, fetched there or not: where it is
    not fetched the block index has not moved and the body left the block in place. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

/-- No input window is idle anywhere. -/
theorem live_0 (t : Fin cfg0.N) : cfg0.idle 0 (grid0.coords t) = false := rfl
theorem live_1 (t : Fin cfg0.N) : cfg0.idle 1 (grid0.coords t) = false := rfl
theorem live_2 (t : Fin cfg0.N) : cfg0.idle 2 (grid0.coords t) = false := rfl
theorem live_3 (t : Fin cfg0.N) : cfg0.idle 3 (grid0.coords t) = false := rfl
theorem live_4 (t : Fin cfg0.N) : cfg0.idle 4 (grid0.coords t) = false := rfl
theorem live_5 (t : Fin cfg0.N) : cfg0.idle 5 (grid0.coords t) = false := rfl
theorem live_6 (t : Fin cfg0.N) : cfg0.idle 6 (grid0.coords t) = false := rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (sm0 t) fullShare ((dats m 0 c).before 0 t d))
    ∗ (∃ d, owns (c : Thread nD τ) (sm1 t) fullShare ((dats m 0 c).before 1 t d))
    ∗ (∃ d, owns (c : Thread nD τ) (sm2 t) fullShare ((dats m 0 c).before 2 t d))
    ∗ (∃ d, owns (c : Thread nD τ) (sm3 t) fullShare ((dats m 0 c).before 3 t d))
    ∗ (∃ d, owns (c : Thread nD τ) (sm4 t) fullShare ((dats m 0 c).before 4 t d))
    ∗ (∃ d, owns (c : Thread nD τ) (sm5 t) fullShare ((dats m 0 c).before 5 t d))
    ∗ (∃ d, owns (c : Thread nD τ) (sm6 t) fullShare ((dats m 0 c).before 6 t d))
    ∗ (∃ d, owns (c : Thread nD τ) (sm7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point. The inputs' buffers hold their blocks; t mod 4 says which of the three control cases
    the point is in; the invariant hands the body the accumulator at what the point before left (at anything
    before the first point) and takes it back at this point's value; the output buffer is handed back untouched
    except at a tile's last K-step, where it is left at the accumulator's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (sm0 t) fullShare ((dats m 0 c).after 0 t) from by
    unfold Dat.leavesExact; rw [live_0 t], after_0]
  rw [show (dats m 0 c).leavesExact 1 t = owns (c : Thread nD τ) (sm1 t) fullShare ((dats m 0 c).after 1 t) from by
    unfold Dat.leavesExact; rw [live_1 t], after_1]
  rw [show (dats m 0 c).leavesExact 2 t = owns (c : Thread nD τ) (sm2 t) fullShare ((dats m 0 c).after 2 t) from by
    unfold Dat.leavesExact; rw [live_2 t], after_2]
  rw [show (dats m 0 c).leavesExact 3 t = owns (c : Thread nD τ) (sm3 t) fullShare ((dats m 0 c).after 3 t) from by
    unfold Dat.leavesExact; rw [live_3 t], after_3]
  rw [show (dats m 0 c).leavesExact 4 t = owns (c : Thread nD τ) (sm4 t) fullShare ((dats m 0 c).after 4 t) from by
    unfold Dat.leavesExact; rw [live_4 t], after_4]
  rw [show (dats m 0 c).leavesExact 5 t = owns (c : Thread nD τ) (sm5 t) fullShare ((dats m 0 c).after 5 t) from by
    unfold Dat.leavesExact; rw [live_5 t], after_5]
  rw [show (dats m 0 c).leavesExact 6 t = owns (c : Thread nD τ) (sm6 t) fullShare ((dats m 0 c).after 6 t) from by
    unfold Dat.leavesExact; rw [live_6 t], after_6]
  have hN : t.val < 256 := lt_of_lt_of_eq t.isLt (show cfg0.N = 256 from N_0)
  by_cases h0 : t.val % 4 = 0
  · -- a tile's first K-step
    have hF : isFirst (grid0.coords t) := (isFirst_iff t).mpr h0
    have hL : ¬isLast (grid0.coords t) := fun h => by have := (isLast_iff t).mp h; omega
    rw [Dat.leavesExact_idle (dats m 0 c) 7 t (out_idle t hL) (out_noFlush t hL)]
    rw [accAt_first m c t h0]
    have hscr : (dats m 0 c).Φ t.castSucc ⊢ (iprop(∃ d, owns (c : Thread nD τ) scr fullShare d) : sProp 𝕄) := by
      rw [Phi_castSucc m c t]
      by_cases hz : t.val = 0
      · rw [PhiS_zero m c _ _ hz]
      · rw [PhiS_pos m c _ _ hz]; iintro H; iexists _; iexact H
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HS' := hscr $$ HS
    iapply (tripleFirst c (grid0.coords t) _ _ _ _ _ _ _ _ _ _ _ _ _ _ _ _ _ _ hF hL
      (actBlk m c t) (actOutBlk m c t) (qwBlk m c t) (scBlk m c t) (zrBlk m c t) (owBlk m c t) (bsBlk m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS']; · iexact HS'
    iintro ⟨H0, H1, H2, H3, H4, H5, H6, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hF : ¬isFirst (grid0.coords t) := fun h => h0 ((isFirst_iff t).mp h)
    have hz : t.val ≠ 0 := fun h => h0 (by rw [h])
    rw [Phi_castSucc m c t, PhiS_pos m c _ _ hz, accAt_next m c t h0]
    by_cases h3 : t.val % 4 = 3
    · -- a tile's last K-step
      have hL : isLast (grid0.coords t) := (isLast_iff t).mpr h3
      rw [show (dats m 0 c).leavesExact 7 t = owns (c : Thread nD τ) (sm7 t) fullShare ((dats m 0 c).after 7 t) from by
        unfold Dat.leavesExact; rw [out_live t hL], after_7, accAt_next m c t h0]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (tripleLast c (grid0.coords t) _ _ _ _ _ _ _ _ _ _ _ _ _ _ _ _ _ _ hF hL
        (actBlk m c t) (qwBlk m c t) (scBlk m c t) (zrBlk m c t) (accAt m c (t.val - 1) (Nat.lt_of_le_of_lt (Nat.sub_le _ _) t.isLt)) Set.univ _)
      isplitl [H0]; · iexact H0
      isplitl [H2]; · iexact H2
      isplitl [H3]; · iexact H3
      isplitl [H4]; · iexact H4
      isplitl [H7]; · iexists _; iexact H7
      isplitl [HS]; · iexact HS
      iintro ⟨H0, H2, H3, H4, H7, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a middle K-step
      have hL : ¬isLast (grid0.coords t) := fun h => h3 ((isLast_iff t).mp h)
      rw [Dat.leavesExact_idle (dats m 0 c) 7 t (out_idle t hL) (out_noFlush t hL)]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (tripleMid c (grid0.coords t) _ _ _ _ _ _ _ _ _ _ _ _ _ _ _ _ _ _ hF hL
        (actBlk m c t) (qwBlk m c t) (scBlk m c t) (zrBlk m c t) (accAt m c (t.val - 1) (Nat.lt_of_le_of_lt (Nat.sub_le _ _) t.isLt)) Set.univ _)
      isplitl [H0]; · iexact H0
      isplitl [H2]; · iexact H2
      isplitl [H3]; · iexact H3
      isplitl [H4]; · iexact H4
      isplitl [HS]; · iexact HS
      iintro ⟨H0, H2, H3, H4, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.QuantLinear

end
-- ==== Proof.Launch.lean ====
/-
  The launch. @main is three host operations (the activations flattened to rows, the quantised weight and the
  outlier weight transposed), one kernel region, and one host operation after it (the output rows read back at the
  result's shape). Its run: from any memory whose semaphore counters are zero, every weakly fair execution of @main
  on the TensorCores terminates, and every final state holds, in the result's buffer, the output array as the region
  leaves it read at the result's shape, and every argument array as it was.

  Between segments the thread state is the core's unscoped buffers, each whole at a valuation, beside what the core
  owes (nothing). The region takes the buffers behind its windows out of them — the activation rows' buffer, handed
  to two windows, as two halves — and gives them back, the halves joined, the output's buffer at what the last
  write-back leaves; the four buffers no window has bypass it; its invariant before the first point and after the
  last is the scratch block at anything.
-/
import proofs.«153761_j15461882266230_1_alg».proof.Proof.Data
import Idealize.ShloMosaic.Lib.Pipeline.Frame
import Idealize.ShloMosaic.Lib.Pipeline.Regions
import Idealize.ShloMosaic.Lib.Pipeline.Kit

set_option maxRecDepth 16384

noncomputable section

namespace Cert.KernelIdeal.QuantLinear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations between the segments -/

/-- Core `c`'s buffers at launch. -/
abbrev Vl (c : Dev nD) : Valuation τ sig (Elt F) := fun b => m ((c : Dev nD), b)

/-- The output array as the region leaves it: after every write-back. -/
abbrev outArr (c : Dev nD) : Buf (Elt F) ((c : Thread nD τ).loc main_v3) := (dats m 0 c).arrAt 7 cfg0.N

/-- Core `c`'s buffers when the region is left: as it found them, the output array at what it leaves. -/
def Wv (c : Dev nD) : Valuation τ sig (Elt F) := Function.update (V0 m c) (Proc.devRef .tc main_v3) (outArr m c)

theorem Wv_v3 (c : Dev nD) : Wv m c (Proc.devRef .tc main_v3) = outArr m c := Function.update_self _ _ _

theorem Wv_ne (c : Dev nD) (b : Ref sig .tc) (h : b ≠ main_v3) : Wv m c (Proc.devRef .tc b) = V m c b :=
  Function.update_of_ne (StableHlo.devRef_ne_of_ne h) _ _

/-- The result: the output array read at the result's shape. -/
abbrev result (c : Dev nD) : Buf (Elt F) ((c : Thread nD τ).loc main_v4) :=
  shapeCast (s := S8192x4096) (α := Elt F .f32) S4x2048x4096 (outArr m c) shapeCasts_S8192x4096_S4x2048x4096

/-! ## What the host operations write -/

/-- The three operations before the region write their results only. -/
theorem not_written0 (b : Ref sig .tc) (h0 : b ≠ main_v0) (h1 : b ≠ main_v1) (h2 : b ≠ main_v2) :
    ∀ op ∈ (hostOps0 (F := F)), Proc.devRef (τ := τ) .tc b ∉ op.writes := by
  intro op hop
  simp only [List.mem_cons, List.mem_nil_iff, or_false] at hop
  rcases hop with rfl | rfl | rfl
  · simp only [StableHlo.reshape_writes, Finset.mem_singleton]; exact StableHlo.devRef_ne_of_ne h0
  · simp only [StableHlo.unary_writes, Finset.mem_singleton]; exact StableHlo.devRef_ne_of_ne h1
  · simp only [StableHlo.unary_writes, Finset.mem_singleton]; exact StableHlo.devRef_ne_of_ne h2

/-- The operation after it writes the result only. -/
theorem not_written1 (b : Ref sig .tc) (h4 : b ≠ main_v4) :
    ∀ op ∈ (hostOps1 (F := F)), Proc.devRef (τ := τ) .tc b ∉ op.writes := by
  intro op hop
  simp only [List.mem_cons, List.mem_nil_iff, or_false] at hop
  subst hop
  simp only [StableHlo.reshape_writes, Finset.mem_singleton]; exact StableHlo.devRef_ne_of_ne h4

/-- A buffer no host operation writes reaches the region as launched. -/
theorem V_arg (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) hostOps0 (Vl m c) (not_written0 b h0 h1 h2)

/-- At the end the result's buffer holds the output array at the result's shape; -/
theorem end_v4 (c : Dev nD) : StableHlo.after hostOps1 (Wv m c) (Proc.devRef .tc main_v4) = result m c := by
  refine (StableHlo.reshape_result main_v3 main_v4 rfl shapeCasts_S8192x4096_S4x2048x4096 ⟨by decide, rfl⟩ ⟨by decide, rfl⟩ (Wv m c)).trans ?_
  rw [Wv_v3]; rfl

/-- an argument's buffer what it held at launch. -/
theorem end_arg (c : Dev nD) (b : Ref sig .tc) (h0 : b ≠ main_v0) (h1 : b ≠ main_v1) (h2 : b ≠ main_v2) (h3 : b ≠ main_v3) (h4 : b ≠ main_v4) :
    StableHlo.after hostOps1 (Wv m c) (Proc.devRef .tc b) = m ((c : Thread nD τ).loc b) :=
  (StableHlo.after_of_forall_not_mem (b := Proc.devRef .tc b) hostOps1 (Wv m c) (not_written1 b h4)).trans
    ((Wv_ne m c b h3).trans (V_arg m c b h0 h1 h2))

/-! ## The unscoped buffers, one by one -/

/-- A TensorCore reference whose buffer is not scoped is among the unscoped device buffers. -/
theorem mem_ucRefs (b : Ref sig .tc) (h : (Proc.devRef (τ := τ) .tc b).isScoped = false) :
    Proc.devRef (τ := τ) .tc b ∈ Pipeline.ucRefs τ sig :=
  Finset.mem_filter.mpr ⟨StableHlo.devRef_mem_tcRefs b, fun h' => Bool.false_ne_true (h.symm.trans h')⟩

/-- The core's unscoped buffers held at a valuation: the six arguments and the five values of @main. -/
theorem held_chain (c : Dev nD) (W : Valuation τ sig (Elt F)) :
    (StableHlo.held (c : Thread nD τ) (Pipeline.ucRefs τ sig) W : sProp 𝕄)
      = iprop((((c : Thread nD τ).loc main_arg0) ↦{fullShare} W (Proc.devRef .tc main_arg0))
          ∗ (((c : Thread nD τ).loc main_arg1) ↦{fullShare} W (Proc.devRef .tc main_arg1))
          ∗ (((c : Thread nD τ).loc main_arg2) ↦{fullShare} W (Proc.devRef .tc main_arg2))
          ∗ (((c : Thread nD τ).loc main_arg3) ↦{fullShare} W (Proc.devRef .tc main_arg3))
          ∗ (((c : Thread nD τ).loc main_arg4) ↦{fullShare} W (Proc.devRef .tc main_arg4))
          ∗ (((c : Thread nD τ).loc main_arg5) ↦{fullShare} W (Proc.devRef .tc main_arg5))
          ∗ (((c : Thread nD τ).loc main_v0) ↦{fullShare} W (Proc.devRef .tc main_v0))
          ∗ (((c : Thread nD τ).loc main_v1) ↦{fullShare} W (Proc.devRef .tc main_v1))
          ∗ (((c : Thread nD τ).loc main_v2) ↦{fullShare} W (Proc.devRef .tc main_v2))
          ∗ (((c : Thread nD τ).loc main_v3) ↦{fullShare} W (Proc.devRef .tc main_v3))
          ∗ (((c : Thread nD τ).loc main_v4) ↦{fullShare} W (Proc.devRef .tc main_v4))) := by
  refine (Pipeline.unscopedBufs_held (Ix := Unit) (Name := ℕ) (U := UR sig nD τ) (Lvl := ℕ) c W).symm.trans ?_
  unfold unscopedBufs
  exact bigSep_eq_bigSepL_of_eq
    [main_arg0, main_arg1, main_arg2, main_arg3, main_arg4, main_arg5, main_v0, main_v1, main_v2, main_v3, main_v4]
    (by decide) (by decide) _

/-- The same as the region is left: every buffer as the region found it, the output array at what it leaves. -/
theorem held_Wv (c : Dev nD) :
    (StableHlo.held (c : Thread nD τ) (Pipeline.ucRefs τ sig) (Wv m c) : sProp 𝕄)
      = iprop((((c : Thread nD τ).loc main_arg0) ↦{fullShare} V m c main_arg0)
          ∗ (((c : Thread nD τ).loc main_arg1) ↦{fullShare} V m c main_arg1)
          ∗ (((c : Thread nD τ).loc main_arg2) ↦{fullShare} V m c main_arg2)
          ∗ (((c : Thread nD τ).loc main_arg3) ↦{fullShare} V m c main_arg3)
          ∗ (((c : Thread nD τ).loc main_arg4) ↦{fullShare} V m c main_arg4)
          ∗ (((c : Thread nD τ).loc main_arg5) ↦{fullShare} V m c main_arg5)
          ∗ (((c : Thread nD τ).loc main_v0) ↦{fullShare} V m c main_v0)
          ∗ (((c : Thread nD τ).loc main_v1) ↦{fullShare} V m c main_v1)
          ∗ (((c : Thread nD τ).loc main_v2) ↦{fullShare} V m c main_v2)
          ∗ (((c : Thread nD τ).loc main_v3) ↦{fullShare} outArr m c)
          ∗ (((c : Thread nD τ).loc main_v4) ↦{fullShare} V m c main_v4)) := by
  rw [held_chain, Wv_v3, Wv_ne m c main_arg0 (by decide), Wv_ne m c main_arg1 (by decide), Wv_ne m c main_arg2 (by decide),
    Wv_ne m c main_arg3 (by decide), Wv_ne m c main_arg4 (by decide), Wv_ne m c main_arg5 (by decide),
    Wv_ne m c main_v0 (by decide), Wv_ne m c main_v1 (by decide), Wv_ne m c main_v2 (by decide), Wv_ne m c main_v4 (by decide)]

/-! ## The windows' arrays, one by one -/

/-- A window's array is a whole buffer: its points-to is the buffer's. -/
theorem arr_pt (c : Dev nD) (w : Fin cfg0.W) (q : PosShare TreeShare) (f : Buf (Elt F) ((cfg0.win w).arr.view.loc (c : Thread nD τ))) :
    ((cfg0.win w).arr.view.loc (c : Thread nD τ) ↦[(cfg0.win w).arr.view.set]{q} f : sProp 𝕄)
      = ((cfg0.win w).arr.view.loc (c : Thread nD τ) ↦{q} f) := by
  have h : (cfg0.win w).arr.IsWhole := arr_whole0 w
  rw [h.set_eq_univ]

/-- The windows' arrays at contents `Ff`: the activation rows' buffer in two halves, one per window on it; each
    other buffer whole. -/
theorem arrays_chain (c : Dev nD) (Ff : (w : Fin cfg0.W) → Buf (Elt F) ((cfg0.win w).arr.view.loc (c : Thread nD τ))) :
    ((dats m 0 c).arrays Ff : sProp 𝕄)
      = iprop((((c : Thread nD τ).loc main_v0) ↦{fullShare.left} Ff 0)
          ∗ (((c : Thread nD τ).loc main_v0) ↦{fullShare.right} Ff 1)
          ∗ (((c : Thread nD τ).loc main_v1) ↦{fullShare} Ff 2)
          ∗ (((c : Thread nD τ).loc main_arg2) ↦{fullShare} Ff 3)
          ∗ (((c : Thread nD τ).loc main_arg3) ↦{fullShare} Ff 4)
          ∗ (((c : Thread nD τ).loc main_v2) ↦{fullShare} Ff 5)
          ∗ (((c : Thread nD τ).loc main_arg5) ↦{fullShare} Ff 6)
          ∗ (((c : Thread nD τ).loc main_v3) ↦{fullShare} Ff 7)) := by
  have h : ((dats m 0 c).arrays Ff : sProp 𝕄)
      = bigSep Finset.univ fun w : Fin cfg0.W => ((cfg0.win w).arr.view.loc (c : Thread nD τ) ↦{(dats m 0 c).share w} Ff w : sProp 𝕄) := by
    unfold Dat.arrays
    exact bigSep_congr fun w _ => arr_pt c w _ _
  exact h.trans (bigSep_W0 _)

/-- A points-to at equal contents. -/
theorem pt_of_eq (ℓ : Loc nD τ sig) (q : PosShare TreeShare) {f g : Buf (Elt F) ℓ} (h : f = g) :
    (ℓ ↦{q} f : sProp 𝕄) ⊢ ℓ ↦{q} g := Entails.of_eq (by rw [h])

/-- Before the first point every array is as the host operations leave it. -/
theorem arrAt_zero (c : Dev nD) (w : Fin cfg0.W) : (dats m 0 c).arrAt w 0 = V m c (Pipeline.arrRef spec0 w) := A_eq m c w

/-- An input window's array is never written: after the last point it is as the region found it. -/
theorem arrAt_input (c : Dev nD) (w : Fin cfg0.W) (h : (cfg0.win w).isOut = false) :
    (dats m 0 c).arrAt w cfg0.N = V m c (Pipeline.arrRef spec0 w) :=
  ((dats m 0 c).arrAt_in w h cfg0.N).trans (A_eq m c w)

/-- ENTRY: the buffers behind the windows' arrays, as the host operations leave them, are the arrays at the proof
    data's entry contents. -/
theorem arrays_entry (c : Dev nD) :
    (iprop((((c : Thread nD τ).loc main_v0) ↦{fullShare.left} V m c main_v0)
          ∗ (((c : Thread nD τ).loc main_v0) ↦{fullShare.right} V m c main_v0)
          ∗ (((c : Thread nD τ).loc main_v1) ↦{fullShare} V m c main_v1)
          ∗ (((c : Thread nD τ).loc main_arg2) ↦{fullShare} V m c main_arg2)
          ∗ (((c : Thread nD τ).loc main_arg3) ↦{fullShare} V m c main_arg3)
          ∗ (((c : Thread nD τ).loc main_v2) ↦{fullShare} V m c main_v2)
          ∗ (((c : Thread nD τ).loc main_arg5) ↦{fullShare} V m c main_arg5)
          ∗ (((c : Thread nD τ).loc main_v3) ↦{fullShare} V m c main_v3)) : sProp 𝕄)
      ⊢ (dats m 0 c).arrays ((dats m 0 c).arrAt · 0) := by
  refine BIBase.Entails.trans ?_ (Entails.of_eq (arrays_chain m c ((dats m 0 c).arrAt · 0)).symm)
  iintro ⟨H0, H1, H2, H3, H4, H5, H6, H7⟩
  isplitl [H0]; · iapply (pt_of_eq _ _ (arrAt_zero m c 0).symm); iexact H0
  isplitl [H1]; · iapply (pt_of_eq _ _ (arrAt_zero m c 1).symm); iexact H1
  isplitl [H2]; · iapply (pt_of_eq _ _ (arrAt_zero m c 2).symm); iexact H2
  isplitl [H3]; · iapply (pt_of_eq _ _ (arrAt_zero m c 3).symm); iexact H3
  isplitl [H4]; · iapply (pt_of_eq _ _ (arrAt_zero m c 4).symm); iexact H4
  isplitl [H5]; · iapply (pt_of_eq _ _ (arrAt_zero m c 5).symm); iexact H5
  isplitl [H6]; · iapply (pt_of_eq _ _ (arrAt_zero m c 6).symm); iexact H6
  iapply (pt_of_eq _ _ (arrAt_zero m c 7).symm); iexact H7

/-- EXIT: the arrays after the last point are the inputs' buffers as found and the output's at what the region
    leaves. -/
theorem arrays_exit (c : Dev nD) :
    ((dats m 0 c).arrays ((dats m 0 c).arrAt · cfg0.N) : sProp 𝕄)
      ⊢ iprop((((c : Thread nD τ).loc main_v0) ↦{fullShare.left} V m c main_v0)
          ∗ (((c : Thread nD τ).loc main_v0) ↦{fullShare.right} V m c main_v0)
          ∗ (((c : Thread nD τ).loc main_v1) ↦{fullShare} V m c main_v1)
          ∗ (((c : Thread nD τ).loc main_arg2) ↦{fullShare} V m c main_arg2)
          ∗ (((c : Thread nD τ).loc main_arg3) ↦{fullShare} V m c main_arg3)
          ∗ (((c : Thread nD τ).loc main_v2) ↦{fullShare} V m c main_v2)
          ∗ (((c : Thread nD τ).loc main_arg5) ↦{fullShare} V m c main_arg5)
          ∗ (((c : Thread nD τ).loc main_v3) ↦{fullShare} outArr m c)) := by
  refine (Entails.of_eq (arrays_chain m c ((dats m 0 c).arrAt · cfg0.N))).trans ?_
  iintro ⟨H0, H1, H2, H3, H4, H5, H6, H7⟩
  isplitl [H0]; · iapply (pt_of_eq _ _ (arrAt_input m c 0 rfl)); iexact H0
  isplitl [H1]; · iapply (pt_of_eq _ _ (arrAt_input m c 1 rfl)); iexact H1
  isplitl [H2]; · iapply (pt_of_eq _ _ (arrAt_input m c 2 rfl)); iexact H2
  isplitl [H3]; · iapply (pt_of_eq _ _ (arrAt_input m c 3 rfl)); iexact H3
  isplitl [H4]; · iapply (pt_of_eq _ _ (arrAt_input m c 4 rfl)); iexact H4
  isplitl [H5]; · iapply (pt_of_eq _ _ (arrAt_input m c 5 rfl)); iexact H5
  isplitl [H6]; · iapply (pt_of_eq _ _ (arrAt_input m c 6 rfl)); iexact H6
  iexact H7

/-! ## The segments -/

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
abbrev 𝒱₀ : Variants := Variants.none

/-- What rides beside the buffers: what the core owes, which is nothing. -/
abbrev R (c : Dev nD) : sProp 𝕄 := iprop(∃ W, owes (c : Thread nD τ) (0 : CellTallies nD τ sig Unit) W)

/-- THE HOST SEGMENT before the region: the three operations over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by
      intro op hop
      simp only [List.mem_cons, List.mem_nil_iff, or_false] at hop
      rcases hop with rfl | rfl | rfl <;> rfl)
    (Vl m) R

/-- THE HOST SEGMENT after it: the output rows read back at the result's shape. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by
      intro op hop
      simp only [List.mem_cons, List.mem_nil_iff, or_false] at hop
      subst hop; rfl)
    (Wv m) R

set_option backward.isDefEq.respectTransparency.types false in
/-- THE REGION: the decided layout, no semaphore of the kernel's own, the body obligation; entered from what the
    first host segment leaves — the buffers behind the windows' arrays into the pipeline, the activation rows' in
    two halves, the four others bypassing —, left with the halves joined and the output's buffer at what the last
    write-back leaves. -/
def reg0 : Pipeline.RegionSeg (pcfgs (F := F)) adm (dats m) () defs₀ 𝒱₀ L lv 0 where
  win := winFacts₀0
  block_pos := block_pos0
  stage_whole := stage_whole0
  K := PEmpty
  osem := fun k : PEmpty => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (Wv m c) ∗ R c)
  X _ := iprop(emp)
  Y _ := iprop(emp)
  Z c := iprop((((c : Thread nD τ).loc main_arg0) ↦{fullShare} V m c main_arg0)
    ∗ (((c : Thread nD τ).loc main_arg1) ↦{fullShare} V m c main_arg1)
    ∗ (((c : Thread nD τ).loc main_arg4) ↦{fullShare} V m c main_arg4)
    ∗ (((c : Thread nD τ).loc main_v4) ↦{fullShare} V m c main_v4))
  hentry c := by
    iintro ⟨⟨Hh, HO⟩, -, -⟩
    ihave Hc := (Entails.of_eq (held_chain c (V0 m c))) $$ Hh
    icases Hc with ⟨Ha0, Ha1, Ha2, Ha3, Ha4, Ha5, Hv0, Hv1, Hv2, Hv3, Hv4⟩
    ihave Hs := (pointsTo_share (PosShare.mem_left_op_right fullShare)).1 $$ Hv0
    icases Hs with ⟨Hl, Hr⟩
    imodintro
    isplitl [Hl Hr Hv1 Ha2 Ha3 Hv2 Ha5 Hv3]
    · iapply (arrays_entry m c)
      isplitl [Hl]; · iexact Hl
      isplitl [Hr]; · iexact Hr
      isplitl [Hv1]; · iexact Hv1
      isplitl [Ha2]; · iexact Ha2
      isplitl [Ha3]; · iexact Ha3
      isplitl [Hv2]; · iexact Hv2
      isplitl [Ha5]; · iexact Ha5
      iexact Hv3
    isplitr [HO Ha0 Ha1 Ha4 Hv4]
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr [Ha0 Ha1 Ha4 Hv4]
    · iempintro
    isplitl [Ha0]; · iexact Ha0
    isplitl [Ha1]; · iexact Ha1
    isplitl [Ha4]; · iexact Ha4
    iexact Hv4
  hin c := by
    refine BIBase.Entails.trans ?_ (Entails.of_eq (Phi_zero m c).symm)
    iintro ⟨-, -, Hr⟩
    iexact Hr
  hout c := by
    refine (Phi_last m c).trans ?_
    rw [Pipeline.ownSems0_none]
    iintro Hr
    isplitr; · iempintro
    isplitr; · iempintro
    iexact Hr
  hexit c := by
    iintro ⟨Ha, HO, -, ⟨Ha0, Ha1, Ha4, Hv4⟩⟩
    ihave Hc := (arrays_exit m c) $$ Ha
    icases Hc with ⟨Hl, Hr, Hv1, Ha2, Ha3, Hv2, Ha5, Hv3⟩
    imodintro
    isplitr [HO]
    · iapply (Entails.of_eq (held_Wv m c).symm)
      isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      isplitl [Hl Hr]
      · iapply (pointsTo_share (PosShare.mem_left_op_right fullShare)).2
        isplitl [Hl]; · iexact Hl
        iexact Hr
      isplitl [Hv1]; · iexact Hv1
      isplitl [Hv2]; · iexact Hv2
      isplitl [Hv3]; · iexact Hv3
      iexact Hv4
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) :=
  [.host (seg0 m), .region (reg0 m), .host (seg1 m)]

/-- What a final state holds on core `c`: the result, and every argument array as it was. -/
abbrev QY (c : Dev nD) (s : MemSt nD τ sig (Elt F)) : Prop :=
  s.mem ((c : Thread nD τ).loc main_v4) = result m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)

set_option backward.isDefEq.respectTransparency.types false in
/-- At the compiled mesh, for any float values, from any memory with zero counters: every weakly fair execution of
    @main on the TensorCores terminates, and every final state has in the result's buffer the output array as the
    region leaves it, read at the result's shape, and every argument array unchanged. -/
theorem run_main : θ_run defs (onTc (τ := τ) (main (F := F))) ⟨m, fun _ => 0, ρ⟩ (fun r => ∀ c : Dev nD,
      r.2.mem ((c.tc : Thread nD τ).loc main_v4)
          = shapeCast (s := S8192x4096) (α := Elt F .f32) S4x2048x4096 ((dats m 0 c).arrAt 7 cfg0.N) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (dats m) () cellOf_inj emb₁ defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => StableHlo.held (c : Thread nD τ) (Pipeline.ucRefs τ sig) (StableHlo.after hostOps1 (Wv m c)))
    (hch := ⟨fun _ => .rfl, fun _ => .rfl, fun _ => .rfl, fun _ => .rfl⟩)
    (hinit := by
      refine Pipeline.initEach L lv fun c => ?_
      iintro ⟨⟨Hh, -, HO, -, -, -⟩, -⟩
      ihave Hh' := (Entails.of_eq (Pipeline.unscopedBufs_held (Ix := Unit) (Name := ℕ) (U := UR sig nD τ) (Lvl := ℕ) c (Vl m c))) $$ Hh
      imodintro
      isplitl [Hh']; · iexact Hh'
      iexists ∅; iexact HO)
    (QY := QY m)
    (hfin := fun c s' => by
      unfold StableHlo.held
      iintro ⟨Hh, HSI⟩
      ihave Hr := (pointsTo_read_all (Pipeline.ucRefs τ sig) (fun b => (((c : Thread nD τ)).1, b))
        (StableHlo.after hostOps1 (Wv m c)) s') $$ [Hh HSI]
      · isplitl [Hh]; · iexact Hh
        iexact HSI
      icases Hr with ⟨%hr, HSI⟩
      imodintro
      isplitr
      · ipureintro
        exact ⟨(hr _ (mem_ucRefs main_v4 rfl)).trans (end_v4 m c),
          (hr _ (mem_ucRefs main_arg0 rfl)).trans (end_arg m c main_arg0 (by decide) (by decide) (by decide) (by decide) (by decide)),
          (hr _ (mem_ucRefs main_arg1 rfl)).trans (end_arg m c main_arg1 (by decide) (by decide) (by decide) (by decide) (by decide)),
          (hr _ (mem_ucRefs main_arg2 rfl)).trans (end_arg m c main_arg2 (by decide) (by decide) (by decide) (by decide) (by decide)),
          (hr _ (mem_ucRefs main_arg3 rfl)).trans (end_arg m c main_arg3 (by decide) (by decide) (by decide) (by decide) (by decide)),
          (hr _ (mem_ucRefs main_arg4 rfl)).trans (end_arg m c main_arg4 (by decide) (by decide) (by decide) (by decide) (by decide)),
          (hr _ (mem_ucRefs main_arg5 rfl)).trans (end_arg m c main_arg5 (by decide) (by decide) (by decide) (by decide) (by decide))⟩
      iexact HSI)
    (hQ := fun _ h => h)

/-- The frame claim: @main runs, and every argument array ends as it was. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.KernelIdeal.QuantLinear

end
-- ==== Proof.Bits.Cases.lean ====
/-
  The kernel body branches twice on the grid's third coordinate k (the K-tile index, 0 ≤ k < 4): at k = 0 it
  resets the accumulator to the outlier product plus the bias, and at k = 3 it copies the accumulator into the
  output block. With the grid walked in order, point t has k = t mod 4; so the reset happens at the points
  ≡ 0 (mod 4) and the copy at the points ≡ 3 (mod 4), which are also exactly the points where the output
  window is written back and the only points where it is not idle.
-/
import proofs.«153761_j15461882266230_1_alg».proof.Proof.Gen.Kernel.Launch
import proofs.«153761_j15461882266230_1_alg».proof.Proof.Gen.Kernel.Skeleton
import proofs.«153761_j15461882266230_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.QuantLinear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset's guard (k = 0), as the body computes it from the grid coordinates. -/
abbrev isFirst (i : grid0.Coords) : Prop :=
  (Scalar.cmpi .ne (Scalar.extui (Scalar.cmpi .eq (BitVec.ofNat 32 (i 2).val) 0#32)) 0#32) = 1#1
/-- The copy-out's guard (k = 3). -/
abbrev isLast (i : grid0.Coords) : Prop := k0_cond2 i = 1#1

/-- The reset happens at the points ≡ 0 (mod 4). -/
theorem isFirst_iff : ∀ t : Fin cfg0.N, isFirst (grid0.coords t) ↔ t.val % 4 = 0 :=
  (by decide +kernel : ∀ t : Fin grid0.N, isFirst (grid0.coords t) ↔ t.val % 4 = 0)
/-- The copy-out happens at the points ≡ 3 (mod 4). -/
theorem isLast_iff : ∀ t : Fin cfg0.N, isLast (grid0.coords t) ↔ t.val % 4 = 3 :=
  (by decide +kernel : ∀ t : Fin grid0.N, isLast (grid0.coords t) ↔ t.val % 4 = 3)

/-- The output window is idle, and not written back, away from the copy-out points, -/
theorem out_idle : ∀ t : Fin cfg0.N, ¬isLast (grid0.coords t) → cfg0.idle 7 (grid0.coords t) = true := by decide +kernel
theorem out_noFlush : ∀ t : Fin cfg0.N, ¬isLast (grid0.coords t) → (cfg0.win 7).flush t = false := by decide +kernel
/-- and live at them. -/
theorem out_live : ∀ t : Fin cfg0.N, isLast (grid0.coords t) → cfg0.idle 7 (grid0.coords t) = false := by decide +kernel

end Cert.Kernel.QuantLinear

end
-- ==== Proof.Bits.RunFirst.lean ====
/-
  The kernel body at a tile's first K-step: besides the weight, scale, zero and activation blocks it loads the
  outlier activations, the outlier weight and the bias, stores outlier product + bias into the accumulator,
  reads it back, and stores accumulator + activation · dequantised weight.
-/
import proofs.«153761_j15461882266230_1_alg».proof.Proof.Bits.Cases
import Idealize.ShloMosaic.Lib.Pipeline.Value

set_option maxRecDepth 16384

noncomputable section

namespace Cert.Kernel.QuantLinear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

set_option maxHeartbeats 1000000 in
/-- The pieces the body's two stores leave in the accumulator at a tile's first step (last first), with the
    body's triple: from the seven input blocks and the accumulator at anything, it runs to the same blocks and
    the accumulator with those pieces written. -/
noncomputable def runFirst (i : grid0.Coords) (arg3 : Memref sig .tc .vmem S1024x1024 .f32) (harg3 : arg3.IsWhole) (arg4 : Memref sig .tc .vmem S1024x128 .f32) (harg4 : arg4.IsWhole) (arg5 : Memref sig .tc .vmem S1024x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole)
    (hc1 : isFirst i) (hc2 : ¬isLast i)
    (x3 : Vec F S1024x1024 .f32) (x4 : Vec F S1024x128 .f32) (x5 : Vec F S1024x512 .i32) (x6 x7 : Vec F S8x512 .f32)
    (x8 : Vec F S128x512 .f32) (x9 : Vec F S512 .f32) :
    { LS : List (View.Piece (Elt F) S1024x512 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8 ∗ owns (c : Thread nD τ) arg9 fullShare x9
            ∗ (∃ d, owns (c : Thread nD τ) arg11 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare x7 ∗ owns (c : Thread nD τ) arg8 fullShare x8 ∗ owns (c : Thread nD τ) arg9 fullShare x9
                ∗ (∃ f, arg11.view.loc (c : Thread nD τ) ↦[arg11.view.set]{fullShare} arg11.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, fun E K => ?run⟩
  case run =>
    simp only [cc0__kernel_eq_skeleton]; unfold cc0__kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
    obtain rfl := harg3.eq_unread hf3; obtain rfl := harg4.eq_unread hf4; obtain rfl := harg5.eq_unread hf5
    obtain rfl := harg6.eq_unread hf6; obtain rfl := harg7.eq_unread hf7; obtain rfl := harg8.eq_unread hf8
    obtain rfl := harg9.eq_unread hf9
    sl_exec (disch := first | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

/-- The first step's two stores read back: the reset value plus this step's product. -/
theorem runFirst_acc (i : grid0.Coords) (arg3 : Memref sig .tc .vmem S1024x1024 .f32) (harg3 : arg3.IsWhole) (arg4 : Memref sig .tc .vmem S1024x128 .f32) (harg4 : arg4.IsWhole) (arg5 : Memref sig .tc .vmem S1024x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole)
    (hc1 : isFirst i) (hc2 : ¬isLast i)
    (x3 : Vec F S1024x1024 .f32) (x4 : Vec F S1024x128 .f32) (x5 : Vec F S1024x512 .i32) (x6 x7 : Vec F S8x512 .f32)
    (x8 : Vec F S128x512 .f32) (x9 : Vec F S512 .f32) (f : arg11.view.ty.Contents (Elt F)) :
    arg11.view.read (Elt F) (arg11.view.writes (Elt F) f (runFirst c i arg3 harg3 arg4 harg4 arg5 harg5 arg6 harg6 arg7 harg7 arg8 harg8 arg9 harg9 arg10 harg10 arg11 harg11 hc1 hc2 x3 x4 x5 x6 x7 x8 x9).1)
      = k0_pay2 x5 x6 x7 x3 (k0_pay1 x4 x8 x9) := by
  have hz : (![0, 0] : Fin 2 → Nat) = fun _ => 0 := by funext a; fin_cases a <;> rfl
  have hz1 : (![0] : Fin 1 → Nat) = fun _ => 0 := by funext a; fin_cases a; rfl
  rw [View.read_writes_eq_canon _ _ _ (View.cover_of_tiledL _ S1024x512.size (by sl_kernel_rfl))]
  unfold runFirst; dsimp only; sl_unfold_words
  rw [View.canon_cons_unit_zero (S := S1024x512) hz]
  simp only [View.readAt_eq_ld, harg3.read_unread, harg4.read_unread, harg5.read_unread, harg6.read_unread, harg7.read_unread, harg8.read_unread, harg9.read_unread,
    View.ld_unit_zero (S := S1024x512) hz, View.ld_unit_zero (S := S8x512) hz, View.ld_unit_zero (S := S1024x1024) hz,
    View.ld_unit_zero (S := S1024x128) hz, View.ld_unit_zero (S := S128x512) hz, View.ld_unit_zero (S := S512) hz1,
    View.readCov_unit_zero (S := S1024x512) _ hz]

/-- The body's triple at a tile's first step, the accumulator's contents named. -/
theorem tripleFirst (i : grid0.Coords) (arg3 : Memref sig .tc .vmem S1024x1024 .f32) (harg3 : arg3.IsWhole) (arg4 : Memref sig .tc .vmem S1024x128 .f32) (harg4 : arg4.IsWhole) (arg5 : Memref sig .tc .vmem S1024x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole)
    (hc1 : isFirst i) (hc2 : ¬isLast i)
    (x3 : Vec F S1024x1024 .f32) (x4 : Vec F S1024x128 .f32) (x5 : Vec F S1024x512 .i32) (x6 x7 : Vec F S8x512 .f32)
    (x8 : Vec F S128x512 .f32) (x9 : Vec F S512 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ (∃ d, owns (c : Thread nD τ) arg11 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare x8 ∗ owns (c : Thread nD τ) arg9 fullShare x9
            ∗ owns (c : Thread nD τ) arg11 fullShare (k0_pay2 x5 x6 x7 x3 (k0_pay1 x4 x8 x9))) -∗ K ⟨⟩))
      ⊢ wp frame (wpE (defs₀ (F := F)) Variants.none c none) E (cc0__kernel i arg3 harg3 arg4 harg4 arg5 harg5 arg6 harg6 arg7 harg7 arg8 harg8 arg9 harg9 arg10 harg10 arg11 harg11) K := by
  iintro ⟨H3, H4, H5, H6, H7, H8, H9, HS, Hk⟩
  iapply ((runFirst c i arg3 harg3 arg4 harg4 arg5 harg5 arg6 harg6 arg7 harg7 arg8 harg8 arg9 harg9 arg10 harg10 arg11 harg11 hc1 hc2 x3 x4 x5 x6 x7 x8 x9).2 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  iintro ⟨H3, H4, H5, H6, H7, H8, H9, ⟨%f, HS⟩⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact HS
  ipureintro; exact runFirst_acc c i arg3 harg3 arg4 harg4 arg5 harg5 arg6 harg6 arg7 harg7 arg8 harg8 arg9 harg9 arg10 harg10 arg11 harg11 hc1 hc2 x3 x4 x5 x6 x7 x8 x9 f

end Cert.Kernel.QuantLinear

end
-- ==== Proof.Bits.RunMid.lean ====
/-
  The kernel body at a middle K-tile (neither reset nor copy-out): it loads the weight, scale, zero and
  activation blocks and the accumulator, and stores accumulator + activation · dequantised weight back.
-/
import proofs.«153761_j15461882266230_1_alg».proof.Proof.Bits.Cases
import Idealize.ShloMosaic.Lib.Pipeline.Value

set_option maxRecDepth 16384

noncomputable section

namespace Cert.Kernel.QuantLinear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

set_option maxHeartbeats 1000000 in
/-- The pieces the body's one store leaves in the accumulator at a middle tile, with the body's triple:
    from the four blocks it reads and the accumulator at `xs`, it runs to the same blocks and the
    accumulator with those pieces written. -/
noncomputable def runMid (i : grid0.Coords) (arg3 : Memref sig .tc .vmem S1024x1024 .f32) (harg3 : arg3.IsWhole) (arg4 : Memref sig .tc .vmem S1024x128 .f32) (harg4 : arg4.IsWhole) (arg5 : Memref sig .tc .vmem S1024x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole)
    (hc1 : ¬isFirst i) (hc2 : ¬isLast i)
    (x3 : Vec F S1024x1024 .f32) (x5 : Vec F S1024x512 .i32) (x6 x7 : Vec F S8x512 .f32) (xs : Vec F S1024x512 .f32) :
    { LS : List (View.Piece (Elt F) S1024x512 .f32) //
      ∀ (E : Set ℕ) (K : PUnit → sProp 𝕄),
        iprop(owns (c : Thread nD τ) arg3 fullShare x3 ∗ owns (c : Thread nD τ) arg5 fullShare x5 ∗ owns (c : Thread nD τ) arg6 fullShare x6
            ∗ owns (c : Thread nD τ) arg7 fullShare x7 ∗ owns (c : Thread nD τ) arg11 fullShare xs
            ∗ (iprop(owns (c : Thread nD τ) arg3 fullShare x3 ∗ owns (c : Thread nD τ) arg5 fullShare x5 ∗ owns (c : Thread nD τ) arg6 fullShare x6
                ∗ owns (c : Thread nD τ) arg7 fullShare x7
                ∗ (∃ f, arg11.view.loc (c : Thread nD τ) ↦[arg11.view.set]{fullShare} arg11.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, fun E K => ?run⟩
  case run =>
    simp only [cc0__kernel_eq_skeleton]; unfold cc0__kernel_skel
    unfold owns
    iintro ⟨⟨%f3, %hf3, H3⟩, ⟨%f5, %hf5, H5⟩, ⟨%f6, %hf6, H6⟩, ⟨%f7, %hf7, H7⟩, ⟨%fs, %hfs, HS⟩, Hk⟩
    obtain rfl := harg3.eq_unread hf3; obtain rfl := harg5.eq_unread hf5; obtain rfl := harg6.eq_unread hf6
    obtain rfl := harg7.eq_unread hf7; obtain rfl := harg11.eq_unread hfs
    sl_exec (disch := first | exact hc1 | exact hc2)
    sl_step
    iapply Hk
    isplitl [H3]
    · iexists _; isplitr; · ipureintro; exact harg3.read_unread _
      iexact H3
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact HS

/-- The middle step's one store read back: the accumulator plus this step's product. -/
theorem runMid_acc (i : grid0.Coords) (arg3 : Memref sig .tc .vmem S1024x1024 .f32) (harg3 : arg3.IsWhole) (arg4 : Memref sig .tc .vmem S1024x128 .f32) (harg4 : arg4.IsWhole) (arg5 : Memref sig .tc .vmem S1024x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole)
    (hc1 : ¬isFirst i) (hc2 : ¬isLast i)
    (x3 : Vec F S1024x1024 .f32) (x5 : Vec F S1024x512 .i32) (x6 x7 : Vec F S8x512 .f32) (xs : Vec F S1024x512 .f32)
    (f : arg11.view.ty.Contents (Elt F)) :
    arg11.view.read (Elt F) (arg11.view.writes (Elt F) f (runMid c i arg3 harg3 arg4 harg4 arg5 harg5 arg6 harg6 arg7 harg7 arg8 harg8 arg9 harg9 arg10 harg10 arg11 harg11 hc1 hc2 x3 x5 x6 x7 xs).1)
      = k0_pay2 x5 x6 x7 x3 xs := by
  have hz : (![0, 0] : Fin 2 → Nat) = fun _ => 0 := by funext a; fin_cases a <;> rfl
  have hz1 : (![0] : Fin 1 → Nat) = fun _ => 0 := by funext a; fin_cases a; rfl
  rw [View.read_writes_eq_canon _ _ _ (View.cover_of_tiledL _ S1024x512.size (by sl_kernel_rfl))]
  unfold runMid; dsimp only; sl_unfold_words
  rw [View.canon_unit_zero hz]
  simp only [View.readAt_eq_ld, harg3.read_unread, harg5.read_unread, harg6.read_unread, harg7.read_unread, harg11.read_unread,
    View.ld_unit_zero (S := S1024x512) hz, View.ld_unit_zero (S := S8x512) hz, View.ld_unit_zero (S := S1024x1024) hz,
    View.ld_unit_zero (S := S1024x128) hz, View.ld_unit_zero (S := S128x512) hz, View.ld_unit_zero (S := S512) hz1,
    View.readCov_unit_zero (S := S1024x512) _ hz]

/-- The body's triple at a middle step, the accumulator's contents named. -/
theorem tripleMid (i : grid0.Coords) (arg3 : Memref sig .tc .vmem S1024x1024 .f32) (harg3 : arg3.IsWhole) (arg4 : Memref sig .tc .vmem S1024x128 .f32) (harg4 : arg4.IsWhole) (arg5 : Memref sig .tc .vmem S1024x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole)
    (hc1 : ¬isFirst i) (hc2 : ¬isLast i)
    (x3 : Vec F S1024x1024 .f32) (x5 : Vec F S1024x512 .i32) (x6 x7 : Vec F S8x512 .f32) (xs : Vec F S1024x512 .f32)
    (E : Set ℕ) (K : PUnit → sProp 𝕄) :
    iprop(owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg11 fullShare xs
        ∗ (iprop(owns (c : Thread nD τ) arg3 fullShare x3 ∗ owns (c : Thread nD τ) arg5 fullShare x5 ∗ owns (c : Thread nD τ) arg6 fullShare x6 ∗ owns (c : Thread nD τ) arg7 fullShare x7
            ∗ owns (c : Thread nD τ) arg11 fullShare (k0_pay2 x5 x6 x7 x3 xs)) -∗ K ⟨⟩))
      ⊢ wp frame (wpE (defs₀ (F := F)) Variants.none c none) E (cc0__kernel i arg3 harg3 arg4 harg4 arg5 harg5 arg6 harg6 arg7 harg7 arg8 harg8 arg9 harg9 arg10 harg10 arg11 harg11) K := by
  iintro ⟨H3, H5, H6, H7, HS, Hk⟩
  iapply ((runMid c i arg3 harg3 arg4 harg4 arg5 harg5 arg6 harg6 arg7 harg7 arg8 harg8 arg9 harg9 arg10 harg10 arg11 harg11 hc1 hc2 x3 x5 x6 x7 xs).2 E K)
  isplitl [H3]; · iexact H3
  isplitl [H5]; · iexact H5
  isplitl [H6]; · iexact H6
  isplitl [H7]; · iexact H7
  isplitl [HS]; · iexact HS
  iintro ⟨H3, H5, H6, H7, ⟨%f, HS⟩⟩
  iapply Hk
  isplitl [H3]; · iexact H3
  isplitl [H5]; · iexact H5
  isplitl [H6]; · iexact H6
  isplitl [H7]; · iexact H7
  unfold owns; iexists _; isplitr
  swap; · iexact HS
  ipureintro; exact runMid_acc c i arg3 harg3 arg4 harg4 arg5 harg5 arg6 harg6 arg7 harg7 arg8 harg8 arg9 harg9 arg10 harg10 arg11 harg11 hc1 hc2 x3 x5 x6 x7 xs f

end Cert.Kernel.QuantLinear

end
-- ==== Proof.Bits.RunLast.lean ====
/-
  The kernel body at a tile's last K-step: it adds the last partial product into the accumulator, reads the
  accumulator back and stores it, whole, into the output block.
-/
import proofs.«153761_j15461882266230_1_alg».proof.Proof.Bits.Cases
import Idealize.ShloMosaic.Lib.Pipeline.Value

set_option maxRecDepth 16384

noncomputable section

namespace Cert.Kernel.QuantLinear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

set_option maxHeartbeats 1000000 in
/-- The pieces the body leaves in the output block and in the accumulator at a tile's last step, with the
    body's triple: from the four blocks it reads, the accumulator at `xs` and the output block at anything, it
    runs to the same blocks and both buffers with their pieces written. -/
noncomputable def runLast (i : grid0.Coords) (arg3 : Memref sig .tc .vmem S1024x1024 .f32) (harg3 : arg3.IsWhole) (arg4 : Memref sig .tc .vmem S1024x128 .f32) (harg4 : arg4.IsWhole) (arg5 : Memref sig .tc .vmem S1024x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole)
    (hc1 : ¬isFirst i) (hc2 : isLast i)
    (x3 : Vec F S1024x1024 .f32) (x5 : Vec F S1024x512 .i32) (x6 x7 : Vec F S8x512 .f32) (xs : Vec F S1024x512 .f32) :
    Σ' (LO : List (View.Piece (Elt F) S1024x512 .f32)), { LS : List (View.Piece (Elt F) S1024x512 .f32) //
      ∀ (E : Set ℕ) (K : PUnit → sProp 𝕄),
        iprop(owns (c : Thread nD τ) arg3 fullShare x3 ∗ owns (c : Thread nD τ) arg5 fullShare x5 ∗ owns (c : Thread nD τ) arg6 fullShare x6
            ∗ owns (c : Thread nD τ) arg7 fullShare x7 ∗ (∃ d, owns (c : Thread nD τ) arg10 fullShare d) ∗ owns (c : Thread nD τ) arg11 fullShare xs
            ∗ (iprop(owns (c : Thread nD τ) arg3 fullShare x3 ∗ owns (c : Thread nD τ) arg5 fullShare x5 ∗ owns (c : Thread nD τ) arg6 fullShare x6
                ∗ owns (c : Thread nD τ) arg7 fullShare x7
                ∗ (∃ f, arg10.view.loc (c : Thread nD τ) ↦[arg10.view.set]{fullShare} arg10.view.writes (Elt F) f LO)
                ∗ (∃ f, arg11.view.loc (c : Thread nD τ) ↦[arg11.view.set]{fullShare} arg11.view.writes (Elt F) f LS)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11) K } := by
  refine ⟨?_, ?_, fun E K => ?run⟩
  case run =>
    simp only [cc0__kernel_eq_skeleton]; unfold cc0__kernel_skel
    unfold owns
    iintro ⟨⟨%f3, %hf3, H3⟩, ⟨%f5, %hf5, H5⟩, ⟨%f6, %hf6, H6⟩, ⟨%f7, %hf7, H7⟩, ⟨%dout, %fo, -, HO⟩, ⟨%fs, %hfs, HS⟩, Hk⟩
    obtain rfl := harg3.eq_unread hf3; obtain rfl := harg5.eq_unread hf5; obtain rfl := harg6.eq_unread hf6
    obtain rfl := harg7.eq_unread hf7; obtain rfl := harg11.eq_unread hfs
    sl_exec (disch := first | exact hc1 | exact hc2)
    sl_step
    iapply Hk
    isplitl [H3]
    · iexists _; isplitr; · ipureintro; exact harg3.read_unread _
      iexact H3
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HO]
    · iexists _; iexact HO
    iexists _; iexact HS

/-- The last step's accumulator store read back: the accumulator plus this step's product; -/
theorem runLast_acc (i : grid0.Coords) (arg3 : Memref sig .tc .vmem S1024x1024 .f32) (harg3 : arg3.IsWhole) (arg4 : Memref sig .tc .vmem S1024x128 .f32) (harg4 : arg4.IsWhole) (arg5 : Memref sig .tc .vmem S1024x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole)
    (hc1 : ¬isFirst i) (hc2 : isLast i)
    (x3 : Vec F S1024x1024 .f32) (x5 : Vec F S1024x512 .i32) (x6 x7 : Vec F S8x512 .f32) (xs : Vec F S1024x512 .f32)
    (f : arg11.view.ty.Contents (Elt F)) :
    arg11.view.read (Elt F) (arg11.view.writes (Elt F) f (runLast c i arg3 harg3 arg4 harg4 arg5 harg5 arg6 harg6 arg7 harg7 arg8 harg8 arg9 harg9 arg10 harg10 arg11 harg11 hc1 hc2 x3 x5 x6 x7 xs).2.1)
      = k0_pay2 x5 x6 x7 x3 xs := by
  have hz : (![0, 0] : Fin 2 → Nat) = fun _ => 0 := by funext a; fin_cases a <;> rfl
  have hz1 : (![0] : Fin 1 → Nat) = fun _ => 0 := by funext a; fin_cases a; rfl
  rw [View.read_writes_eq_canon _ _ _ (View.cover_of_tiledL _ S1024x512.size (by sl_kernel_rfl))]
  unfold runLast; dsimp only; sl_unfold_words
  rw [View.canon_unit_zero hz]
  simp only [View.readAt_eq_ld, harg3.read_unread, harg5.read_unread, harg6.read_unread, harg7.read_unread, harg11.read_unread,
    View.ld_unit_zero (S := S1024x512) hz, View.ld_unit_zero (S := S8x512) hz, View.ld_unit_zero (S := S1024x1024) hz,
    View.ld_unit_zero (S := S1024x128) hz, View.ld_unit_zero (S := S128x512) hz, View.ld_unit_zero (S := S512) hz1,
    View.readCov_unit_zero (S := S1024x512) _ hz]

/-- and the output block's store read back: that same value. -/
theorem runLast_out (i : grid0.Coords) (arg3 : Memref sig .tc .vmem S1024x1024 .f32) (harg3 : arg3.IsWhole) (arg4 : Memref sig .tc .vmem S1024x128 .f32) (harg4 : arg4.IsWhole) (arg5 : Memref sig .tc .vmem S1024x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole)
    (hc1 : ¬isFirst i) (hc2 : isLast i)
    (x3 : Vec F S1024x1024 .f32) (x5 : Vec F S1024x512 .i32) (x6 x7 : Vec F S8x512 .f32) (xs : Vec F S1024x512 .f32)
    (f : arg10.view.ty.Contents (Elt F)) :
    arg10.view.read (Elt F) (arg10.view.writes (Elt F) f (runLast c i arg3 harg3 arg4 harg4 arg5 harg5 arg6 harg6 arg7 harg7 arg8 harg8 arg9 harg9 arg10 harg10 arg11 harg11 hc1 hc2 x3 x5 x6 x7 xs).1)
      = k0_pay2 x5 x6 x7 x3 xs := by
  have hz : (![0, 0] : Fin 2 → Nat) = fun _ => 0 := by funext a; fin_cases a <;> rfl
  have hz1 : (![0] : Fin 1 → Nat) = fun _ => 0 := by funext a; fin_cases a; rfl
  rw [View.read_writes_eq_canon _ _ _ (View.cover_of_tiledL _ S1024x512.size (by sl_kernel_rfl))]
  unfold runLast; dsimp only; sl_unfold_words
  rw [View.canon_unit_zero hz]
  simp only [View.readAt_eq_ld, harg3.read_unread, harg5.read_unread, harg6.read_unread, harg7.read_unread, harg11.read_unread,
    View.ld_unit_zero (S := S1024x512) hz, View.ld_unit_zero (S := S8x512) hz, View.ld_unit_zero (S := S1024x1024) hz,
    View.ld_unit_zero (S := S1024x128) hz, View.ld_unit_zero (S := S128x512) hz, View.ld_unit_zero (S := S512) hz1,
    View.readCov_unit_zero (S := S1024x512) _ hz]

/-- The body's triple at a tile's last step, both buffers' contents named. -/
theorem tripleLast (i : grid0.Coords) (arg3 : Memref sig .tc .vmem S1024x1024 .f32) (harg3 : arg3.IsWhole) (arg4 : Memref sig .tc .vmem S1024x128 .f32) (harg4 : arg4.IsWhole) (arg5 : Memref sig .tc .vmem S1024x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole)
    (hc1 : ¬isFirst i) (hc2 : isLast i)
    (x3 : Vec F S1024x1024 .f32) (x5 : Vec F S1024x512 .i32) (x6 x7 : Vec F S8x512 .f32) (xs : Vec F S1024x512 .f32)
    (E : Set ℕ) (K : PUnit → sProp 𝕄) :
    iprop(owns (c : Thread nD τ) arg3 fullShare x3 ∗ owns (c : Thread nD τ) arg5 fullShare x5 ∗ owns (c : Thread nD τ) arg6 fullShare x6 ∗ owns (c : Thread nD τ) arg7 fullShare x7
        ∗ (∃ d, owns (c : Thread nD τ) arg10 fullShare d) ∗ owns (c : Thread nD τ) arg11 fullShare xs
        ∗ (iprop(owns (c : Thread nD τ) arg3 fullShare x3 ∗ owns (c : Thread nD τ) arg5 fullShare x5 ∗ owns (c : Thread nD τ) arg6 fullShare x6 ∗ owns (c : Thread nD τ) arg7 fullShare x7
            ∗ owns (c : Thread nD τ) arg10 fullShare (k0_pay2 x5 x6 x7 x3 xs) ∗ owns (c : Thread nD τ) arg11 fullShare (k0_pay2 x5 x6 x7 x3 xs)) -∗ K ⟨⟩))
      ⊢ wp frame (wpE (defs₀ (F := F)) Variants.none c none) E (cc0__kernel i arg3 harg3 arg4 harg4 arg5 harg5 arg6 harg6 arg7 harg7 arg8 harg8 arg9 harg9 arg10 harg10 arg11 harg11) K := by
  iintro ⟨H3, H5, H6, H7, HO, HS, Hk⟩
  iapply ((runLast c i arg3 harg3 arg4 harg4 arg5 harg5 arg6 harg6 arg7 harg7 arg8 harg8 arg9 harg9 arg10 harg10 arg11 harg11 hc1 hc2 x3 x5 x6 x7 xs).2.2 E K)
  isplitl [H3]; · iexact H3
  isplitl [H5]; · iexact H5
  isplitl [H6]; · iexact H6
  isplitl [H7]; · iexact H7
  isplitl [HO]; · iexact HO
  isplitl [HS]; · iexact HS
  iintro ⟨H3, H5, H6, H7, ⟨%fo, HO⟩, ⟨%f, HS⟩⟩
  iapply Hk
  isplitl [H3]; · iexact H3
  isplitl [H5]; · iexact H5
  isplitl [H6]; · iexact H6
  isplitl [H7]; · iexact H7
  isplitl [HO]
  · unfold owns; iexists _; isplitr
    swap; · iexact HO
    ipureintro; exact runLast_out c i arg3 harg3 arg4 harg4 arg5 harg5 arg6 harg6 arg7 harg7 arg8 harg8 arg9 harg9 arg10 harg10 arg11 harg11 hc1 hc2 x3 x5 x6 x7 xs fo
  unfold owns; iexists _; isplitr
  swap; · iexact HS
  ipureintro; exact runLast_acc c i arg3 harg3 arg4 harg4 arg5 harg5 arg6 harg6 arg7 harg7 arg8 harg8 arg9 harg9 arg10 harg10 arg11 harg11 hc1 hc2 x3 x5 x6 x7 xs f

end Cert.Kernel.QuantLinear

end
-- ==== Proof.Bits.Data.lean ====
/-
  The proof data of the one pipeline. The accumulator (the kernel's scratch block) is followed through the grid:
  after point t it holds  acc(t) = pay2(blocks at t, prev)  where prev is the reset value pay1(blocks at t) when t is
  a tile's first K-step (t ≡ 0 mod 4) and acc(t-1) otherwise; the output block is stored, equal to acc(t), at the
  tile's last K-step (t ≡ 3 mod 4) and left alone elsewhere. Every input window's buffer holds its array's block at
  every point. The activation array is handed to two windows (the main K-tile and the outlier columns), so each
  holds half of it.
-/
import proofs.«153761_j15461882266230_1_alg».proof.Proof.Bits.RunFirst
import proofs.«153761_j15461882266230_1_alg».proof.Proof.Bits.RunMid
import proofs.«153761_j15461882266230_1_alg».proof.Proof.Bits.RunLast
import Idealize.ShloMosaic.Lib.Pipeline.Frame
import Idealize.ShloMosaic.Lib.Pipeline.Regions

set_option maxRecDepth 16384

noncomputable section

namespace Cert.Kernel.QuantLinear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them, and their blocks -/

/-- Core `c`'s buffer contents when the region is entered: after the three host operations before it
    (the activations flattened to rows, the quantised weight and the outlier weight transposed). -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The seven input blocks at a point, at their literal types. -/
abbrev actBlk (c : Dev nD) (t : Fin cfg0.N) : Vec F S1024x1024 .f32 := iblk m c 0 t
abbrev actOutBlk (c : Dev nD) (t : Fin cfg0.N) : Vec F S1024x128 .f32 := iblk m c 1 t
abbrev qwBlk (c : Dev nD) (t : Fin cfg0.N) : Vec F S1024x512 .i32 := iblk m c 2 t
abbrev scBlk (c : Dev nD) (t : Fin cfg0.N) : Vec F S8x512 .f32 := iblk m c 3 t
abbrev zrBlk (c : Dev nD) (t : Fin cfg0.N) : Vec F S8x512 .f32 := iblk m c 4 t
abbrev owBlk (c : Dev nD) (t : Fin cfg0.N) : Vec F S128x512 .f32 := iblk m c 5 t
abbrev bsBlk (c : Dev nD) (t : Fin cfg0.N) : Vec F S512 .f32 := iblk m c 6 t

/-- Each window's current staging memref at point `t`, as the pipeline passes it to the body, and its wholeness. -/
abbrev sm0 (t : Fin cfg0.N) : Memref sig .tc .vmem S1024x1024 .f32 := win0_0.stage (cfg0.slots t 0)
abbrev hs0 (t : Fin cfg0.N) : (sm0 t).IsWhole := hstage0_0 ((cfg0.slots t 0).cast nbuf0_0)
abbrev sm1 (t : Fin cfg0.N) : Memref sig .tc .vmem S1024x128 .f32 := win0_1.stage (cfg0.slots t 1)
abbrev hs1 (t : Fin cfg0.N) : (sm1 t).IsWhole := hstage0_1 ((cfg0.slots t 1).cast nbuf0_1)
abbrev sm2 (t : Fin cfg0.N) : Memref sig .tc .vmem S1024x512 .i32 := win0_2.stage (cfg0.slots t 2)
abbrev hs2 (t : Fin cfg0.N) : (sm2 t).IsWhole := hstage0_2 ((cfg0.slots t 2).cast nbuf0_2)
abbrev sm3 (t : Fin cfg0.N) : Memref sig .tc .vmem S8x512 .f32 := win0_3.stage (cfg0.slots t 3)
abbrev hs3 (t : Fin cfg0.N) : (sm3 t).IsWhole := hstage0_3 ((cfg0.slots t 3).cast nbuf0_3)
abbrev sm4 (t : Fin cfg0.N) : Memref sig .tc .vmem S8x512 .f32 := win0_4.stage (cfg0.slots t 4)
abbrev hs4 (t : Fin cfg0.N) : (sm4 t).IsWhole := hstage0_4 ((cfg0.slots t 4).cast nbuf0_4)
abbrev sm5 (t : Fin cfg0.N) : Memref sig .tc .vmem S128x512 .f32 := win0_5.stage (cfg0.slots t 5)
abbrev hs5 (t : Fin cfg0.N) : (sm5 t).IsWhole := hstage0_5 ((cfg0.slots t 5).cast nbuf0_5)
abbrev sm6 (t : Fin cfg0.N) : Memref sig .tc .vmem S512 .f32 := win0_6.stage (cfg0.slots t 6)
abbrev hs6 (t : Fin cfg0.N) : (sm6 t).IsWhole := hstage0_6 ((cfg0.slots t 6).cast nbuf0_6)
abbrev sm7 (t : Fin cfg0.N) : Memref sig .tc .vmem S1024x512 .f32 := win0_7.stage (cfg0.slots t 7)
abbrev hs7 (t : Fin cfg0.N) : (sm7 t).IsWhole := hstage0_7 ((cfg0.slots t 7).cast nbuf0_7)
/-- The accumulator: the kernel's scratch block. -/
abbrev scr : Memref sig .tc .vmem S1024x512 .f32 := Memref.whole cc0_scratch0

/-! ## The accumulator through the grid -/

/-- What the accumulator is reset to at a tile's first K-step: the outlier product plus the bias. -/
def accInit (c : Dev nD) (t : Fin cfg0.N) : Vec F S1024x512 .f32 := k0_pay1 (actOutBlk m c t) (owBlk m c t) (bsBlk m c t)

/-- The accumulator after the point at position `n`. -/
def accAt (c : Dev nD) : (n : ℕ) → n < cfg0.N → Vec F S1024x512 .f32
  | 0, hn => k0_pay2 (qwBlk m c ⟨0, hn⟩) (scBlk m c ⟨0, hn⟩) (zrBlk m c ⟨0, hn⟩) (actBlk m c ⟨0, hn⟩) (accInit m c ⟨0, hn⟩)
  | n + 1, hn => k0_pay2 (qwBlk m c ⟨n + 1, hn⟩) (scBlk m c ⟨n + 1, hn⟩) (zrBlk m c ⟨n + 1, hn⟩) (actBlk m c ⟨n + 1, hn⟩)
      (if (n + 1) % 4 = 0 then accInit m c ⟨n + 1, hn⟩ else accAt c n (Nat.lt_of_succ_lt hn))

/-- At a tile's first K-step the accumulator restarts from the reset value. -/
theorem accAt_first (c : Dev nD) (t : Fin cfg0.N) (h : t.val % 4 = 0) :
    accAt m c t.val t.isLt = k0_pay2 (qwBlk m c t) (scBlk m c t) (zrBlk m c t) (actBlk m c t) (accInit m c t) := by
  obtain ⟨n, hn⟩ := t
  cases n with
  | zero => rfl
  | succ n => exact (congrArg (k0_pay2 _ _ _ _) (if_pos h))

/-- At any other K-step it adds this step's product to what the point before left. -/
theorem accAt_next (c : Dev nD) (t : Fin cfg0.N) (h : ¬t.val % 4 = 0) :
    accAt m c t.val t.isLt = k0_pay2 (qwBlk m c t) (scBlk m c t) (zrBlk m c t) (actBlk m c t)
      (accAt m c (t.val - 1) (Nat.lt_of_le_of_lt (Nat.sub_le _ _) t.isLt)) := by
  obtain ⟨n, hn⟩ := t
  cases n with
  | zero => exact absurd (Nat.zero_mod _) h
  | succ n => exact (congrArg (k0_pay2 _ _ _ _) (if_neg h))

/-! ## The region invariant: the accumulator at what the point before left -/

/-- Before position `n`: at the first point the scratch block at anything; afterwards at the accumulator's value. -/
def PhiS (c : Dev nD) : (n : ℕ) → n ≤ cfg0.N → sProp 𝕄
  | 0, _ => iprop(∃ d, owns (c : Thread nD τ) scr fullShare d)
  | n + 1, hn => owns (c : Thread nD τ) scr fullShare (accAt m c n hn)

theorem PhiS_zero (c : Dev nD) (n : ℕ) (h : n ≤ cfg0.N) (hz : n = 0) :
    PhiS m c n h = iprop(∃ d, owns (c : Thread nD τ) scr fullShare d) := by
  subst hz; rfl

theorem PhiS_succ (c : Dev nD) (n : ℕ) (hn : n < cfg0.N) :
    PhiS m c (n + 1) hn = owns (c : Thread nD τ) scr fullShare (accAt m c n hn) := rfl

theorem PhiS_pos (c : Dev nD) (n : ℕ) (h : n ≤ cfg0.N) (hz : n ≠ 0) :
    PhiS m c n h = owns (c : Thread nD τ) scr fullShare (accAt m c (n - 1) (by omega)) := by
  cases n with
  | zero => exact absurd rfl hz
  | succ n => rfl

/-- The scoped buffers no window stages are the scratch block alone: held at anything, they are the invariant
    before the first point, and the invariant after any point gives them back. -/
theorem scopedRest_eq_scr (c : Dev nD) :
    (Pipeline.scopedRest (Ix := Unit) (Name := ℕ) (U := UR sig nD τ) (Lvl := ℕ) (Val := Elt F) spec0 c : sProp 𝕄)
      = iprop(∃ d, owns (c : Thread nD τ) scr fullShare d) := by
  rw [scopedRest0_eq]; simp only [scr, owns_whole]; try rfl

/-! ## The proof data -/

/-- The arrays as the region finds them; after the body each input's buffer at its block and the output's at the
    accumulator; the invariant `PhiS`; nothing owed; the activation array's two windows at half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

/-- Before the first point the invariant is the scoped rest; -/
theorem Phi_zero (c : Dev nD) :
    (dats m 0 c).Φ 0 = (Pipeline.scopedRest (Ix := Unit) (Name := ℕ) (U := UR sig nD τ) (Lvl := ℕ) (Val := Elt F) spec0 c : sProp 𝕄) := by
  rw [scopedRest_eq_scr]; rfl

/-- after the last it gives the scoped rest back (the accumulator's value forgotten). -/
theorem Phi_last (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [scopedRest_eq_scr, show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega)]
  iintro H; iexists _; iexact H

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = accAt m c t.val t.isLt := by dsimp only [dats]

/-- Each input's current staging buffer holds its array's block at every point, fetched there or not: where it is
    not fetched the block index has not moved and the body left the block in place. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

/-- No input window is idle anywhere. -/
theorem live_0 (t : Fin cfg0.N) : cfg0.idle 0 (grid0.coords t) = false := rfl
theorem live_1 (t : Fin cfg0.N) : cfg0.idle 1 (grid0.coords t) = false := rfl
theorem live_2 (t : Fin cfg0.N) : cfg0.idle 2 (grid0.coords t) = false := rfl
theorem live_3 (t : Fin cfg0.N) : cfg0.idle 3 (grid0.coords t) = false := rfl
theorem live_4 (t : Fin cfg0.N) : cfg0.idle 4 (grid0.coords t) = false := rfl
theorem live_5 (t : Fin cfg0.N) : cfg0.idle 5 (grid0.coords t) = false := rfl
theorem live_6 (t : Fin cfg0.N) : cfg0.idle 6 (grid0.coords t) = false := rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (sm0 t) fullShare ((dats m 0 c).before 0 t d))
    ∗ (∃ d, owns (c : Thread nD τ) (sm1 t) fullShare ((dats m 0 c).before 1 t d))
    ∗ (∃ d, owns (c : Thread nD τ) (sm2 t) fullShare ((dats m 0 c).before 2 t d))
    ∗ (∃ d, owns (c : Thread nD τ) (sm3 t) fullShare ((dats m 0 c).before 3 t d))
    ∗ (∃ d, owns (c : Thread nD τ) (sm4 t) fullShare ((dats m 0 c).before 4 t d))
    ∗ (∃ d, owns (c : Thread nD τ) (sm5 t) fullShare ((dats m 0 c).before 5 t d))
    ∗ (∃ d, owns (c : Thread nD τ) (sm6 t) fullShare ((dats m 0 c).before 6 t d))
    ∗ (∃ d, owns (c : Thread nD τ) (sm7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point. The inputs' buffers hold their blocks; t mod 4 says which of the three control cases
    the point is in; the invariant hands the body the accumulator at what the point before left (at anything
    before the first point) and takes it back at this point's value; the output buffer is handed back untouched
    except at a tile's last K-step, where it is left at the accumulator's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (sm0 t) fullShare ((dats m 0 c).after 0 t) from by
    unfold Dat.leavesExact; rw [live_0 t], after_0]
  rw [show (dats m 0 c).leavesExact 1 t = owns (c : Thread nD τ) (sm1 t) fullShare ((dats m 0 c).after 1 t) from by
    unfold Dat.leavesExact; rw [live_1 t], after_1]
  rw [show (dats m 0 c).leavesExact 2 t = owns (c : Thread nD τ) (sm2 t) fullShare ((dats m 0 c).after 2 t) from by
    unfold Dat.leavesExact; rw [live_2 t], after_2]
  rw [show (dats m 0 c).leavesExact 3 t = owns (c : Thread nD τ) (sm3 t) fullShare ((dats m 0 c).after 3 t) from by
    unfold Dat.leavesExact; rw [live_3 t], after_3]
  rw [show (dats m 0 c).leavesExact 4 t = owns (c : Thread nD τ) (sm4 t) fullShare ((dats m 0 c).after 4 t) from by
    unfold Dat.leavesExact; rw [live_4 t], after_4]
  rw [show (dats m 0 c).leavesExact 5 t = owns (c : Thread nD τ) (sm5 t) fullShare ((dats m 0 c).after 5 t) from by
    unfold Dat.leavesExact; rw [live_5 t], after_5]
  rw [show (dats m 0 c).leavesExact 6 t = owns (c : Thread nD τ) (sm6 t) fullShare ((dats m 0 c).after 6 t) from by
    unfold Dat.leavesExact; rw [live_6 t], after_6]
  have hN : t.val < 256 := lt_of_lt_of_eq t.isLt (show cfg0.N = 256 from N_0)
  by_cases h0 : t.val % 4 = 0
  · -- a tile's first K-step
    have hF : isFirst (grid0.coords t) := (isFirst_iff t).mpr h0
    have hL : ¬isLast (grid0.coords t) := fun h => by have := (isLast_iff t).mp h; omega
    rw [Dat.leavesExact_idle (dats m 0 c) 7 t (out_idle t hL) (out_noFlush t hL)]
    rw [accAt_first m c t h0]
    have hscr : (dats m 0 c).Φ t.castSucc ⊢ (iprop(∃ d, owns (c : Thread nD τ) scr fullShare d) : sProp 𝕄) := by
      rw [Phi_castSucc m c t]
      by_cases hz : t.val = 0
      · rw [PhiS_zero m c _ _ hz]
      · rw [PhiS_pos m c _ _ hz]; iintro H; iexists _; iexact H
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HS' := hscr $$ HS
    iapply (tripleFirst c (grid0.coords t) _ _ _ _ _ _ _ _ _ _ _ _ _ _ _ _ _ _ hF hL
      (actBlk m c t) (actOutBlk m c t) (qwBlk m c t) (scBlk m c t) (zrBlk m c t) (owBlk m c t) (bsBlk m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS']; · iexact HS'
    iintro ⟨H0, H1, H2, H3, H4, H5, H6, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hF : ¬isFirst (grid0.coords t) := fun h => h0 ((isFirst_iff t).mp h)
    have hz : t.val ≠ 0 := fun h => h0 (by rw [h])
    rw [Phi_castSucc m c t, PhiS_pos m c _ _ hz, accAt_next m c t h0]
    by_cases h3 : t.val % 4 = 3
    · -- a tile's last K-step
      have hL : isLast (grid0.coords t) := (isLast_iff t).mpr h3
      rw [show (dats m 0 c).leavesExact 7 t = owns (c : Thread nD τ) (sm7 t) fullShare ((dats m 0 c).after 7 t) from by
        unfold Dat.leavesExact; rw [out_live t hL], after_7, accAt_next m c t h0]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (tripleLast c (grid0.coords t) _ _ _ _ _ _ _ _ _ _ _ _ _ _ _ _ _ _ hF hL
        (actBlk m c t) (qwBlk m c t) (scBlk m c t) (zrBlk m c t) (accAt m c (t.val - 1) (Nat.lt_of_le_of_lt (Nat.sub_le _ _) t.isLt)) Set.univ _)
      isplitl [H0]; · iexact H0
      isplitl [H2]; · iexact H2
      isplitl [H3]; · iexact H3
      isplitl [H4]; · iexact H4
      isplitl [H7]; · iexists _; iexact H7
      isplitl [HS]; · iexact HS
      iintro ⟨H0, H2, H3, H4, H7, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a middle K-step
      have hL : ¬isLast (grid0.coords t) := fun h => h3 ((isLast_iff t).mp h)
      rw [Dat.leavesExact_idle (dats m 0 c) 7 t (out_idle t hL) (out_noFlush t hL)]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (tripleMid c (grid0.coords t) _ _ _ _ _ _ _ _ _ _ _ _ _ _ _ _ _ _ hF hL
        (actBlk m c t) (qwBlk m c t) (scBlk m c t) (zrBlk m c t) (accAt m c (t.val - 1) (Nat.lt_of_le_of_lt (Nat.sub_le _ _) t.isLt)) Set.univ _)
      isplitl [H0]; · iexact H0
      isplitl [H2]; · iexact H2
      isplitl [H3]; · iexact H3
      isplitl [H4]; · iexact H4
      isplitl [HS]; · iexact HS
      iintro ⟨H0, H2, H3, H4, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.QuantLinear

end
-- ==== Proof.Bits.Launch.lean ====
/-
  The launch. @main is three host operations (the activations flattened to rows, the quantised weight and the
  outlier weight transposed), one kernel region, and one host operation after it (the output rows read back at the
  result's shape). Its run: from any memory whose semaphore counters are zero, every weakly fair execution of @main
  on the TensorCores terminates, and every final state holds, in the result's buffer, the output array as the region
  leaves it read at the result's shape, and every argument array as it was.

  Between segments the thread state is the core's unscoped buffers, each whole at a valuation, beside what the core
  owes (nothing). The region takes the buffers behind its windows out of them — the activation rows' buffer, handed
  to two windows, as two halves — and gives them back, the halves joined, the output's buffer at what the last
  write-back leaves; the four buffers no window has bypass it; its invariant before the first point and after the
  last is the scratch block at anything.
-/
import proofs.«153761_j15461882266230_1_alg».proof.Proof.Bits.Data
import Idealize.ShloMosaic.Lib.Pipeline.Frame
import Idealize.ShloMosaic.Lib.Pipeline.Regions
import Idealize.ShloMosaic.Lib.Pipeline.Kit

set_option maxRecDepth 16384

noncomputable section

namespace Cert.Kernel.QuantLinear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations between the segments -/

/-- Core `c`'s buffers at launch. -/
abbrev Vl (c : Dev nD) : Valuation τ sig (Elt F) := fun b => m ((c : Dev nD), b)

/-- The output array as the region leaves it: after every write-back. -/
abbrev outArr (c : Dev nD) : Buf (Elt F) ((c : Thread nD τ).loc main_v3) := (dats m 0 c).arrAt 7 cfg0.N

/-- Core `c`'s buffers when the region is left: as it found them, the output array at what it leaves. -/
def Wv (c : Dev nD) : Valuation τ sig (Elt F) := Function.update (V0 m c) (Proc.devRef .tc main_v3) (outArr m c)

theorem Wv_v3 (c : Dev nD) : Wv m c (Proc.devRef .tc main_v3) = outArr m c := Function.update_self _ _ _

theorem Wv_ne (c : Dev nD) (b : Ref sig .tc) (h : b ≠ main_v3) : Wv m c (Proc.devRef .tc b) = V m c b :=
  Function.update_of_ne (StableHlo.devRef_ne_of_ne h) _ _

/-- The result: the output array read at the result's shape. -/
abbrev result (c : Dev nD) : Buf (Elt F) ((c : Thread nD τ).loc main_v4) :=
  shapeCast (s := S8192x4096) (α := Elt F .f32) S4x2048x4096 (outArr m c) shapeCasts_S8192x4096_S4x2048x4096

/-! ## What the host operations write -/

/-- The three operations before the region write their results only. -/
theorem not_written0 (b : Ref sig .tc) (h0 : b ≠ main_v0) (h1 : b ≠ main_v1) (h2 : b ≠ main_v2) :
    ∀ op ∈ (hostOps0 (F := F)), Proc.devRef (τ := τ) .tc b ∉ op.writes := by
  intro op hop
  simp only [List.mem_cons, List.mem_nil_iff, or_false] at hop
  rcases hop with rfl | rfl | rfl
  · simp only [StableHlo.reshape_writes, Finset.mem_singleton]; exact StableHlo.devRef_ne_of_ne h0
  · simp only [StableHlo.unary_writes, Finset.mem_singleton]; exact StableHlo.devRef_ne_of_ne h1
  · simp only [StableHlo.unary_writes, Finset.mem_singleton]; exact StableHlo.devRef_ne_of_ne h2

/-- The operation after it writes the result only. -/
theorem not_written1 (b : Ref sig .tc) (h4 : b ≠ main_v4) :
    ∀ op ∈ (hostOps1 (F := F)), Proc.devRef (τ := τ) .tc b ∉ op.writes := by
  intro op hop
  simp only [List.mem_cons, List.mem_nil_iff, or_false] at hop
  subst hop
  simp only [StableHlo.reshape_writes, Finset.mem_singleton]; exact StableHlo.devRef_ne_of_ne h4

/-- A buffer no host operation writes reaches the region as launched. -/
theorem V_arg (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) hostOps0 (Vl m c) (not_written0 b h0 h1 h2)

/-- At the end the result's buffer holds the output array at the result's shape; -/
theorem end_v4 (c : Dev nD) : StableHlo.after hostOps1 (Wv m c) (Proc.devRef .tc main_v4) = result m c := by
  refine (StableHlo.reshape_result main_v3 main_v4 rfl shapeCasts_S8192x4096_S4x2048x4096 ⟨by decide, rfl⟩ ⟨by decide, rfl⟩ (Wv m c)).trans ?_
  rw [Wv_v3]; rfl

/-- an argument's buffer what it held at launch. -/
theorem end_arg (c : Dev nD) (b : Ref sig .tc) (h0 : b ≠ main_v0) (h1 : b ≠ main_v1) (h2 : b ≠ main_v2) (h3 : b ≠ main_v3) (h4 : b ≠ main_v4) :
    StableHlo.after hostOps1 (Wv m c) (Proc.devRef .tc b) = m ((c : Thread nD τ).loc b) :=
  (StableHlo.after_of_forall_not_mem (b := Proc.devRef .tc b) hostOps1 (Wv m c) (not_written1 b h4)).trans
    ((Wv_ne m c b h3).trans (V_arg m c b h0 h1 h2))

/-! ## The unscoped buffers, one by one -/

/-- A TensorCore reference whose buffer is not scoped is among the unscoped device buffers. -/
theorem mem_ucRefs (b : Ref sig .tc) (h : (Proc.devRef (τ := τ) .tc b).isScoped = false) :
    Proc.devRef (τ := τ) .tc b ∈ Pipeline.ucRefs τ sig :=
  Finset.mem_filter.mpr ⟨StableHlo.devRef_mem_tcRefs b, fun h' => Bool.false_ne_true (h.symm.trans h')⟩

/-- The core's unscoped buffers held at a valuation: the six arguments and the five values of @main. -/
theorem held_chain (c : Dev nD) (W : Valuation τ sig (Elt F)) :
    (StableHlo.held (c : Thread nD τ) (Pipeline.ucRefs τ sig) W : sProp 𝕄)
      = iprop((((c : Thread nD τ).loc main_arg0) ↦{fullShare} W (Proc.devRef .tc main_arg0))
          ∗ (((c : Thread nD τ).loc main_arg1) ↦{fullShare} W (Proc.devRef .tc main_arg1))
          ∗ (((c : Thread nD τ).loc main_arg2) ↦{fullShare} W (Proc.devRef .tc main_arg2))
          ∗ (((c : Thread nD τ).loc main_arg3) ↦{fullShare} W (Proc.devRef .tc main_arg3))
          ∗ (((c : Thread nD τ).loc main_arg4) ↦{fullShare} W (Proc.devRef .tc main_arg4))
          ∗ (((c : Thread nD τ).loc main_arg5) ↦{fullShare} W (Proc.devRef .tc main_arg5))
          ∗ (((c : Thread nD τ).loc main_v0) ↦{fullShare} W (Proc.devRef .tc main_v0))
          ∗ (((c : Thread nD τ).loc main_v1) ↦{fullShare} W (Proc.devRef .tc main_v1))
          ∗ (((c : Thread nD τ).loc main_v2) ↦{fullShare} W (Proc.devRef .tc main_v2))
          ∗ (((c : Thread nD τ).loc main_v3) ↦{fullShare} W (Proc.devRef .tc main_v3))
          ∗ (((c : Thread nD τ).loc main_v4) ↦{fullShare} W (Proc.devRef .tc main_v4))) := by
  refine (Pipeline.unscopedBufs_held (Ix := Unit) (Name := ℕ) (U := UR sig nD τ) (Lvl := ℕ) c W).symm.trans ?_
  unfold unscopedBufs
  exact bigSep_eq_bigSepL_of_eq
    [main_arg0, main_arg1, main_arg2, main_arg3, main_arg4, main_arg5, main_v0, main_v1, main_v2, main_v3, main_v4]
    (by decide) (by decide) _

/-- The same as the region is left: every buffer as the region found it, the output array at what it leaves. -/
theorem held_Wv (c : Dev nD) :
    (StableHlo.held (c : Thread nD τ) (Pipeline.ucRefs τ sig) (Wv m c) : sProp 𝕄)
      = iprop((((c : Thread nD τ).loc main_arg0) ↦{fullShare} V m c main_arg0)
          ∗ (((c : Thread nD τ).loc main_arg1) ↦{fullShare} V m c main_arg1)
          ∗ (((c : Thread nD τ).loc main_arg2) ↦{fullShare} V m c main_arg2)
          ∗ (((c : Thread nD τ).loc main_arg3) ↦{fullShare} V m c main_arg3)
          ∗ (((c : Thread nD τ).loc main_arg4) ↦{fullShare} V m c main_arg4)
          ∗ (((c : Thread nD τ).loc main_arg5) ↦{fullShare} V m c main_arg5)
          ∗ (((c : Thread nD τ).loc main_v0) ↦{fullShare} V m c main_v0)
          ∗ (((c : Thread nD τ).loc main_v1) ↦{fullShare} V m c main_v1)
          ∗ (((c : Thread nD τ).loc main_v2) ↦{fullShare} V m c main_v2)
          ∗ (((c : Thread nD τ).loc main_v3) ↦{fullShare} outArr m c)
          ∗ (((c : Thread nD τ).loc main_v4) ↦{fullShare} V m c main_v4)) := by
  rw [held_chain, Wv_v3, Wv_ne m c main_arg0 (by decide), Wv_ne m c main_arg1 (by decide), Wv_ne m c main_arg2 (by decide),
    Wv_ne m c main_arg3 (by decide), Wv_ne m c main_arg4 (by decide), Wv_ne m c main_arg5 (by decide),
    Wv_ne m c main_v0 (by decide), Wv_ne m c main_v1 (by decide), Wv_ne m c main_v2 (by decide), Wv_ne m c main_v4 (by decide)]

/-! ## The windows' arrays, one by one -/

/-- A window's array is a whole buffer: its points-to is the buffer's. -/
theorem arr_pt (c : Dev nD) (w : Fin cfg0.W) (q : PosShare TreeShare) (f : Buf (Elt F) ((cfg0.win w).arr.view.loc (c : Thread nD τ))) :
    ((cfg0.win w).arr.view.loc (c : Thread nD τ) ↦[(cfg0.win w).arr.view.set]{q} f : sProp 𝕄)
      = ((cfg0.win w).arr.view.loc (c : Thread nD τ) ↦{q} f) := by
  have h : (cfg0.win w).arr.IsWhole := arr_whole0 w
  rw [h.set_eq_univ]

/-- The windows' arrays at contents `Ff`: the activation rows' buffer in two halves, one per window on it; each
    other buffer whole. -/
theorem arrays_chain (c : Dev nD) (Ff : (w : Fin cfg0.W) → Buf (Elt F) ((cfg0.win w).arr.view.loc (c : Thread nD τ))) :
    ((dats m 0 c).arrays Ff : sProp 𝕄)
      = iprop((((c : Thread nD τ).loc main_v0) ↦{fullShare.left} Ff 0)
          ∗ (((c : Thread nD τ).loc main_v0) ↦{fullShare.right} Ff 1)
          ∗ (((c : Thread nD τ).loc main_v1) ↦{fullShare} Ff 2)
          ∗ (((c : Thread nD τ).loc main_arg2) ↦{fullShare} Ff 3)
          ∗ (((c : Thread nD τ).loc main_arg3) ↦{fullShare} Ff 4)
          ∗ (((c : Thread nD τ).loc main_v2) ↦{fullShare} Ff 5)
          ∗ (((c : Thread nD τ).loc main_arg5) ↦{fullShare} Ff 6)
          ∗ (((c : Thread nD τ).loc main_v3) ↦{fullShare} Ff 7)) := by
  have h : ((dats m 0 c).arrays Ff : sProp 𝕄)
      = bigSep Finset.univ fun w : Fin cfg0.W => ((cfg0.win w).arr.view.loc (c : Thread nD τ) ↦{(dats m 0 c).share w} Ff w : sProp 𝕄) := by
    unfold Dat.arrays
    exact bigSep_congr fun w _ => arr_pt c w _ _
  exact h.trans (bigSep_W0 _)

/-- A points-to at equal contents. -/
theorem pt_of_eq (ℓ : Loc nD τ sig) (q : PosShare TreeShare) {f g : Buf (Elt F) ℓ} (h : f = g) :
    (ℓ ↦{q} f : sProp 𝕄) ⊢ ℓ ↦{q} g := Entails.of_eq (by rw [h])

/-- Before the first point every array is as the host operations leave it. -/
theorem arrAt_zero (c : Dev nD) (w : Fin cfg0.W) : (dats m 0 c).arrAt w 0 = V m c (Pipeline.arrRef spec0 w) := A_eq m c w

/-- An input window's array is never written: after the last point it is as the region found it. -/
theorem arrAt_input (c : Dev nD) (w : Fin cfg0.W) (h : (cfg0.win w).isOut = false) :
    (dats m 0 c).arrAt w cfg0.N = V m c (Pipeline.arrRef spec0 w) :=
  ((dats m 0 c).arrAt_in w h cfg0.N).trans (A_eq m c w)

/-- ENTRY: the buffers behind the windows' arrays, as the host operations leave them, are the arrays at the proof
    data's entry contents. -/
theorem arrays_entry (c : Dev nD) :
    (iprop((((c : Thread nD τ).loc main_v0) ↦{fullShare.left} V m c main_v0)
          ∗ (((c : Thread nD τ).loc main_v0) ↦{fullShare.right} V m c main_v0)
          ∗ (((c : Thread nD τ).loc main_v1) ↦{fullShare} V m c main_v1)
          ∗ (((c : Thread nD τ).loc main_arg2) ↦{fullShare} V m c main_arg2)
          ∗ (((c : Thread nD τ).loc main_arg3) ↦{fullShare} V m c main_arg3)
          ∗ (((c : Thread nD τ).loc main_v2) ↦{fullShare} V m c main_v2)
          ∗ (((c : Thread nD τ).loc main_arg5) ↦{fullShare} V m c main_arg5)
          ∗ (((c : Thread nD τ).loc main_v3) ↦{fullShare} V m c main_v3)) : sProp 𝕄)
      ⊢ (dats m 0 c).arrays ((dats m 0 c).arrAt · 0) := by
  refine BIBase.Entails.trans ?_ (Entails.of_eq (arrays_chain m c ((dats m 0 c).arrAt · 0)).symm)
  iintro ⟨H0, H1, H2, H3, H4, H5, H6, H7⟩
  isplitl [H0]; · iapply (pt_of_eq _ _ (arrAt_zero m c 0).symm); iexact H0
  isplitl [H1]; · iapply (pt_of_eq _ _ (arrAt_zero m c 1).symm); iexact H1
  isplitl [H2]; · iapply (pt_of_eq _ _ (arrAt_zero m c 2).symm); iexact H2
  isplitl [H3]; · iapply (pt_of_eq _ _ (arrAt_zero m c 3).symm); iexact H3
  isplitl [H4]; · iapply (pt_of_eq _ _ (arrAt_zero m c 4).symm); iexact H4
  isplitl [H5]; · iapply (pt_of_eq _ _ (arrAt_zero m c 5).symm); iexact H5
  isplitl [H6]; · iapply (pt_of_eq _ _ (arrAt_zero m c 6).symm); iexact H6
  iapply (pt_of_eq _ _ (arrAt_zero m c 7).symm); iexact H7

/-- EXIT: the arrays after the last point are the inputs' buffers as found and the output's at what the region
    leaves. -/
theorem arrays_exit (c : Dev nD) :
    ((dats m 0 c).arrays ((dats m 0 c).arrAt · cfg0.N) : sProp 𝕄)
      ⊢ iprop((((c : Thread nD τ).loc main_v0) ↦{fullShare.left} V m c main_v0)
          ∗ (((c : Thread nD τ).loc main_v0) ↦{fullShare.right} V m c main_v0)
          ∗ (((c : Thread nD τ).loc main_v1) ↦{fullShare} V m c main_v1)
          ∗ (((c : Thread nD τ).loc main_arg2) ↦{fullShare} V m c main_arg2)
          ∗ (((c : Thread nD τ).loc main_arg3) ↦{fullShare} V m c main_arg3)
          ∗ (((c : Thread nD τ).loc main_v2) ↦{fullShare} V m c main_v2)
          ∗ (((c : Thread nD τ).loc main_arg5) ↦{fullShare} V m c main_arg5)
          ∗ (((c : Thread nD τ).loc main_v3) ↦{fullShare} outArr m c)) := by
  refine (Entails.of_eq (arrays_chain m c ((dats m 0 c).arrAt · cfg0.N))).trans ?_
  iintro ⟨H0, H1, H2, H3, H4, H5, H6, H7⟩
  isplitl [H0]; · iapply (pt_of_eq _ _ (arrAt_input m c 0 rfl)); iexact H0
  isplitl [H1]; · iapply (pt_of_eq _ _ (arrAt_input m c 1 rfl)); iexact H1
  isplitl [H2]; · iapply (pt_of_eq _ _ (arrAt_input m c 2 rfl)); iexact H2
  isplitl [H3]; · iapply (pt_of_eq _ _ (arrAt_input m c 3 rfl)); iexact H3
  isplitl [H4]; · iapply (pt_of_eq _ _ (arrAt_input m c 4 rfl)); iexact H4
  isplitl [H5]; · iapply (pt_of_eq _ _ (arrAt_input m c 5 rfl)); iexact H5
  isplitl [H6]; · iapply (pt_of_eq _ _ (arrAt_input m c 6 rfl)); iexact H6
  iexact H7

/-! ## The segments -/

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
abbrev 𝒱₀ : Variants := Variants.none

/-- What rides beside the buffers: what the core owes, which is nothing. -/
abbrev R (c : Dev nD) : sProp 𝕄 := iprop(∃ W, owes (c : Thread nD τ) (0 : CellTallies nD τ sig Unit) W)

/-- THE HOST SEGMENT before the region: the three operations over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by
      intro op hop
      simp only [List.mem_cons, List.mem_nil_iff, or_false] at hop
      rcases hop with rfl | rfl | rfl <;> rfl)
    (Vl m) R

/-- THE HOST SEGMENT after it: the output rows read back at the result's shape. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by
      intro op hop
      simp only [List.mem_cons, List.mem_nil_iff, or_false] at hop
      subst hop; rfl)
    (Wv m) R

set_option backward.isDefEq.respectTransparency.types false in
/-- THE REGION: the decided layout, no semaphore of the kernel's own, the body obligation; entered from what the
    first host segment leaves — the buffers behind the windows' arrays into the pipeline, the activation rows' in
    two halves, the four others bypassing —, left with the halves joined and the output's buffer at what the last
    write-back leaves. -/
def reg0 : Pipeline.RegionSeg (pcfgs (F := F)) adm (dats m) () defs₀ 𝒱₀ L lv 0 where
  win := winFacts₀0
  block_pos := block_pos0
  stage_whole := stage_whole0
  K := PEmpty
  osem := fun k : PEmpty => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (Wv m c) ∗ R c)
  X _ := iprop(emp)
  Y _ := iprop(emp)
  Z c := iprop((((c : Thread nD τ).loc main_arg0) ↦{fullShare} V m c main_arg0)
    ∗ (((c : Thread nD τ).loc main_arg1) ↦{fullShare} V m c main_arg1)
    ∗ (((c : Thread nD τ).loc main_arg4) ↦{fullShare} V m c main_arg4)
    ∗ (((c : Thread nD τ).loc main_v4) ↦{fullShare} V m c main_v4))
  hentry c := by
    iintro ⟨⟨Hh, HO⟩, -, -⟩
    ihave Hc := (Entails.of_eq (held_chain c (V0 m c))) $$ Hh
    icases Hc with ⟨Ha0, Ha1, Ha2, Ha3, Ha4, Ha5, Hv0, Hv1, Hv2, Hv3, Hv4⟩
    ihave Hs := (pointsTo_share (PosShare.mem_left_op_right fullShare)).1 $$ Hv0
    icases Hs with ⟨Hl, Hr⟩
    imodintro
    isplitl [Hl Hr Hv1 Ha2 Ha3 Hv2 Ha5 Hv3]
    · iapply (arrays_entry m c)
      isplitl [Hl]; · iexact Hl
      isplitl [Hr]; · iexact Hr
      isplitl [Hv1]; · iexact Hv1
      isplitl [Ha2]; · iexact Ha2
      isplitl [Ha3]; · iexact Ha3
      isplitl [Hv2]; · iexact Hv2
      isplitl [Ha5]; · iexact Ha5
      iexact Hv3
    isplitr [HO Ha0 Ha1 Ha4 Hv4]
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr [Ha0 Ha1 Ha4 Hv4]
    · iempintro
    isplitl [Ha0]; · iexact Ha0
    isplitl [Ha1]; · iexact Ha1
    isplitl [Ha4]; · iexact Ha4
    iexact Hv4
  hin c := by
    refine BIBase.Entails.trans ?_ (Entails.of_eq (Phi_zero m c).symm)
    iintro ⟨-, -, Hr⟩
    iexact Hr
  hout c := by
    refine (Phi_last m c).trans ?_
    rw [Pipeline.ownSems0_none]
    iintro Hr
    isplitr; · iempintro
    isplitr; · iempintro
    iexact Hr
  hexit c := by
    iintro ⟨Ha, HO, -, ⟨Ha0, Ha1, Ha4, Hv4⟩⟩
    ihave Hc := (arrays_exit m c) $$ Ha
    icases Hc with ⟨Hl, Hr, Hv1, Ha2, Ha3, Hv2, Ha5, Hv3⟩
    imodintro
    isplitr [HO]
    · iapply (Entails.of_eq (held_Wv m c).symm)
      isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      isplitl [Hl Hr]
      · iapply (pointsTo_share (PosShare.mem_left_op_right fullShare)).2
        isplitl [Hl]; · iexact Hl
        iexact Hr
      isplitl [Hv1]; · iexact Hv1
      isplitl [Hv2]; · iexact Hv2
      isplitl [Hv3]; · iexact Hv3
      iexact Hv4
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) :=
  [.host (seg0 m), .region (reg0 m), .host (seg1 m)]

/-- What a final state holds on core `c`: the result, and every argument array as it was. -/
abbrev QY (c : Dev nD) (s : MemSt nD τ sig (Elt F)) : Prop :=
  s.mem ((c : Thread nD τ).loc main_v4) = result m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)

set_option backward.isDefEq.respectTransparency.types false in
/-- At the compiled mesh, for any float values, from any memory with zero counters: every weakly fair execution of
    @main on the TensorCores terminates, and every final state has in the result's buffer the output array as the
    region leaves it, read at the result's shape, and every argument array unchanged. -/
theorem run_main : θ_run defs (onTc (τ := τ) (main (F := F))) ⟨m, fun _ => 0, ρ⟩ (fun r => ∀ c : Dev nD,
      r.2.mem ((c.tc : Thread nD τ).loc main_v4)
          = shapeCast (s := S8192x4096) (α := Elt F .f32) S4x2048x4096 ((dats m 0 c).arrAt 7 cfg0.N) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (dats m) () cellOf_inj emb₁ defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => StableHlo.held (c : Thread nD τ) (Pipeline.ucRefs τ sig) (StableHlo.after hostOps1 (Wv m c)))
    (hch := ⟨fun _ => .rfl, fun _ => .rfl, fun _ => .rfl, fun _ => .rfl⟩)
    (hinit := by
      refine Pipeline.initEach L lv fun c => ?_
      iintro ⟨⟨Hh, -, HO, -, -, -⟩, -⟩
      ihave Hh' := (Entails.of_eq (Pipeline.unscopedBufs_held (Ix := Unit) (Name := ℕ) (U := UR sig nD τ) (Lvl := ℕ) c (Vl m c))) $$ Hh
      imodintro
      isplitl [Hh']; · iexact Hh'
      iexists ∅; iexact HO)
    (QY := QY m)
    (hfin := fun c s' => by
      unfold StableHlo.held
      iintro ⟨Hh, HSI⟩
      ihave Hr := (pointsTo_read_all (Pipeline.ucRefs τ sig) (fun b => (((c : Thread nD τ)).1, b))
        (StableHlo.after hostOps1 (Wv m c)) s') $$ [Hh HSI]
      · isplitl [Hh]; · iexact Hh
        iexact HSI
      icases Hr with ⟨%hr, HSI⟩
      imodintro
      isplitr
      · ipureintro
        exact ⟨(hr _ (mem_ucRefs main_v4 rfl)).trans (end_v4 m c),
          (hr _ (mem_ucRefs main_arg0 rfl)).trans (end_arg m c main_arg0 (by decide) (by decide) (by decide) (by decide) (by decide)),
          (hr _ (mem_ucRefs main_arg1 rfl)).trans (end_arg m c main_arg1 (by decide) (by decide) (by decide) (by decide) (by decide)),
          (hr _ (mem_ucRefs main_arg2 rfl)).trans (end_arg m c main_arg2 (by decide) (by decide) (by decide) (by decide) (by decide)),
          (hr _ (mem_ucRefs main_arg3 rfl)).trans (end_arg m c main_arg3 (by decide) (by decide) (by decide) (by decide) (by decide)),
          (hr _ (mem_ucRefs main_arg4 rfl)).trans (end_arg m c main_arg4 (by decide) (by decide) (by decide) (by decide) (by decide)),
          (hr _ (mem_ucRefs main_arg5 rfl)).trans (end_arg m c main_arg5 (by decide) (by decide) (by decide) (by decide) (by decide))⟩
      iexact HSI)
    (hQ := fun _ h => h)

/-- The frame claim: @main runs, and every argument array ends as it was. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.Kernel.QuantLinear

end
-- ==== Proof.Spec.lean ====
/-
  The specification of the quantised linear layer with its outlier term and bias, index by index over the
  extended reals; the same value in the association order of a K-tiled accumulation; and the law that the two
  agree. Only commutativity and associativity of addition are used: no distributivity, no cancellation, hence
  no finiteness hypothesis.
-/
import Idealize.ShloMosaic.PureOps.Ideal
import Idealize.ShloMosaic.PureOps.Ideal.Laws
import Idealize.ShloMosaic.Lib.ValueIdx
import Mathlib.Algebra.BigOperators.Fin
import Mathlib.Algebra.BigOperators.Group.Finset.Basic
import Mathlib.Tactic.Abel

noncomputable section

open scoped BigOperators

namespace Cert.Spec

open Idealize.ShloMosaic Idealize.ShloMosaic.ValueIdx

/-! ## The integer entry as an extended real -/

/-- A 32-bit word read as a signed integer, exactly, as an extended real. -/
def i2f (b : BitVec 32) : EReal := ((b.toInt : ℝ) : EReal)

/-- The signed-integer-to-float conversion of an integer array, read at an index at the ideal values, is `i2f` of
    the entry. -/
theorem sitofp_at {s : Shape} (v : IVec s 32) (j : s.Idx) : (sitofp (F := Ideal) .f32 v) j = i2f (v j) := rfl

/-- The same for one word. -/
theorem sitofp_word (b : BitVec 32) : (FloatOps.sitofp (F := Ideal) .f32 b : EReal) = i2f b := rfl

/-! ## The dequantised weight -/

/-- The dequantised weight `W[n, k] = q[n, k] * scale[k / 128, n] + zero[k / 128, n]`: one scale and one scaled zero
    per group of 128 consecutive `k`. -/
def deq (qw : IVec ⟨2, ![4096, 4096]⟩ 32) (sc zr : FVec Ideal ⟨2, ![32, 4096]⟩ .f32) (k : Fin 4096) (n : Fin 4096) : EReal :=
  i2f (qw (ix2 n k)) * sc (ix2 (⟨k.val / 128, by have := k.isLt; omega⟩ : Fin 32) n)
    + zr (ix2 (⟨k.val / 128, by have := k.isLt; omega⟩ : Fin 32) n)

/-! ## The reference's value, in the reference's association order -/

/-- The value at batch `b`, position `s`, output feature `n`:
    `((Σ_k x[b,s,k] * W[n,k]) + Σ_o x[b,s,3968+o] * ow[n,o]) + bias[n]`. -/
def refAt (x : FVec Ideal ⟨3, ![4, 2048, 4096]⟩ .f32) (qw : IVec ⟨2, ![4096, 4096]⟩ 32)
    (sc zr : FVec Ideal ⟨2, ![32, 4096]⟩ .f32) (ow : FVec Ideal ⟨2, ![4096, 128]⟩ .f32) (bs : FVec Ideal ⟨1, ![4096]⟩ .f32)
    (b : Fin 4) (s : Fin 2048) (n : Fin 4096) : EReal :=
  ((∑ k : Fin 4096, x (ix3 b s k) * deq qw sc zr k n)
      + ∑ o : Fin 128, x (ix3 b s (⟨3968 + o.val, by have := o.isLt; omega⟩ : Fin 4096)) * ow (ix2 n o))
    + bs (ix1 n)

/-- The whole array of those values. -/
def refVal (x : FVec Ideal ⟨3, ![4, 2048, 4096]⟩ .f32) (qw : IVec ⟨2, ![4096, 4096]⟩ 32)
    (sc zr : FVec Ideal ⟨2, ![32, 4096]⟩ .f32) (ow : FVec Ideal ⟨2, ![4096, 128]⟩ .f32) (bs : FVec Ideal ⟨1, ![4096]⟩ .f32) :
    FVec Ideal ⟨3, ![4, 2048, 4096]⟩ .f32 :=
  fun j => refAt x qw sc zr ow bs (j 0) (j 1) (j 2)

/-- The array read at an index given by its coordinates. -/
theorem refVal_apply (x : FVec Ideal ⟨3, ![4, 2048, 4096]⟩ .f32) (qw : IVec ⟨2, ![4096, 4096]⟩ 32)
    (sc zr : FVec Ideal ⟨2, ![32, 4096]⟩ .f32) (ow : FVec Ideal ⟨2, ![4096, 128]⟩ .f32) (bs : FVec Ideal ⟨1, ![4096]⟩ .f32)
    (b : Fin 4) (s : Fin 2048) (n : Fin 4096) :
    refVal x qw sc zr ow bs (ix3 b s n) = refAt x qw sc zr ow bs b s n := rfl

/-! ## The same value in the order of a K-tiled accumulation

Rows are flattened, `m = b * 2048 + s`; the contraction is cut into four blocks of 1024. -/

/-- The outlier term of row `m`, output feature `n`: `Σ_o x[m, 3968+o] * ow[n,o]`. -/
def outl (x : FVec Ideal ⟨3, ![4, 2048, 4096]⟩ .f32) (ow : FVec Ideal ⟨2, ![4096, 128]⟩ .f32)
    (m : Fin 8192) (n : Fin 4096) : EReal :=
  ∑ o : Fin 128,
    x (ix3 (⟨m.val / 2048, by have := m.isLt; omega⟩ : Fin 4) (⟨m.val % 2048, Nat.mod_lt _ (by decide)⟩ : Fin 2048)
        (⟨3968 + o.val, by have := o.isLt; omega⟩ : Fin 4096))
      * ow (ix2 n o)

/-- The `kk`-th block of the main product: `Σ_{κ<1024} x[m, kk*1024+κ] * W[n, kk*1024+κ]`. -/
def M (x : FVec Ideal ⟨3, ![4, 2048, 4096]⟩ .f32) (qw : IVec ⟨2, ![4096, 4096]⟩ 32)
    (sc zr : FVec Ideal ⟨2, ![32, 4096]⟩ .f32) (m : Fin 8192) (n : Fin 4096) (kk : Fin 4) : EReal :=
  ∑ κ : Fin 1024,
    x (ix3 (⟨m.val / 2048, by have := m.isLt; omega⟩ : Fin 4) (⟨m.val % 2048, Nat.mod_lt _ (by decide)⟩ : Fin 2048)
        (⟨kk.val * 1024 + κ.val, by have := kk.isLt; have := κ.isLt; omega⟩ : Fin 4096))
      * deq qw sc zr (⟨kk.val * 1024 + κ.val, by have := kk.isLt; have := κ.isLt; omega⟩ : Fin 4096) n

/-- The tiled accumulation's value at row `m`, output feature `n`: the outlier term plus the bias first, then the
    four blocks added in order. -/
def tileVal (x : FVec Ideal ⟨3, ![4, 2048, 4096]⟩ .f32) (qw : IVec ⟨2, ![4096, 4096]⟩ 32)
    (sc zr : FVec Ideal ⟨2, ![32, 4096]⟩ .f32) (ow : FVec Ideal ⟨2, ![4096, 128]⟩ .f32) (bs : FVec Ideal ⟨1, ![4096]⟩ .f32)
    (m : Fin 8192) (n : Fin 4096) : EReal :=
  ((((outl x ow m n + bs (ix1 n)) + M x qw sc zr m n 0) + M x qw sc zr m n 1) + M x qw sc zr m n 2) + M x qw sc zr m n 3

/-! ## The regrouping law -/

/-- `Fin 4096` is four consecutive blocks of 1024. -/
def blockEquiv : Fin 4 × Fin 1024 ≃ Fin 4096 where
  toFun p := ⟨p.1.val * 1024 + p.2.val, by have := p.1.isLt; have := p.2.isLt; omega⟩
  invFun k := (⟨k.val / 1024, by have := k.isLt; omega⟩, ⟨k.val % 1024, Nat.mod_lt _ (by decide)⟩)
  left_inv p := by
    obtain ⟨⟨a, ha⟩, ⟨c, hc⟩⟩ := p
    refine Prod.ext (Fin.ext ?_) (Fin.ext ?_)
    · show (a * 1024 + c) / 1024 = a
      omega
    · show (a * 1024 + c) % 1024 = c
      omega
  right_inv k := Fin.ext (by
    show k.val / 1024 * 1024 + k.val % 1024 = k.val
    omega)

/-- A sum over `Fin 4096` is the sum over the four blocks of the sums inside each block. -/
theorem sum_blocks {α : Type*} [AddCommMonoid α] (f : Fin 4096 → α) :
    ∑ k : Fin 4096, f k
      = ∑ kk : Fin 4, ∑ κ : Fin 1024,
          f (⟨kk.val * 1024 + κ.val, by have := kk.isLt; have := κ.isLt; omega⟩ : Fin 4096) := by
  rw [← Equiv.sum_comp blockEquiv f, Fintype.sum_prod_type]
  rfl

/-- Six terms added in the reference's order are the same six added in the accumulation's order. -/
theorem regroup {α : Type*} [AddCommMonoid α] (a0 a1 a2 a3 o c : α) :
    ((a0 + a1 + a2 + a3) + o) + c = ((((o + c) + a0) + a1) + a2) + a3 := by
  abel

/-- The flattened row `b * 2048 + s` has batch `b` … -/
theorem row_div (b : Fin 4) (s : Fin 2048) (h : (b.val * 2048 + s.val) / 2048 < 4) :
    (⟨(b.val * 2048 + s.val) / 2048, h⟩ : Fin 4) = b :=
  Fin.ext (by have := s.isLt; show (b.val * 2048 + s.val) / 2048 = b.val; omega)

/-- … and position `s`. -/
theorem row_mod (b : Fin 4) (s : Fin 2048) (h : (b.val * 2048 + s.val) % 2048 < 2048) :
    (⟨(b.val * 2048 + s.val) % 2048, h⟩ : Fin 2048) = s :=
  Fin.ext (by have := s.isLt; show (b.val * 2048 + s.val) % 2048 = s.val; omega)

/-- The reference's value is the tiled accumulation's value: addition on the extended reals is commutative and
    associative. -/
theorem refVal_eq_tileVal (x : FVec Ideal ⟨3, ![4, 2048, 4096]⟩ .f32) (qw : IVec ⟨2, ![4096, 4096]⟩ 32)
    (sc zr : FVec Ideal ⟨2, ![32, 4096]⟩ .f32) (ow : FVec Ideal ⟨2, ![4096, 128]⟩ .f32) (bs : FVec Ideal ⟨1, ![4096]⟩ .f32)
    (b : Fin 4) (s : Fin 2048) (n : Fin 4096) :
    refVal x qw sc zr ow bs (ix3 b s n)
      = tileVal x qw sc zr ow bs (⟨b.val * 2048 + s.val, by have := b.isLt; have := s.isLt; omega⟩ : Fin 8192) n := by
  rw [refVal_apply]
  unfold refAt tileVal outl M
  simp only [row_div, row_mod]
  rw [sum_blocks, Fin.sum_univ_four]
  exact regroup _ _ _ _ _ _

end Cert.Spec

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.PayAt.lean ====
/-
  The kernel body's two stored values read at an index, over the extended reals.

  The value stored at the first step along the contracted axis is, at (p, q), the outlier product
  Σ_o a (p, o) * w (o, q) plus the bias b q. The value stored at every step is, at (p, q), the accumulator there plus
  Σ_κ x (p, κ) * (n (κ, q) * s (κ / 128, q) + z (κ / 128, q)), n the integer block read signed: a change of format and a
  cast to the same shape are identities, a matrix product into the zero accumulator is the sum over the contracted
  coordinate, and each of the 8 rows of scales and zero points is repeated over the 128 consecutive values of κ it
  serves.
-/
import proofs.«153761_j15461882266230_1_alg».proof.Proof.Gen.KernelIdeal.Skeleton
import proofs.«153761_j15461882266230_1_alg».proof.Proof.LibPlainDot
import proofs.«153761_j15461882266230_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayAt

open Cert.KernelIdeal Cert.KernelIdeal.Gen Idealize.ShloMosaic Idealize.ShloMosaic.ValueIdx

open Cert.Spec (i2f)

/-! ## Sums and products of equal terms -/

theorem add_both {a a' b b' : EReal} (ha : a = a') (hb : b = b') : a + b = a' + b' := by rw [ha, hb]

theorem mul_both {a a' b b' : EReal} (ha : a = a') (hb : b = b') : a * b = a' * b' := by rw [ha, hb]

/-! ## The two matrix products -/

/-- The main product contracts the left block's columns with the right block's rows. -/
theorem plain_main : PlainDot.IsPlain (M := 1024) (K := 1024) (N := 512) dot_S1024x1024_S1024x512_S1024x512_1_0_0_1_n_n :=
  ⟨rfl, rfl, rfl, rfl, rfl, rfl⟩

/-- So does the outlier product. -/
theorem plain_outlier : PlainDot.IsPlain (M := 1024) (K := 128) (N := 512) dot_S1024x128_S128x512_S1024x512_1_0_0_1_n_n :=
  ⟨rfl, rfl, rfl, rfl, rfl, rfl⟩

/-- The main product into the zero accumulator at (p, q): Σ_κ l (p, κ) * r (κ, q). -/
theorem main_dot_at (l : FVec Ideal S1024x1024 .bf16) (r : FVec Ideal S1024x512 .bf16) (p : Fin 1024) (q : Fin 512) :
    FloatOps.matmul dot_S1024x1024_S1024x512_S1024x512_1_0_0_1_n_n none l r
        (constant (F := Ideal) S1024x512 .f32 0x00000000#32) (ix2 p q)
      = ∑ κ : Fin 1024, l (ix2 p κ) * r (ix2 κ q) :=
  PlainDot.matmul_zero_plain (M := 1024) (K := 1024) (N := 512) dot_S1024x1024_S1024x512_S1024x512_1_0_0_1_n_n
    plain_main none l r p q

/-- The outlier product into the zero accumulator at (p, q): Σ_o l (p, o) * r (o, q). -/
theorem outlier_dot_at (l : FVec Ideal S1024x128 .bf16) (r : FVec Ideal S128x512 .bf16) (p : Fin 1024) (q : Fin 512) :
    FloatOps.matmul dot_S1024x128_S128x512_S1024x512_1_0_0_1_n_n none l r
        (constant (F := Ideal) S1024x512 .f32 0x00000000#32) (ix2 p q)
      = ∑ o : Fin 128, l (ix2 p o) * r (ix2 o q) :=
  PlainDot.matmul_zero_plain (M := 1024) (K := 128) (N := 512) dot_S1024x128_S128x512_S1024x512_1_0_0_1_n_n
    plain_outlier none l r p q

/-! ## A block cast to its own shape, then narrowed -/

/-- A block cast to its own shape and then changed in format reads, at every index, the block itself. -/
theorem trunc_self_at {s : Shape} {φ ψ : FTy} (v : FVec Ideal s φ) (h : s.ShapeCasts s) (hb : ψ.bits < φ.bits)
    (i : s.Idx) : truncf (F := Ideal) (s := s) (φ := φ) ψ (shapeCast s v h) hb i = v i :=
  congrFun (shapeCast_self v h) i

/-! ## The bias row over the rows of the tile -/

/-- A vector of 512 entries viewed as one row and repeated over 1024 rows reads, at (p, q), its entry q. -/
theorem bias_at {α : Type} (v : (⟨1, ![512]⟩ : Shape).Idx → α)
    (h1 : (⟨1, ![512]⟩ : Shape).ShapeCasts ⟨2, ![1, 512]⟩)
    (h2 : (⟨2, ![1, 512]⟩ : Shape).Broadcasts ⟨2, ![1024, 512]⟩) (p : Fin 1024) (q : Fin 512) :
    broadcastTo ⟨2, ![1024, 512]⟩ (shapeCast ⟨2, ![1, 512]⟩ v h1) h2 (ix2 p q) = v (ix1 q) :=
  (broadcastTo_1b_ab_apply (a := 1024) (b := 512) (shapeCast ⟨2, ![1, 512]⟩ v h1) h2 p q).trans
    (shapeCast_a_1a_apply (a := 512) v h1 (0 : Fin 1) q)

/-! ## The scale and zero-point rows over the contracted axis -/

/-- An 8 × 512 array viewed as 8 × 1 × 512 reads, at (g, u, q), the array at (g, q): the row-major positions
    g * 512 + q and (g * 1 + u) * 512 + q agree, u being 0. -/
theorem cast_8x512_8x1x512_at {α : Type} (x : (⟨2, ![8, 512]⟩ : Shape).Idx → α)
    (h : (⟨2, ![8, 512]⟩ : Shape).ShapeCasts ⟨3, ![8, 1, 512]⟩) (g : Fin 8) (u : Fin 1) (q : Fin 512) :
    shapeCast ⟨3, ![8, 1, 512]⟩ x h (ix3 g u q) = x (ix2 g q) :=
  shapeCast_apply x h _ _ (by
    rw [Shape.rowMajor_val_three, Shape.rowMajor_val_two]
    show g.val * 512 + q.val = (g.val * 1 + u.val) * 512 + q.val
    omega)

/-- An 8 × 1 × 512 array repeated 128 times along its middle axis reads, at (g, r, q), the array at (g, 0, q). -/
theorem repeat_8x1x512_at {α : Type} (x : (⟨3, ![8, 1, 512]⟩ : Shape).Idx → α)
    (h : (⟨3, ![8, 1, 512]⟩ : Shape).Broadcasts ⟨3, ![8, 128, 512]⟩) (g : Fin 8) (r : Fin 128) (q : Fin 512) :
    broadcastTo ⟨3, ![8, 128, 512]⟩ x h (ix3 g r q) = x (ix3 g (0 : Fin 1) q) := by
  refine broadcastTo_apply x h (ix3 g r q) (ix3 g (0 : Fin 1) q) fun ax => ?_
  match ax with
  | ⟨0, _⟩ =>
    show g.val = if (8 : ℕ) = 1 then 0 else g.val
    exact (if_neg (show ¬ (8 : ℕ) = 1 by decide)).symm
  | ⟨1, _⟩ => rfl
  | ⟨2, _⟩ =>
    show q.val = if (512 : ℕ) = 1 then 0 else q.val
    exact (if_neg (show ¬ (512 : ℕ) = 1 by decide)).symm

/-- An 8 × 128 × 512 array viewed as 1024 × 512 reads, at (κ, q), the array at (κ / 128, κ % 128, q): the row-major
    position ((κ / 128) * 128 + κ % 128) * 512 + q is κ * 512 + q. -/
theorem cast_8x128x512_1024x512_at {α : Type} (x : (⟨3, ![8, 128, 512]⟩ : Shape).Idx → α)
    (h : (⟨3, ![8, 128, 512]⟩ : Shape).ShapeCasts ⟨2, ![1024, 512]⟩) (κ : Fin 1024) (q : Fin 512) :
    shapeCast ⟨2, ![1024, 512]⟩ x h (ix2 κ q)
      = x (ix3 (⟨κ.val / 128, by omega⟩ : Fin 8) (⟨κ.val % 128, by omega⟩ : Fin 128) q) :=
  shapeCast_apply x h _ _ (by
    rw [Shape.rowMajor_val_three, Shape.rowMajor_val_two]
    show (κ.val / 128 * 128 + κ.val % 128) * 512 + q.val = κ.val * 512 + q.val
    omega)

/-- The whole chain: 8 rows of 512 entries, each repeated over the 128 values of κ of its group, read at (κ, q), is
    the row κ / 128 at q. -/
theorem group_at {α : Type} (v : (⟨2, ![8, 512]⟩ : Shape).Idx → α)
    (h1 : (⟨2, ![8, 512]⟩ : Shape).ShapeCasts ⟨3, ![8, 1, 512]⟩)
    (h2 : (⟨3, ![8, 1, 512]⟩ : Shape).ShapeCasts ⟨3, ![8, 1, 512]⟩)
    (h3 : (⟨3, ![8, 1, 512]⟩ : Shape).Broadcasts ⟨3, ![8, 128, 512]⟩)
    (h4 : (⟨3, ![8, 128, 512]⟩ : Shape).ShapeCasts ⟨2, ![1024, 512]⟩) (κ : Fin 1024) (q : Fin 512) :
    shapeCast ⟨2, ![1024, 512]⟩
        (broadcastTo ⟨3, ![8, 128, 512]⟩ (shapeCast ⟨3, ![8, 1, 512]⟩ (shapeCast ⟨3, ![8, 1, 512]⟩ v h1) h2) h3) h4 (ix2 κ q)
      = v (ix2 (⟨κ.val / 128, by omega⟩ : Fin 8) q) := by
  refine (cast_8x128x512_1024x512_at _ h4 κ q).trans ?_
  refine (repeat_8x1x512_at _ h3 _ _ q).trans ?_
  refine (congrFun (shapeCast_self (shapeCast ⟨3, ![8, 1, 512]⟩ v h1) h2) _).trans ?_
  exact cast_8x512_8x1x512_at v h1 _ (0 : Fin 1) q

/-! ## The two stored values -/

/-- THE RESET VALUE at (p, q): the outlier product plus the bias. -/
theorem pay1_at (v31 : Vec Ideal S1024x128 .f32) (v34 : Vec Ideal S128x512 .f32) (v38 : Vec Ideal S512 .f32)
    (p : Fin 1024) (q : Fin 512) :
    k0_pay1 (F := Ideal) v31 v34 v38 (ix2 p q)
      = (∑ o : Fin 128, v31 (ix2 p o) * v34 (ix2 o q)) + v38 (ix1 q) := by
  unfold k0_pay1
  refine (congrFun (shapeCast_self _ _) _).trans ?_
  refine (addf_apply _ _ _).trans ?_
  refine add_both ?_ (bias_at v38 _ _ p q)
  refine (outlier_dot_at _ _ p q).trans ?_
  refine Finset.sum_congr rfl fun o _ => ?_
  exact mul_both (trunc_self_at (φ := .f32) v31 _ _ (ix2 p o)) (trunc_self_at (φ := .f32) v34 _ _ (ix2 o q))

/-- THE ACCUMULATED VALUE at (p, q): the accumulator plus the product of the activation block with the dequantised
    weight block, n * s + z with the scale and zero point of κ's group of 128. -/
theorem pay2_at (v0 : Vec Ideal S1024x512 .i32) (v3 v4 : Vec Ideal S8x512 .f32) (v16 : Vec Ideal S1024x1024 .f32)
    (v23 : Vec Ideal S1024x512 .f32) (p : Fin 1024) (q : Fin 512) :
    k0_pay2 (F := Ideal) v0 v3 v4 v16 v23 (ix2 p q)
      = v23 (ix2 p q) + ∑ κ : Fin 1024, v16 (ix2 p κ) *
          (i2f (v0 (ix2 κ q)) * v3 (ix2 (⟨κ.val / 128, by omega⟩ : Fin 8) q)
            + v4 (ix2 (⟨κ.val / 128, by omega⟩ : Fin 8) q)) := by
  unfold k0_pay2
  refine (congrFun (shapeCast_self _ _) _).trans ?_
  refine (addf_apply _ _ _).trans ?_
  refine add_both rfl ?_
  refine (main_dot_at _ _ p q).trans ?_
  refine Finset.sum_congr rfl fun κ _ => ?_
  refine mul_both (trunc_self_at (φ := .f32) v16 _ _ (ix2 p κ)) ?_
  refine (truncf_apply (φ := .f32) (ψ := .bf16) _ _ _).trans ?_
  refine (addf_apply _ _ _).trans ?_
  refine add_both ?_ (group_at v4 _ _ _ _ κ q)
  refine (mulf_apply _ _ _).trans ?_
  refine mul_both ?_ (group_at v3 _ _ _ _ κ q)
  exact (Cert.Spec.sitofp_at _ _).trans (congrArg i2f (congrFun (shapeCast_self v0 _) (ix2 κ q)))

end Cert.KernelIdeal.PayAt

end
-- ==== Proof.Value.lean ====
/-
  The kernel's result array, read entry by entry, over the extended reals.

  The grid has 8 × 8 × 4 points; point t stands at row tile t / 32, column tile (t / 4) mod 8 and K-step t mod 4.
  Every window's block at a point is a rectangle of its array: an entry (p, q) of the block sits in the array at
  (block index × block size + p, …). The three arrays made before the grid runs are the activations with batch and
  position flattened into one row index (row r is batch r / 2048, position r mod 2048), and the two weight arrays
  transposed. With these, the accumulator after the K-step kk of a tile is, at (p, q), the outlier term plus the bias
  plus the blocks 0 … kk of the main product, added in that order, for the row and column the entry stands for; the
  output block written at the last K-step is the accumulator; and the output blocks of the 64 tiles cover the result
  array. So the result array holds, at (row, column), the tiled value of the specification.
-/
import proofs.«153761_j15461882266230_1_alg».proof.Proof.Data
import proofs.«153761_j15461882266230_1_alg».proof.Proof.Spec
import proofs.«153761_j15461882266230_1_alg».proof.Proof.PayAt
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.QuantLinear

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-! ## Where each window's block sits, point by point -/

/-- The activation tile: row tile t / 32, K-step t mod 4. -/
theorem idx_act : ∀ t : Fin cfg0.N, win0_0.index t (0 : Fin 2) = t.val / 32 ∧ win0_0.index t (1 : Fin 2) = t.val % 4 :=
  (by decide +kernel : ∀ t : Fin grid0.N, _)
/-- The outlier columns of the activations: row tile t / 32, the last block of 128 columns. -/
theorem idx_actOut : ∀ t : Fin cfg0.N, win0_1.index t (0 : Fin 2) = t.val / 32 ∧ win0_1.index t (1 : Fin 2) = 31 :=
  (by decide +kernel : ∀ t : Fin grid0.N, _)
/-- The quantised weight, transposed: K-step t mod 4, column tile (t / 4) mod 8. -/
theorem idx_qw : ∀ t : Fin cfg0.N, win0_2.index t (0 : Fin 2) = t.val % 4 ∧ win0_2.index t (1 : Fin 2) = t.val / 4 % 8 :=
  (by decide +kernel : ∀ t : Fin grid0.N, _)
/-- The scales: the same. -/
theorem idx_sc : ∀ t : Fin cfg0.N, win0_3.index t (0 : Fin 2) = t.val % 4 ∧ win0_3.index t (1 : Fin 2) = t.val / 4 % 8 :=
  (by decide +kernel : ∀ t : Fin grid0.N, _)
/-- The zero points: the same. -/
theorem idx_zr : ∀ t : Fin cfg0.N, win0_4.index t (0 : Fin 2) = t.val % 4 ∧ win0_4.index t (1 : Fin 2) = t.val / 4 % 8 :=
  (by decide +kernel : ∀ t : Fin grid0.N, _)
/-- The outlier weight, transposed: all 128 rows, column tile (t / 4) mod 8. -/
theorem idx_ow : ∀ t : Fin cfg0.N, win0_5.index t (0 : Fin 2) = 0 ∧ win0_5.index t (1 : Fin 2) = t.val / 4 % 8 :=
  (by decide +kernel : ∀ t : Fin grid0.N, _)
/-- The bias: column tile (t / 4) mod 8. -/
theorem idx_bs : ∀ t : Fin cfg0.N, win0_6.index t (0 : Fin 1) = t.val / 4 % 8 :=
  (by decide +kernel : ∀ t : Fin grid0.N, _)
/-- The output: row tile t / 32, column tile (t / 4) mod 8. -/
theorem idx_out : ∀ t : Fin cfg0.N, win0_7.index t (0 : Fin 2) = t.val / 32 ∧ win0_7.index t (1 : Fin 2) = t.val / 4 % 8 :=
  (by decide +kernel : ∀ t : Fin grid0.N, _)

/-! ## The arguments, and the arrays the grid reads -/

/-- The six arguments on core c, at their literal types. -/
abbrev argX (c : Dev nD) : FVec Ideal ⟨3, ![4, 2048, 4096]⟩ .f32 := m ((c : Thread nD τ).loc main_arg0)
abbrev argQ (c : Dev nD) : IVec ⟨2, ![4096, 4096]⟩ 32 := m ((c : Thread nD τ).loc main_arg1)
abbrev argS (c : Dev nD) : FVec Ideal ⟨2, ![32, 4096]⟩ .f32 := m ((c : Thread nD τ).loc main_arg2)
abbrev argZ (c : Dev nD) : FVec Ideal ⟨2, ![32, 4096]⟩ .f32 := m ((c : Thread nD τ).loc main_arg3)
abbrev argO (c : Dev nD) : FVec Ideal ⟨2, ![4096, 128]⟩ .f32 := m ((c : Thread nD τ).loc main_arg4)
abbrev argB (c : Dev nD) : FVec Ideal ⟨1, ![4096]⟩ .f32 := m ((c : Thread nD τ).loc main_arg5)

/-- The six arrays the windows are cut from, as the grid finds them. -/
abbrev xarr (c : Dev nD) : FVec Ideal ⟨2, ![8192, 4096]⟩ .f32 := V m c main_v0
abbrev qarr (c : Dev nD) : IVec ⟨2, ![4096, 4096]⟩ 32 := V m c main_v1
abbrev sarr (c : Dev nD) : FVec Ideal ⟨2, ![32, 4096]⟩ .f32 := V m c main_arg2
abbrev zarr (c : Dev nD) : FVec Ideal ⟨2, ![32, 4096]⟩ .f32 := V m c main_arg3
abbrev oarr (c : Dev nD) : FVec Ideal ⟨2, ![128, 4096]⟩ .f32 := V m c main_v2
abbrev barr (c : Dev nD) : FVec Ideal ⟨1, ![4096]⟩ .f32 := V m c main_arg5

/-- The activations with batch and position flattened into one row index. -/
theorem xarr_eq (c : Dev nD) :
    xarr m c = shapeCast ⟨2, ![8192, 4096]⟩ (argX m c) shapeCasts_S4x2048x4096_S8192x4096 := by
  show StableHlo.after (hostOps0 (F := Ideal)) (fun b => m (c, b)) (Proc.devRef .tc main_v0) = _
  after_results
  <;> rfl

/-- The quantised weight transposed. -/
theorem qarr_eq (c : Dev nD) :
    qarr m c = transpose ⟨2, ![4096, 4096]⟩ [1, 0] (argQ m c) transposes_S4096x4096_S4096x4096_1_0 := by
  show StableHlo.after (hostOps0 (F := Ideal)) (fun b => m (c, b)) (Proc.devRef .tc main_v1) = _
  after_results
  <;> rfl

/-- The outlier weight transposed. -/
theorem oarr_eq (c : Dev nD) :
    oarr m c = transpose ⟨2, ![128, 4096]⟩ [1, 0] (argO m c) transposes_S4096x128_S128x4096_1_0 := by
  show StableHlo.after (hostOps0 (F := Ideal)) (fun b => m (c, b)) (Proc.devRef .tc main_v2) = _
  after_results
  <;> rfl

/-- The scales, the zero points and the bias are the arguments themselves. -/
theorem sarr_eq (c : Dev nD) : sarr m c = argS m c := by
  show StableHlo.after (hostOps0 (F := Ideal)) (fun b => m (c, b)) (Proc.devRef .tc main_arg2) = _
  after_results
  <;> rfl
theorem zarr_eq (c : Dev nD) : zarr m c = argZ m c := by
  show StableHlo.after (hostOps0 (F := Ideal)) (fun b => m (c, b)) (Proc.devRef .tc main_arg3) = _
  after_results
  <;> rfl
theorem barr_eq (c : Dev nD) : barr m c = argB m c := by
  show StableHlo.after (hostOps0 (F := Ideal)) (fun b => m (c, b)) (Proc.devRef .tc main_arg5) = _
  after_results
  <;> rfl

/-! ## The three made arrays at an index -/

/-- The array [4, 2048, 4096] read as [8192, 4096]: row r is batch r / 2048, position r mod 2048 — the row-major
    positions (r / 2048 * 2048 + r mod 2048) * 4096 + k and r * 4096 + k agree. -/
theorem rows_at {α : Type} (x : (⟨3, ![4, 2048, 4096]⟩ : Shape).Idx → α)
    (h : (⟨3, ![4, 2048, 4096]⟩ : Shape).ShapeCasts ⟨2, ![8192, 4096]⟩) (r : Fin 8192) (k : Fin 4096) :
    shapeCast ⟨2, ![8192, 4096]⟩ x h (ix2 r k)
      = x (ix3 (⟨r.val / 2048, by have := r.isLt; omega⟩ : Fin 4) (⟨r.val % 2048, Nat.mod_lt _ (by decide)⟩ : Fin 2048) k) :=
  shapeCast_apply x h _ _ (by
    rw [Shape.rowMajor_val_three, Shape.rowMajor_val_two]
    show (r.val / 2048 * 2048 + r.val % 2048) * 4096 + k.val = r.val * 4096 + k.val
    omega)

theorem xarr_at (c : Dev nD) (r : Fin 8192) (k : Fin 4096) :
    xarr m c (ix2 r k)
      = argX m c (ix3 (⟨r.val / 2048, by have := r.isLt; omega⟩ : Fin 4) (⟨r.val % 2048, Nat.mod_lt _ (by decide)⟩ : Fin 2048) k) :=
  (congrFun (xarr_eq m c) (ix2 r k)).trans (rows_at (argX m c) shapeCasts_S4x2048x4096_S8192x4096 r k)

theorem qarr_at (c : Dev nD) (k n : Fin 4096) : qarr m c (ix2 k n) = argQ m c (ix2 n k) :=
  (congrFun (qarr_eq m c) (ix2 k n)).trans (transpose_ix2_apply (argQ m c) transposes_S4096x4096_S4096x4096_1_0 k n)

theorem oarr_at (c : Dev nD) (o : Fin 128) (n : Fin 4096) : oarr m c (ix2 o n) = argO m c (ix2 n o) :=
  (congrFun (oarr_eq m c) (ix2 o n)).trans (transpose_ix2_apply (argO m c) transposes_S4096x128_S128x4096_1_0 o n)

/-! ## A block's entry is an entry of its array

On each axis an entry of the block at point t sits at block index × block size + its coordinate in the block. -/

theorem actBlk_read (c : Dev nD) (t : Fin cfg0.N) (p κ : Fin 1024) (r : Fin 8192) (k : Fin 4096)
    (hr : r.val = t.val / 32 * 1024 + p.val) (hk : k.val = t.val % 4 * 1024 + κ.val) :
    actBlk m c t (ix2 p κ) = xarr m c (ix2 r k) := by
  obtain ⟨e0, e1⟩ := idx_act t
  have he : ((cfg0.win 0).blk t).view.emb (ix2 p κ) = ix2 r k := by
    funext a; apply Fin.ext
    match a with
    | ⟨0, _⟩ => show win0_0.index t (0 : Fin 2) * 1024 + 1 * p.val = r.val; omega
    | ⟨1, _⟩ => show win0_0.index t (1 : Fin 2) * 1024 + 1 * κ.val = k.val; omega
  show V m c main_v0 (((cfg0.win 0).blk t).view.emb (ix2 p κ)) = V m c main_v0 (ix2 r k)
  exact congrArg (V m c main_v0) he

theorem actOutBlk_read (c : Dev nD) (t : Fin cfg0.N) (p : Fin 1024) (o : Fin 128) (r : Fin 8192) (k : Fin 4096)
    (hr : r.val = t.val / 32 * 1024 + p.val) (hk : k.val = 3968 + o.val) :
    actOutBlk m c t (ix2 p o) = xarr m c (ix2 r k) := by
  obtain ⟨e0, e1⟩ := idx_actOut t
  have he : ((cfg0.win 1).blk t).view.emb (ix2 p o) = ix2 r k := by
    funext a; apply Fin.ext
    match a with
    | ⟨0, _⟩ => show win0_1.index t (0 : Fin 2) * 1024 + 1 * p.val = r.val; omega
    | ⟨1, _⟩ => show win0_1.index t (1 : Fin 2) * 128 + 1 * o.val = k.val; omega
  show V m c main_v0 (((cfg0.win 1).blk t).view.emb (ix2 p o)) = V m c main_v0 (ix2 r k)
  exact congrArg (V m c main_v0) he

theorem qwBlk_read (c : Dev nD) (t : Fin cfg0.N) (κ : Fin 1024) (q : Fin 512) (k n : Fin 4096)
    (hk : k.val = t.val % 4 * 1024 + κ.val) (hn : n.val = t.val / 4 % 8 * 512 + q.val) :
    qwBlk m c t (ix2 κ q) = qarr m c (ix2 k n) := by
  obtain ⟨e0, e1⟩ := idx_qw t
  have he : ((cfg0.win 2).blk t).view.emb (ix2 κ q) = ix2 k n := by
    funext a; apply Fin.ext
    match a with
    | ⟨0, _⟩ => show win0_2.index t (0 : Fin 2) * 1024 + 1 * κ.val = k.val; omega
    | ⟨1, _⟩ => show win0_2.index t (1 : Fin 2) * 512 + 1 * q.val = n.val; omega
  show V m c main_v1 (((cfg0.win 2).blk t).view.emb (ix2 κ q)) = V m c main_v1 (ix2 k n)
  exact congrArg (V m c main_v1) he

theorem scBlk_read (c : Dev nD) (t : Fin cfg0.N) (g : Fin 8) (q : Fin 512) (G : Fin 32) (n : Fin 4096)
    (hG : G.val = t.val % 4 * 8 + g.val) (hn : n.val = t.val / 4 % 8 * 512 + q.val) :
    scBlk m c t (ix2 g q) = sarr m c (ix2 G n) := by
  obtain ⟨e0, e1⟩ := idx_sc t
  have he : ((cfg0.win 3).blk t).view.emb (ix2 g q) = ix2 G n := by
    funext a; apply Fin.ext
    match a with
    | ⟨0, _⟩ => show win0_3.index t (0 : Fin 2) * 8 + 1 * g.val = G.val; omega
    | ⟨1, _⟩ => show win0_3.index t (1 : Fin 2) * 512 + 1 * q.val = n.val; omega
  show V m c main_arg2 (((cfg0.win 3).blk t).view.emb (ix2 g q)) = V m c main_arg2 (ix2 G n)
  exact congrArg (V m c main_arg2) he

theorem zrBlk_read (c : Dev nD) (t : Fin cfg0.N) (g : Fin 8) (q : Fin 512) (G : Fin 32) (n : Fin 4096)
    (hG : G.val = t.val % 4 * 8 + g.val) (hn : n.val = t.val / 4 % 8 * 512 + q.val) :
    zrBlk m c t (ix2 g q) = zarr m c (ix2 G n) := by
  obtain ⟨e0, e1⟩ := idx_zr t
  have he : ((cfg0.win 4).blk t).view.emb (ix2 g q) = ix2 G n := by
    funext a; apply Fin.ext
    match a with
    | ⟨0, _⟩ => show win0_4.index t (0 : Fin 2) * 8 + 1 * g.val = G.val; omega
    | ⟨1, _⟩ => show win0_4.index t (1 : Fin 2) * 512 + 1 * q.val = n.val; omega
  show V m c main_arg3 (((cfg0.win 4).blk t).view.emb (ix2 g q)) = V m c main_arg3 (ix2 G n)
  exact congrArg (V m c main_arg3) he

theorem owBlk_read (c : Dev nD) (t : Fin cfg0.N) (o : Fin 128) (q : Fin 512) (n : Fin 4096)
    (hn : n.val = t.val / 4 % 8 * 512 + q.val) :
    owBlk m c t (ix2 o q) = oarr m c (ix2 o n) := by
  obtain ⟨e0, e1⟩ := idx_ow t
  have he : ((cfg0.win 5).blk t).view.emb (ix2 o q) = ix2 o n := by
    funext a; apply Fin.ext
    match a with
    | ⟨0, _⟩ => show win0_5.index t (0 : Fin 2) * 128 + 1 * o.val = o.val; omega
    | ⟨1, _⟩ => show win0_5.index t (1 : Fin 2) * 512 + 1 * q.val = n.val; omega
  show V m c main_v2 (((cfg0.win 5).blk t).view.emb (ix2 o q)) = V m c main_v2 (ix2 o n)
  exact congrArg (V m c main_v2) he

theorem bsBlk_read (c : Dev nD) (t : Fin cfg0.N) (q : Fin 512) (n : Fin 4096)
    (hn : n.val = t.val / 4 % 8 * 512 + q.val) :
    bsBlk m c t (ix1 q) = barr m c (ix1 n) := by
  have e0 := idx_bs t
  have he : ((cfg0.win 6).blk t).view.emb (ix1 q) = ix1 n := by
    funext a; apply Fin.ext
    match a with
    | ⟨0, _⟩ => show win0_6.index t (0 : Fin 1) * 512 + 1 * q.val = n.val; omega
  show V m c main_arg5 (((cfg0.win 6).blk t).view.emb (ix1 q)) = V m c main_arg5 (ix1 n)
  exact congrArg (V m c main_arg5) he

/-! ## A block's entry is an entry of an argument -/

theorem act_at (c : Dev nD) (t : Fin cfg0.N) (p κ : Fin 1024) (r : Fin 8192) (k : Fin 4096)
    (hr : r.val = t.val / 32 * 1024 + p.val) (hk : k.val = t.val % 4 * 1024 + κ.val) :
    actBlk m c t (ix2 p κ)
      = argX m c (ix3 (⟨r.val / 2048, by have := r.isLt; omega⟩ : Fin 4) (⟨r.val % 2048, Nat.mod_lt _ (by decide)⟩ : Fin 2048) k) :=
  (actBlk_read m c t p κ r k hr hk).trans (xarr_at m c r k)

theorem actOut_at (c : Dev nD) (t : Fin cfg0.N) (p : Fin 1024) (o : Fin 128) (r : Fin 8192) (k : Fin 4096)
    (hr : r.val = t.val / 32 * 1024 + p.val) (hk : k.val = 3968 + o.val) :
    actOutBlk m c t (ix2 p o)
      = argX m c (ix3 (⟨r.val / 2048, by have := r.isLt; omega⟩ : Fin 4) (⟨r.val % 2048, Nat.mod_lt _ (by decide)⟩ : Fin 2048) k) :=
  (actOutBlk_read m c t p o r k hr hk).trans (xarr_at m c r k)

theorem qw_at (c : Dev nD) (t : Fin cfg0.N) (κ : Fin 1024) (q : Fin 512) (k n : Fin 4096)
    (hk : k.val = t.val % 4 * 1024 + κ.val) (hn : n.val = t.val / 4 % 8 * 512 + q.val) :
    qwBlk m c t (ix2 κ q) = argQ m c (ix2 n k) :=
  (qwBlk_read m c t κ q k n hk hn).trans (qarr_at m c k n)

theorem sc_at (c : Dev nD) (t : Fin cfg0.N) (g : Fin 8) (q : Fin 512) (G : Fin 32) (n : Fin 4096)
    (hG : G.val = t.val % 4 * 8 + g.val) (hn : n.val = t.val / 4 % 8 * 512 + q.val) :
    scBlk m c t (ix2 g q) = argS m c (ix2 G n) :=
  (scBlk_read m c t g q G n hG hn).trans (congrFun (sarr_eq m c) (ix2 G n))

theorem zr_at (c : Dev nD) (t : Fin cfg0.N) (g : Fin 8) (q : Fin 512) (G : Fin 32) (n : Fin 4096)
    (hG : G.val = t.val % 4 * 8 + g.val) (hn : n.val = t.val / 4 % 8 * 512 + q.val) :
    zrBlk m c t (ix2 g q) = argZ m c (ix2 G n) :=
  (zrBlk_read m c t g q G n hG hn).trans (congrFun (zarr_eq m c) (ix2 G n))

theorem ow_at (c : Dev nD) (t : Fin cfg0.N) (o : Fin 128) (q : Fin 512) (n : Fin 4096)
    (hn : n.val = t.val / 4 % 8 * 512 + q.val) :
    owBlk m c t (ix2 o q) = argO m c (ix2 n o) :=
  (owBlk_read m c t o q n hn).trans (oarr_at m c o n)

theorem bs_at (c : Dev nD) (t : Fin cfg0.N) (q : Fin 512) (n : Fin 4096)
    (hn : n.val = t.val / 4 % 8 * 512 + q.val) :
    bsBlk m c t (ix1 q) = argB m c (ix1 n) :=
  (bsBlk_read m c t q n hn).trans (congrFun (barr_eq m c) (ix1 n))

/-! ## The accumulator through a tile's four K-steps -/

/-- The reset value at (p, q): the outlier term of the entry's row and column, plus the bias of its column. -/
theorem init_at (c : Dev nD) (t : Fin cfg0.N) (p : Fin 1024) (q : Fin 512) (r : Fin 8192) (n : Fin 4096)
    (hr : r.val = t.val / 32 * 1024 + p.val) (hn : n.val = t.val / 4 % 8 * 512 + q.val) :
    accInit m c t (ix2 p q) = Cert.Spec.outl (argX m c) (argO m c) r n + argB m c (ix1 n) := by
  show k0_pay1 (F := Ideal) (actOutBlk m c t) (owBlk m c t) (bsBlk m c t) (ix2 p q) = _
  refine (PayAt.pay1_at (actOutBlk m c t) (owBlk m c t) (bsBlk m c t) p q).trans ?_
  unfold Cert.Spec.outl
  refine PayAt.add_both (Finset.sum_congr rfl fun o _ => ?_) (bs_at m c t q n hn)
  have ho : o.val < 128 := o.isLt
  exact PayAt.mul_both (actOut_at m c t p o r (⟨3968 + o.val, by omega⟩ : Fin 4096) hr rfl) (ow_at m c t o q n hn)

/-- This K-step's product at (p, q) is block kk of the main product, kk the point's K-step. -/
theorem main_term (c : Dev nD) (t : Fin cfg0.N) (kk : Fin 4) (hkk : t.val % 4 = kk.val)
    (p : Fin 1024) (q : Fin 512) (r : Fin 8192) (n : Fin 4096)
    (hr : r.val = t.val / 32 * 1024 + p.val) (hn : n.val = t.val / 4 % 8 * 512 + q.val) :
    (∑ κ : Fin 1024, actBlk m c t (ix2 p κ) *
        (Cert.Spec.i2f (qwBlk m c t (ix2 κ q)) * scBlk m c t (ix2 (⟨κ.val / 128, by have := κ.isLt; omega⟩ : Fin 8) q)
          + zrBlk m c t (ix2 (⟨κ.val / 128, by have := κ.isLt; omega⟩ : Fin 8) q)))
      = Cert.Spec.M (argX m c) (argQ m c) (argS m c) (argZ m c) r n kk := by
  unfold Cert.Spec.M Cert.Spec.deq
  refine Finset.sum_congr rfl fun κ _ => ?_
  have hκ : κ.val < 1024 := κ.isLt
  have h4 : kk.val < 4 := kk.isLt
  have hx := act_at m c t p κ r (⟨kk.val * 1024 + κ.val, by omega⟩ : Fin 4096) hr
    (by show kk.val * 1024 + κ.val = t.val % 4 * 1024 + κ.val; omega)
  have hq := qw_at m c t κ q (⟨kk.val * 1024 + κ.val, by omega⟩ : Fin 4096) n
    (by show kk.val * 1024 + κ.val = t.val % 4 * 1024 + κ.val; omega) hn
  have hs := sc_at m c t (⟨κ.val / 128, by omega⟩ : Fin 8) q (⟨(kk.val * 1024 + κ.val) / 128, by omega⟩ : Fin 32) n
    (by show (kk.val * 1024 + κ.val) / 128 = t.val % 4 * 8 + κ.val / 128; omega) hn
  have hz := zr_at m c t (⟨κ.val / 128, by omega⟩ : Fin 8) q (⟨(kk.val * 1024 + κ.val) / 128, by omega⟩ : Fin 32) n
    (by show (kk.val * 1024 + κ.val) / 128 = t.val % 4 * 8 + κ.val / 128; omega) hn
  exact PayAt.mul_both hx (PayAt.add_both (PayAt.mul_both (congrArg Cert.Spec.i2f hq) hs) hz)

/-- One K-step: the accumulator it finds, plus block kk of the main product. -/
theorem acc_step (c : Dev nD) (t : Fin cfg0.N) (kk : Fin 4) (hkk : t.val % 4 = kk.val)
    (prev : Vec Ideal S1024x512 .f32) (p : Fin 1024) (q : Fin 512) (r : Fin 8192) (n : Fin 4096)
    (hr : r.val = t.val / 32 * 1024 + p.val) (hn : n.val = t.val / 4 % 8 * 512 + q.val) :
    k0_pay2 (F := Ideal) (qwBlk m c t) (scBlk m c t) (zrBlk m c t) (actBlk m c t) prev (ix2 p q)
      = prev (ix2 p q) + Cert.Spec.M (argX m c) (argQ m c) (argS m c) (argZ m c) r n kk :=
  (PayAt.pay2_at (qwBlk m c t) (scBlk m c t) (zrBlk m c t) (actBlk m c t) prev p q).trans
    (PayAt.add_both rfl (main_term m c t kk hkk p q r n hr hn))

/-- After the first K-step of a tile. -/
theorem acc_k0 (c : Dev nD) (t : Fin cfg0.N) (h : t.val % 4 = 0)
    (p : Fin 1024) (q : Fin 512) (r : Fin 8192) (n : Fin 4096)
    (hr : r.val = t.val / 32 * 1024 + p.val) (hn : n.val = t.val / 4 % 8 * 512 + q.val) :
    accAt m c t.val t.isLt (ix2 p q)
      = (Cert.Spec.outl (argX m c) (argO m c) r n + argB m c (ix1 n))
        + Cert.Spec.M (argX m c) (argQ m c) (argS m c) (argZ m c) r n 0 :=
  (congrFun (accAt_first m c t h) (ix2 p q)).trans
    ((acc_step m c t 0 h (accInit m c t) p q r n hr hn).trans (PayAt.add_both (init_at m c t p q r n hr hn) rfl))

/-- After the second: the point before is the same tile's first K-step. -/
theorem acc_k1 (c : Dev nD) (t : Fin cfg0.N) (h : t.val % 4 = 1)
    (p : Fin 1024) (q : Fin 512) (r : Fin 8192) (n : Fin 4096)
    (hr : r.val = t.val / 32 * 1024 + p.val) (hn : n.val = t.val / 4 % 8 * 512 + q.val) :
    accAt m c t.val t.isLt (ix2 p q)
      = ((Cert.Spec.outl (argX m c) (argO m c) r n + argB m c (ix1 n))
        + Cert.Spec.M (argX m c) (argQ m c) (argS m c) (argZ m c) r n 0)
        + Cert.Spec.M (argX m c) (argQ m c) (argS m c) (argZ m c) r n 1 := by
  have hprev := acc_k0 m c (⟨t.val - 1, Nat.lt_of_le_of_lt (Nat.sub_le _ _) t.isLt⟩ : Fin cfg0.N)
    (by show (t.val - 1) % 4 = 0; omega) p q r n
    (by show r.val = (t.val - 1) / 32 * 1024 + p.val; omega)
    (by show n.val = (t.val - 1) / 4 % 8 * 512 + q.val; omega)
  exact (congrFun (accAt_next m c t (by omega)) (ix2 p q)).trans
    ((acc_step m c t 1 h (accAt m c (t.val - 1) (Nat.lt_of_le_of_lt (Nat.sub_le _ _) t.isLt)) p q r n hr hn).trans
      (PayAt.add_both hprev rfl))

/-- After the third. -/
theorem acc_k2 (c : Dev nD) (t : Fin cfg0.N) (h : t.val % 4 = 2)
    (p : Fin 1024) (q : Fin 512) (r : Fin 8192) (n : Fin 4096)
    (hr : r.val = t.val / 32 * 1024 + p.val) (hn : n.val = t.val / 4 % 8 * 512 + q.val) :
    accAt m c t.val t.isLt (ix2 p q)
      = (((Cert.Spec.outl (argX m c) (argO m c) r n + argB m c (ix1 n))
        + Cert.Spec.M (argX m c) (argQ m c) (argS m c) (argZ m c) r n 0)
        + Cert.Spec.M (argX m c) (argQ m c) (argS m c) (argZ m c) r n 1)
        + Cert.Spec.M (argX m c) (argQ m c) (argS m c) (argZ m c) r n 2 := by
  have hprev := acc_k1 m c (⟨t.val - 1, Nat.lt_of_le_of_lt (Nat.sub_le _ _) t.isLt⟩ : Fin cfg0.N)
    (by show (t.val - 1) % 4 = 1; omega) p q r n
    (by show r.val = (t.val - 1) / 32 * 1024 + p.val; omega)
    (by show n.val = (t.val - 1) / 4 % 8 * 512 + q.val; omega)
  exact (congrFun (accAt_next m c t (by omega)) (ix2 p q)).trans
    ((acc_step m c t 2 h (accAt m c (t.val - 1) (Nat.lt_of_le_of_lt (Nat.sub_le _ _) t.isLt)) p q r n hr hn).trans
      (PayAt.add_both hprev rfl))

/-- After the last: the tiled value of the specification. -/
theorem acc_k3 (c : Dev nD) (t : Fin cfg0.N) (h : t.val % 4 = 3)
    (p : Fin 1024) (q : Fin 512) (r : Fin 8192) (n : Fin 4096)
    (hr : r.val = t.val / 32 * 1024 + p.val) (hn : n.val = t.val / 4 % 8 * 512 + q.val) :
    accAt m c t.val t.isLt (ix2 p q)
      = Cert.Spec.tileVal (argX m c) (argQ m c) (argS m c) (argZ m c) (argO m c) (argB m c) r n := by
  have hprev := acc_k2 m c (⟨t.val - 1, Nat.lt_of_le_of_lt (Nat.sub_le _ _) t.isLt⟩ : Fin cfg0.N)
    (by show (t.val - 1) % 4 = 2; omega) p q r n
    (by show r.val = (t.val - 1) / 32 * 1024 + p.val; omega)
    (by show n.val = (t.val - 1) / 4 % 8 * 512 + q.val; omega)
  unfold Cert.Spec.tileVal
  exact (congrFun (accAt_next m c t (by omega)) (ix2 p q)).trans
    ((acc_step m c t 3 h (accAt m c (t.val - 1) (Nat.lt_of_le_of_lt (Nat.sub_le _ _) t.isLt)) p q r n hr hn).trans
      (PayAt.add_both hprev rfl))

/-! ## From the output blocks to the result array -/

/-- The tiled value of the specification at every (row, column), as one array. -/
def tileArr (c : Dev nD) : FVec Ideal ⟨2, ![8192, 4096]⟩ .f32 :=
  fun i => Cert.Spec.tileVal (argX m c) (argQ m c) (argS m c) (argZ m c) (argO m c) (argB m c) (i 0) (i 1)

theorem tileArr_apply (c : Dev nD) (r : Fin 8192) (n : Fin 4096) :
    tileArr m c (ix2 r n)
      = Cert.Spec.tileVal (argX m c) (argQ m c) (argS m c) (argZ m c) (argO m c) (argB m c) r n := rfl

/-- The accumulator after a tile's last K-step is that tile's block of the array of tiled values. -/
theorem out_block (c : Dev nD) (t : Fin cfg0.N) (h3 : t.val % 4 = 3) (y : (⟨2, ![1024, 512]⟩ : Shape).Idx) :
    accAt m c t.val t.isLt y = tileArr m c (((cfg0.win 7).blk t).view.emb y) := by
  obtain ⟨p, q, rfl⟩ : ∃ (p : Fin 1024) (q : Fin 512), y = ix2 p q := ⟨y 0, y 1, eq_ix2 y⟩
  have hN : cfg0.N = 256 := N_0
  have ht : t.val < cfg0.N := t.isLt
  have hp : p.val < 1024 := p.isLt
  have hq : q.val < 512 := q.isLt
  obtain ⟨e0, e1⟩ := idx_out t
  have he : ((cfg0.win 7).blk t).view.emb (ix2 p q)
      = ix2 (⟨t.val / 32 * 1024 + p.val, by omega⟩ : Fin 8192) (⟨t.val / 4 % 8 * 512 + q.val, by omega⟩ : Fin 4096) := by
    funext a; apply Fin.ext
    match a with
    | ⟨0, _⟩ => show win0_7.index t (0 : Fin 2) * 1024 + 1 * p.val = t.val / 32 * 1024 + p.val; omega
    | ⟨1, _⟩ => show win0_7.index t (1 : Fin 2) * 512 + 1 * q.val = t.val / 4 % 8 * 512 + q.val; omega
  rw [he, tileArr_apply]
  exact acc_k3 m c t h3 p q _ _ rfl rfl

/-- What a tile's last K-step writes back is its block of the array of tiled values. -/
theorem out_flushed (c : Dev nD) (t : Fin cfg0.N) (hf : (cfg0.win 7).flush t = true) :
    (dats m 0 c).flushed 7 t = ((cfg0.win 7).blk t).view.read (Elt Ideal) (tileArr m c) := by
  have h3 : t.val % 4 = 3 := (flush0_7 t).mp hf
  show (cfg0.win 7).cut (grid0.coords t) ((dats m 0 c).after 7 t) = _
  rw [after_7]
  funext y
  exact out_block m c t h3 y

/-- An index of the result array is in the output block of point t iff each coordinate is in the block's range. -/
theorem mem_out (t : Fin cfg0.N) (i : (⟨2, ![8192, 4096]⟩ : Shape).Idx) :
    i ∈ ((cfg0.win 7).blk t).view.set
      ↔ ∀ a : Fin 2, win0_7.index t a * S1024x512.size a ≤ (i a).val
          ∧ (i a).val < win0_7.index t a * S1024x512.size a + S1024x512.size a := by
  show i ∈ ((View.whole main_v3).slice (win0_7.rect t)).set ↔ _
  rw [View.set_slice_whole, Rect.mem_set_unit]
  exact Iff.rfl

/-- Every (row, column) is in the block written back at the last K-step of its tile. -/
theorem out_cover (i : (⟨2, ![8192, 4096]⟩ : Shape).Idx) :
    ∃ t : Fin cfg0.N, (cfg0.win 7).flush t = true ∧ i ∈ ((cfg0.win 7).blk t).view.set := by
  have hN : cfg0.N = 256 := N_0
  have h0 : (i 0).val < 8192 := idx2_lt0 i
  have h1 : (i 1).val < 4096 := idx2_lt1 i
  obtain ⟨t, ht⟩ : ∃ t : Fin cfg0.N, t.val = ((i 0).val / 1024 * 8 + (i 1).val / 512) * 4 + 3 :=
    ⟨⟨((i 0).val / 1024 * 8 + (i 1).val / 512) * 4 + 3, by omega⟩, rfl⟩
  obtain ⟨e0, e1⟩ := idx_out t
  refine ⟨t, (flush0_7 t).mpr (by omega), ?_⟩
  rw [mem_out]
  intro a
  match a with
  | ⟨0, _⟩ =>
    show win0_7.index t (0 : Fin 2) * 1024 ≤ (i 0).val ∧ (i 0).val < win0_7.index t (0 : Fin 2) * 1024 + 1024
    omega
  | ⟨1, _⟩ =>
    show win0_7.index t (1 : Fin 2) * 512 ≤ (i 1).val ∧ (i 1).val < win0_7.index t (1 : Fin 2) * 512 + 512
    omega

/-- The result array after the grid has run is the array of tiled values. -/
theorem out_final (c : Dev nD) : (dats m 0 c).arrAt 7 cfg0.N = tileArr m c :=
  (dats m 0 c).arrAt_eq_of_cover 7 (tileArr m c) (out_flushed m c) (fun i => out_cover i)

/-- THE VALUE BRIDGE: the result array at (row, column) is the specification's tiled value there. -/
theorem result_tile (c : Dev nD) (mr : Fin 8192) (n : Fin 4096) :
    ((dats m 0 c).arrAt 7 cfg0.N) (ix2 mr n)
      = Cert.Spec.tileVal (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) mr n :=
  congrFun (out_final m c) (ix2 mr n)

/-! ## The result reshaped back to [4, 2048, 4096] is the reference's value -/

/-- The array [8192, 4096] read as [4, 2048, 4096]: batch b, position s is row b * 2048 + s — the same row-major
    position. -/
theorem unrows_at {α : Type} (x : (⟨2, ![8192, 4096]⟩ : Shape).Idx → α)
    (h : (⟨2, ![8192, 4096]⟩ : Shape).ShapeCasts ⟨3, ![4, 2048, 4096]⟩) (b : Fin 4) (s : Fin 2048) (n : Fin 4096) :
    shapeCast ⟨3, ![4, 2048, 4096]⟩ x h (ix3 b s n)
      = x (ix2 (⟨b.val * 2048 + s.val, by have := b.isLt; have := s.isLt; omega⟩ : Fin 8192) n) :=
  shapeCast_apply x h _ _ (by
    rw [Shape.rowMajor_val_two, Shape.rowMajor_val_three]
    show (b.val * 2048 + s.val) * 4096 + n.val = (b.val * 2048 + s.val) * 4096 + n.val
    rfl)

/-- THE PROGRAM'S RESULT, the result array read as [4, 2048, 4096], is the reference's value: entry (b, s, n) is row
    b * 2048 + s, column n of the result array, the tiled value there, which is the reference's value regrouped. -/
theorem result_eq (c : Dev nD) :
    shapeCast (s := S8192x4096) (α := Elt Ideal .f32) S4x2048x4096 ((dats (F := Ideal) m 0 c).arrAt 7 cfg0.N)
        shapeCasts_S8192x4096_S4x2048x4096
      = Cert.Spec.refVal (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  funext j
  obtain ⟨b, s, n, rfl⟩ : ∃ (b : Fin 4) (s : Fin 2048) (n : Fin 4096), j = ix3 b s n := ⟨j 0, j 1, j 2, eq_ix3 j⟩
  refine (unrows_at ((dats m 0 c).arrAt 7 cfg0.N) shapeCasts_S8192x4096_S4x2048x4096 b s n).trans ?_
  exact (result_tile m c (⟨b.val * 2048 + s.val, by have := b.isLt; have := s.isLt; omega⟩ : Fin 8192) n).trans
    (Cert.Spec.refVal_eq_tileVal (argX m c) (argQ m c) (argS m c) (argZ m c) (argO m c) (argB m c) b s n).symm

end Cert.KernelIdeal.QuantLinear

end
-- ==== Proof.RefIsSpec.lean ====
/-
  The reference program's result, index by index, is the specification: each of its sixteen operations is read at an
  index, the two contractions become sums over `Fin 4096` and `Fin 128`, the broadcast, reshape and transpose of the
  per-group scales and scaled zeros are read at `[n, k]` as the entry `[k / 128, n]`, and the slice starts at 3968.
-/
import proofs.«153761_j15461882266230_1_alg».proof.Proof.Gen.ReferenceIdeal.Read
import proofs.«153761_j15461882266230_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The per-group arrays read at `[n, k]` -/

/-- Broadcast along a new middle axis of 128, flattened to 4096 rows, transposed: the entry `[n, k]` is the entry
    `[k / 128, n]` of the per-group array, because `(k * 4096 + n) / 524288 = k / 128` and
    `(k * 4096 + n) % 4096 = n` for `n < 4096`. -/
theorem group_idx (n k : Fin 4096) :
    idx_main_v0 (idx_main_v1 (idx_main_v2 (ix2 n k)))
      = (ix2 (⟨k.val / 128, by have := k.isLt; omega⟩ : Fin 32) n : S32x4096.Idx) :=
  funext fun a => Fin.ext (by
    have hn := n.isLt
    have hk := k.isLt
    match a with
    | ⟨0, _⟩ =>
      show (k.val * 4096 + n.val) / 524288 = k.val / 128
      omega
    | ⟨1, _⟩ =>
      show (k.val * 4096 + n.val) % 4096 = n.val
      omega)

/-- The same for the second per-group array (the index functions are the same functions under other names). -/
theorem group_idx' (n k : Fin 4096) :
    idx_main_v3 (idx_main_v4 (idx_main_v5 (ix2 n k)))
      = (ix2 (⟨k.val / 128, by have := k.isLt; omega⟩ : Fin 32) n : S32x4096.Idx) :=
  funext fun a => Fin.ext (by
    have hn := n.isLt
    have hk := k.isLt
    match a with
    | ⟨0, _⟩ =>
      show (k.val * 4096 + n.val) / 524288 = k.val / 128
      omega
    | ⟨1, _⟩ =>
      show (k.val * 4096 + n.val) % 4096 = n.val
      omega)

/-- The dequantised weight array read at `[n, k]`. -/
theorem weight_at (a1 : (⟨S4096x4096, .i32⟩ : BufTy).Contents (Elt Ideal))
    (a2 a3 : (⟨S32x4096, .f32⟩ : BufTy).Contents (Elt Ideal)) (n k : Fin 4096) :
    val_main_v8 (F := Ideal) a1 a2 a3 (ix2 n k) = Cert.Spec.deq a1 a2 a3 k n := by
  rw [val_main_v8_apply, val_main_v7_apply, val_main_v6_apply, val_main_v2_apply, val_main_v1_apply,
    val_main_v0_apply, val_main_v5_apply, val_main_v4_apply, val_main_v3_apply, group_idx, group_idx']
  rfl

/-! ## The two contractions, the bias -/

/-- The main contraction at `[b, s, n]`: the sum over `k` of `x[b,s,k]` times the dequantised weight `[n,k]`. -/
theorem main_at (a0 : (⟨S4x2048x4096, .f32⟩ : BufTy).Contents (Elt Ideal))
    (a1 : (⟨S4096x4096, .i32⟩ : BufTy).Contents (Elt Ideal))
    (a2 a3 : (⟨S32x4096, .f32⟩ : BufTy).Contents (Elt Ideal)) (b : Fin 4) (s : Fin 2048) (n : Fin 4096) :
    val_main_v9 (F := Ideal) a0 a1 a2 a3 (ix3 b s n)
      = ∑ k : Fin 4096, a0 (ix3 b s k) * Cert.Spec.deq a1 a2 a3 k n := by
  rw [val_main_v9_apply]
  refine Finset.sum_congr rfl fun k _ => ?_
  have el : lidx_main_v9 (ix3 b s n) k = (ix3 b s k : S4x2048x4096.Idx) :=
    funext fun a => Fin.ext (by match a with | ⟨0, _⟩ => rfl | ⟨1, _⟩ => rfl | ⟨2, _⟩ => rfl)
  have er : ridx_main_v9 (ix3 b s n) k = (ix2 n k : S4096x4096.Idx) :=
    funext fun a => Fin.ext (by match a with | ⟨0, _⟩ => rfl | ⟨1, _⟩ => rfl)
  rw [el, er, weight_at]

/-- The outlier contraction at `[b, s, n]`: the sum over `o` of `x[b,s,3968+o]` times `ow[n,o]`. -/
theorem outl_at (a0 : (⟨S4x2048x4096, .f32⟩ : BufTy).Contents (Elt Ideal))
    (a4 : (⟨S4096x128, .f32⟩ : BufTy).Contents (Elt Ideal)) (b : Fin 4) (s : Fin 2048) (n : Fin 4096) :
    val_main_v11 (F := Ideal) a0 a4 (ix3 b s n)
      = ∑ o : Fin 128, a0 (ix3 b s (⟨3968 + o.val, by have := o.isLt; omega⟩ : Fin 4096)) * a4 (ix2 n o) := by
  rw [val_main_v11_apply]
  refine Finset.sum_congr rfl fun o _ => ?_
  have el : idx_main_v10 (lidx_main_v11 (ix3 b s n) o)
      = (ix3 b s (⟨3968 + o.val, by have := o.isLt; omega⟩ : Fin 4096) : S4x2048x4096.Idx) :=
    funext fun a => Fin.ext (by match a with | ⟨0, _⟩ => rfl | ⟨1, _⟩ => rfl | ⟨2, _⟩ => rfl)
  have er : ridx_main_v11 (ix3 b s n) o = (ix2 n o : S4096x128.Idx) :=
    funext fun a => Fin.ext (by match a with | ⟨0, _⟩ => rfl | ⟨1, _⟩ => rfl)
  rw [val_main_v10_apply, el, er]

/-- The bias broadcast over batch and position, read at `[b, s, n]`. -/
theorem bias_at (a5 : (⟨S4096, .f32⟩ : BufTy).Contents (Elt Ideal)) (b : Fin 4) (s : Fin 2048) (n : Fin 4096) :
    val_main_v14 (F := Ideal) a5 (ix3 b s n) = a5 (ix1 n) := by
  have e : idx_main_v13 (idx_main_v14 (ix3 b s n)) = (ix1 n : S4096.Idx) :=
    funext fun a => Fin.ext (by match a with | ⟨0, _⟩ => rfl)
  rw [val_main_v14_apply, val_main_v13_apply, e]

/-! ## The result -/

/-- The reference's result, as a function of its six arguments, is the specification's array. -/
theorem result_eq (a0 : (⟨S4x2048x4096, .f32⟩ : BufTy).Contents (Elt Ideal))
    (a1 : (⟨S4096x4096, .i32⟩ : BufTy).Contents (Elt Ideal))
    (a2 a3 : (⟨S32x4096, .f32⟩ : BufTy).Contents (Elt Ideal))
    (a4 : (⟨S4096x128, .f32⟩ : BufTy).Contents (Elt Ideal))
    (a5 : (⟨S4096, .f32⟩ : BufTy).Contents (Elt Ideal)) :
    val_main_v15 (F := Ideal) a0 a1 a2 a3 a4 a5 = Cert.Spec.refVal a0 a1 a2 a3 a4 a5 := by
  funext i
  obtain ⟨b, s, n, rfl⟩ : ∃ (b : Fin 4) (s : Fin 2048) (n : Fin 4096), i = ix3 b s n :=
    ⟨i 0, i 1, i 2, eq_ix3 i⟩
  rw [Cert.Spec.refVal_apply, val_main_v15_apply, val_main_v12_apply, main_at, outl_at, bias_at]
  rfl

end Cert.ReferenceIdeal.RefValue

end
-- ==== Proof.lean ====
/-
  QuantLinear: a 4-bit-dequantised matmul fused with an outlier linear layer and a bias, against its jnp reference.

  Over the extended reals both programs compute, at row (b, s) and output feature n,

      Σ_k x[b,s,k] · (float(q[n,k]) · scale[k/128, n] + zero[k/128, n])  +  Σ_o x[b,s,3968+o] · ow[n,o]  +  bias[n].

  The reference adds them in that order. The kernel walks a grid of row tiles × column tiles × four K-tiles: at a
  tile's first K-step it resets a scratch accumulator to the outlier product plus the bias, at every K-step it adds
  that K-tile's partial product (1024 terms of the first sum), and at the last it copies the accumulator out. The two
  results differ only in how one finite sum is split and bracketed, and addition of extended reals is commutative and
  associative; no product is redistributed, so no finiteness of the inputs is used. Format changes (the bf16 casts)
  are the identity on extended reals, and the accelerator's matrix product into a zero accumulator and the host's
  dot_general are the same sum.

  The frames (both kernel programs run to the end and leave their arguments alone) come from the pipeline's proof
  data — the accumulator followed through the grid, each input window's buffer at its array's block — and the launch
  of @main as host operations, the region, a host operation. The activation array feeds two windows of the kernel
  (the K-tile in turn and the last 128 columns), so each window holds half of it across the region.
-/
import proofs.«153761_j15461882266230_1_alg».proof.Defs
import proofs.«153761_j15461882266230_1_alg».proof.Proof.Gen.Kernel
import proofs.«153761_j15461882266230_1_alg».proof.Proof.Gen.KernelIdeal
import proofs.«153761_j15461882266230_1_alg».proof.Proof.Gen.ReferenceIdeal
import proofs.«153761_j15461882266230_1_alg».proof.Proof.Gen.Pre_finite_inputs
import proofs.«153761_j15461882266230_1_alg».proof.Proof.Gen.ReferenceIdeal.Run
import proofs.«153761_j15461882266230_1_alg».proof.Proof.Launch
import proofs.«153761_j15461882266230_1_alg».proof.Proof.Bits.Launch
import proofs.«153761_j15461882266230_1_alg».proof.Proof.Value
import proofs.«153761_j15461882266230_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.QuantLinear.frame_args m ρ

/-- So does the idealized kernel program. -/
theorem frame_ki : Cert.frame_KernelIdeal := fun m ρ _ => Cert.KernelIdeal.QuantLinear.frame_args m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the reference's value of the
    arguments: the kernel's accumulated tiles, reshaped, by the value bridge; the reference's operations read index by
    index. -/
theorem algebraic : Cert.algebraic_KernelIdeal_ReferenceIdeal := by
  intro m ρ m' ρ' _ hagree
  refine ⟨fun c => Cert.Spec.refVal (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.QuantLinear.result_eq m c), (h c).2⟩)
      (Cert.KernelIdeal.QuantLinear.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v15_eq, Cert.ReferenceIdeal.RefValue.result_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
